-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v65)) (v2 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_v97) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x512 : Shape := ⟨2, ![256, 512]⟩
abbrev S256 : Shape := ⟨1, ![256]⟩
abbrev S100000x32 : Shape := ⟨2, ![100000, 32]⟩
abbrev S8192 : Shape := ⟨1, ![8192]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x512 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S100000x256 .f32) (main_arg1 : FVec F S100000x256 .f32) (main_arg2 : FVec F S256x512 .f32) (main_arg3 : FVec F S256 .f32) (main_arg4 : FVec F S256x512 .f32) (main_arg5 : FVec F S256 .f32) (main_arg6 : IVec S100000x32 32) (main_arg7 : IVec S8192 32) (main_arg8 : IVec S8192 32) (main_arg9 : IVec S10 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S100000x256 : Shape := ⟨2, ![100000, 256]⟩
abbrev S256x512 : Shape := ⟨2, ![256, 512]⟩
abbrev S256 : Shape := ⟨1, ![256]⟩
abbrev S100000x32 : Shape := ⟨2, ![100000, 32]⟩
abbrev S8192 : Shape := ⟨1, ![8192]⟩
abbrev S10 : Shape := ⟨1, ![10]⟩
abbrev S512x256 : Shape := ⟨2, ![512, 256]⟩
abbrev S1x256 : Shape := ⟨2, ![1, 256]⟩
abbrev S_ : Shape := ⟨0, ![]⟩
abbrev S8192x1 : Shape := ⟨2, ![8192, 1]⟩
abbrev S8192x256 : Shape := ⟨2, ![8192, 256]⟩
abbrev S8192x32 : Shape := ⟨2, ![8192, 32]⟩
abbrev S8192x32x1 : Shape := ⟨3, ![8192, 32, 1]⟩
abbrev S8192x32x256 : Shape := ⟨3, ![8192, 32, 256]⟩
abbrev S128x32x256 : Shape := ⟨3, ![128, 32, 256]⟩
abbrev S128x256 : Shape := ⟨2, ![128, 256]⟩
abbrev S128x32x512 : Shape := ⟨3, ![128, 32, 512]⟩
abbrev S4096x512 : Shape := ⟨2, ![4096, 512]⟩
abbrev S4096x256 : Shape := ⟨2, ![4096, 256]⟩
abbrev S128x512 : Shape := ⟨2, ![128, 512]⟩
abbrev S128 : Shape := ⟨1, ![128]⟩
abbrev S128x1 : Shape := ⟨2, ![128, 1]⟩
abbrev S118 : Shape := ⟨1, ![118]⟩
abbrev S128x32 : Shape := ⟨2, ![128, 32]⟩
abbrev S128x32x1 : Shape := ⟨3, ![128, 32, 1]⟩
abbrev S10x256 : Shape := ⟨2, ![10, 256]⟩

abbrev nBuf : Space → Nat
  | .hbm => 133
  | .vmem => 32
  | .smem => 0
  | _ => 0

abbrev hbmTy0_0 (i : Nat) : BufTy := match i % 128 with
  | 0 => ⟨S100000x256, .f32⟩
  | 1 => ⟨S100000x256, .f32⟩
  | 2 => ⟨S256x512, .f32⟩
  | 3 => ⟨S256, .f32⟩
  | 4 => ⟨S256x512, .f32⟩
  | 5 => ⟨S256, .f32⟩
  | 6 => ⟨S100000x32, .i32⟩
  | 7 => ⟨S8192, .i32⟩
  | 8 => ⟨S8192, .i32⟩
  | 9 => ⟨S10, .i32⟩
  | 10 => ⟨S100000x256, .bf16⟩
  | 11 => ⟨S100000x256, .bf16⟩
  | 12 => ⟨S512x256, .f32⟩
  | 13 => ⟨S512x256, .bf16⟩
  | 14 => ⟨S512x256, .f32⟩
  | 15 => ⟨S512x256, .bf16⟩
  | 16 => ⟨S1x256, .f32⟩
  | 17 => ⟨S1x256, .f32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S8192x256, .bf16⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x32, .i32⟩
  | 36 => ⟨S_, .i32⟩
  | 37 => ⟨S8192x32, .i32⟩
  | 38 => ⟨S8192x32, .i1⟩
  | 39 => ⟨S_, .i32⟩
  | 40 => ⟨S8192x32, .i32⟩
  | 41 => ⟨S8192x32, .i32⟩
  | 42 => ⟨S8192x32, .i32⟩
  | 43 => ⟨S8192x32x1, .i32⟩
  | 44 => ⟨S8192x32x256, .bf16⟩
  | 45 => ⟨S_, .i32⟩
  | 46 => ⟨S8192x32, .i32⟩
  | 47 => ⟨S8192x32, .i1⟩
  | 48 => ⟨S_, .i32⟩
  | 49 => ⟨S8192x32, .i32⟩
  | 50 => ⟨S8192x32, .i32⟩
  | 51 => ⟨S8192x32, .i32⟩
  | 52 => ⟨S8192x32x1, .i32⟩
  | 53 => ⟨S8192x32x256, .bf16⟩
  | 54 => ⟨S8192x256, .f32⟩
  | 55 => ⟨S_, .i32⟩
  | 56 => ⟨S8192, .i32⟩
  | 57 => ⟨S8192, .i1⟩
  | 58 => ⟨S_, .i32⟩
  | 59 => ⟨S8192, .i32⟩
  | 60 => ⟨S8192, .i32⟩
  | 61 => ⟨S8192, .i32⟩
  | 62 => ⟨S8192x1, .i32⟩
  | 63 => ⟨S8192x256, .bf16⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x32, .i32⟩
  | 73 => ⟨S_, .i32⟩
  | 74 => ⟨S8192x32, .i32⟩
  | 75 => ⟨S8192x32, .i1⟩
  | 76 => ⟨S_, .i32⟩
  | 77 => ⟨S8192x32, .i32⟩
  | 78 => ⟨S8192x32, .i32⟩
  | 79 => ⟨S8192x32, .i32⟩
  | 80 => ⟨S8192x32x1, .i32⟩
  | 81 => ⟨S8192x32x256, .bf16⟩
  | 82 => ⟨S_, .i32⟩
  | 83 => ⟨S8192x32, .i32⟩
  | 84 => ⟨S8192x32, .i1⟩
  | 85 => ⟨S_, .i32⟩
  | 86 => ⟨S8192x32, .i32⟩
  | 87 => ⟨S8192x32, .i32⟩
  | 88 => ⟨S8192x32, .i32⟩
  | 89 => ⟨S8192x32x1, .i32⟩
  | 90 => ⟨S8192x32x256, .bf16⟩
  | 91 => ⟨S8192x256, .f32⟩
  | 92 => ⟨S_, .i32⟩
  | 93 => ⟨S118, .i32⟩
  | 94 => ⟨S128, .i32⟩
  | 95 => ⟨S_, .i32⟩
  | 96 => ⟨S128, .i32⟩
  | 97 => ⟨S128, .i1⟩
  | 98 => ⟨S_, .i32⟩
  | 99 => ⟨S128, .i32⟩
  | 100 => ⟨S128, .i32⟩
  | 101 => ⟨S128, .i32⟩
  | 102 => ⟨S128x1, .i32⟩
  | 103 => ⟨S128x256, .bf16⟩
  | 104 => ⟨S_, .i32⟩
  | 105 => ⟨S128, .i32⟩
  | 106 => ⟨S128, .i1⟩
  | 107 => ⟨S_, .i32⟩
  | 108 => ⟨S128, .i32⟩
  | 109 => ⟨S128, .i32⟩
  | 110 => ⟨S128, .i32⟩
  | 111 => ⟨S128x1, .i32⟩
  | 112 => ⟨S128x32, .i32⟩
  | 113 => ⟨S_, .i32⟩
  | 114 => ⟨S128x32, .i32⟩
  | 115 => ⟨S128x32, .i1⟩
  | 116 => ⟨S_, .i32⟩
  | 117 => ⟨S128x32, .i32⟩
  | 118 => ⟨S128x32, .i32⟩
  | 119 => ⟨S128x32, .i32⟩
  | 120 => ⟨S128x32x1, .i32⟩
  | 121 => ⟨S128x32x256, .bf16⟩
  | 122 => ⟨S_, .i32⟩
  | 123 => ⟨S128x32, .i32⟩
  | 124 => ⟨S128x32, .i1⟩
  | 125 => ⟨S_, .i32⟩
  | 126 => ⟨S128x32, .i32⟩
  | 127 => ⟨S128x32, .i32⟩
  | _ => ⟨S100000x256, .f32⟩

abbrev hbmTy0_1 (i : Nat) : BufTy := match i % 128 with
  | 0 => ⟨S128x32, .i32⟩
  | 1 => ⟨S128x32x1, .i32⟩
  | 2 => ⟨S128x32x256, .bf16⟩
  | 3 => ⟨S128x256, .f32⟩
  | 4 => ⟨S10x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S128x32x256, .bf16⟩
  | .local _ .vmem, ⟨1, _⟩ => ⟨S128x32x256, .bf16⟩
  | .local _ .vmem, ⟨2, _⟩ => ⟨S128x32x256, .bf16⟩
  | .local _ .vmem, ⟨3, _⟩ => ⟨S128x32x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S1x256, .f32⟩
  | .local _ .vmem, ⟨8, _⟩ => ⟨S512x256, .bf16⟩
  | .local _ .vmem, ⟨9, _⟩ => ⟨S1x256, .f32⟩
  | .local _ .vmem, ⟨10, _⟩ => ⟨S128x256, .f32⟩
  | .local _ .vmem, ⟨11, _⟩ => ⟨S128x256, .f32⟩
  | .local _ .vmem, ⟨12, _⟩ => ⟨S128x32x256, .bf16⟩
  | .local _ .vmem, ⟨13, _⟩ => ⟨S128x32x256, .bf16⟩
  | .local _ .vmem, ⟨14, _⟩ => ⟨S128x32x256, .bf16⟩
  | .local _ .vmem, ⟨15, _⟩ => ⟨S128x32x256, .bf16⟩
  | .local _ .vmem, ⟨16, _⟩ => ⟨S128x256, .bf16⟩
  | .local _ .vmem, ⟨17, _⟩ => ⟨S128x256, .bf16⟩
  | .local _ .vmem, ⟨18, _⟩ => ⟨S512x256, .bf16⟩
  | .local _ .vmem, ⟨19, _⟩ => ⟨S1x256, .f32⟩
  | .local _ .vmem, ⟨20, _⟩ => ⟨S512x256, .bf16⟩
  | .local _ .vmem, ⟨21, _⟩ => ⟨S1x256, .f32⟩
  | .local _ .vmem, ⟨22, _⟩ => ⟨S128x256, .f32⟩
  | .local _ .vmem, ⟨23, _⟩ => ⟨S128x256, .f32⟩
  | .local _ .vmem, ⟨24, _⟩ => ⟨S128x32x256, .bf16⟩
  | .local _ .vmem, ⟨25, _⟩ => ⟨S128x32x256, .bf16⟩
  | .local _ .vmem, ⟨26, _⟩ => ⟨S128x256, .bf16⟩
  | .local _ .vmem, ⟨27, _⟩ => ⟨S512x256, .bf16⟩
  | .local _ .vmem, ⟨28, _⟩ => ⟨S1x256, .f32⟩
  | .local _ .vmem, ⟨29, _⟩ => ⟨S512x256, .bf16⟩
  | .local _ .vmem, ⟨30, _⟩ => ⟨S1x256, .f32⟩
  | .local _ .vmem, ⟨31, _⟩ => ⟨S128x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_13 : Ref sig .tc := ⟨.hbm, 82, rfl⟩
abbrev main_v58 : Ref sig .tc := ⟨.hbm, 83, rfl⟩
abbrev main_v59 : Ref sig .tc := ⟨.hbm, 84, rfl⟩
abbrev main_c_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_15 : Ref sig .tc := ⟨.hbm, 92, rfl⟩
abbrev main_v66 : Ref sig .tc := ⟨.hbm, 93, rfl⟩
abbrev main_v67 : Ref sig .tc := ⟨.hbm, 94, rfl⟩
abbrev main_c_16 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_18 : Ref sig .tc := ⟨.hbm, 104, rfl⟩
abbrev main_v75 : Ref sig .tc := ⟨.hbm, 105, rfl⟩
abbrev main_v76 : Ref sig .tc := ⟨.hbm, 106, rfl⟩
abbrev main_c_19 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_20 : Ref sig .tc := ⟨.hbm, 113, rfl⟩
abbrev main_v82 : Ref sig .tc := ⟨.hbm, 114, rfl⟩
abbrev main_v83 : Ref sig .tc := ⟨.hbm, 115, rfl⟩
abbrev main_c_21 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_22 : Ref sig .tc := ⟨.hbm, 122, rfl⟩
abbrev main_v89 : Ref sig .tc := ⟨.hbm, 123, rfl⟩
abbrev main_v90 : Ref sig .tc := ⟨.hbm, 124, rfl⟩
abbrev main_c_23 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x32x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x32x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S128x32x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S128x32x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev stage2_3 : Fin 1 → Memref sig .tc .vmem S512x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![true]

class Facts₀ : Prop where
  bitsLt_bf16_f32 : FTy.bits .bf16 < FTy.bits .f32
  transposes_S256x512_S512x256_1_0 : S256x512.Transposes [1, 0] S512x256
  shapeCasts_S256_S1x256 : S256.ShapeCasts S1x256
  bcast_S_S8192 : S_.BroadcastsInDim S8192 (![] : Fin 0 → Fin S8192.rank)
  bcast_S8192_S8192x1_0 : S8192.BroadcastsInDim S8192x1 (![0] : Fin 1 → Fin S8192x1.rank)
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  inb_S128x32x256_S128x32x256_0_0_0 : ∀ a, (![0, 0, 0] : Fin 3 → Nat) a + S128x32x256.size a ≤ S128x32x256.size a
  h_S128x32x256 : 0 < S128x32x256.numel
  shapeCasts_S128x32x256_S128x32x256 : S128x32x256.ShapeCasts S128x32x256
  concatenates_S128x32x256_S128x32x256_S128x32x512_d2 : Shape.Concatenates [S128x32x256, S128x32x256] S128x32x512 2
  shapeCasts_S128x32x512_S4096x512 : S128x32x512.ShapeCasts S4096x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S4096x256_S128x32x256 : S4096x256.ShapeCasts S128x32x256
  reduces_S128x32x256_S128x256 : S128x32x256.Reduces [1] S128x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  concatenates_S128x256_S128x256_S128x512_d1 : Shape.Concatenates [S128x256, S128x256] S128x512 1
  broadcasts_S1x256_S128x256 : S1x256.Broadcasts S128x256
  reduces_S128x256_S128 : S128x256.Reduces [1] S128
  shapeCasts_S128_S128x1 : S128.ShapeCasts S128x1
  broadcasts_S128x1_S128x256 : S128x1.Broadcasts S128x256
  bcast_S_S118 : S_.BroadcastsInDim S118 (![] : Fin 0 → Fin S118.rank)
  concatenates_S10_S118_S128_d0 : Shape.Concatenates [S10, S118] S128 0
  bcast_S_S128 : S_.BroadcastsInDim S128 (![] : Fin 0 → Fin S128.rank)
  bcast_S128_S128x1_0 : S128.BroadcastsInDim S128x1 (![0] : Fin 1 → Fin S128x1.rank)
  bcast_S_S128x32 : S_.BroadcastsInDim S128x32 (![] : Fin 0 → Fin S128x32.rank)
  bcast_S128x32_S128x32x1_0_1 : S128x32.BroadcastsInDim S128x32x1 (![0, 1] : Fin 2 → Fin S128x32x1.rank)
  slices_S128x256_S10x256_0_0 : S128x256.Slices ![0, 0] S10x256
  gather_S100000x256_S8192x1_S8192x256_1_0_n_n_0_1_1256_wf : GatherDims.WF S100000x256 S8192x1 S8192x256 [1] [0] [] [0] [] 1 ![1, 256]
  gather_S100000x32_S8192x1_S8192x32_1_0_n_n_0_1_132_wf : GatherDims.WF S100000x32 S8192x1 S8192x32 [1] [0] [] [0] [] 1 ![1, 32]
  gather_S100000x256_S8192x32x1_S8192x32x256_2_0_n_n_0_2_1256_wf : GatherDims.WF S100000x256 S8192x32x1 S8192x32x256 [2] [0] [] [0] [] 2 ![1, 256]
  dot_S4096x512_S512x256_S4096x256_1_0_0_1_n_n_wf : DotDims.WF S4096x512 S512x256 S4096x256 [1] [0] [0] [1] [] []
  dot_S128x512_S512x256_S128x256_1_0_0_1_n_n_wf : DotDims.WF S128x512 S512x256 S128x256 [1] [0] [0] [1] [] []
  gather_S100000x256_S128x1_S128x256_1_0_n_n_0_1_1256_wf : GatherDims.WF S100000x256 S128x1 S128x256 [1] [0] [] [0] [] 1 ![1, 256]
  gather_S100000x32_S128x1_S128x32_1_0_n_n_0_1_132_wf : GatherDims.WF S100000x32 S128x1 S128x32 [1] [0] [] [0] [] 1 ![1, 32]
  gather_S100000x256_S128x32x1_S128x32x256_2_0_n_n_0_2_1256_wf : GatherDims.WF S100000x256 S128x32x1 S128x32x256 [2] [0] [] [0] [] 2 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x32x256.size a ≤ S8192x32x256.size a
  hwx0_0 : ∀ i : grid0.Coords, EltTy.bits .bf16 = 32 ∨ (Rect.block (s := S8192x32x256) S128x32x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x256.size a ≤ S8192x32x256.size a
  hwx0_1 : ∀ i : grid0.Coords, EltTy.bits .bf16 = 32 ∨ (Rect.block (s := S8192x32x256) S128x32x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S8192x256.size a
  hwx0_2 : ∀ i : grid0.Coords, EltTy.bits .bf16 = 32 ∨ (Rect.block (s := S8192x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S512x256.size a
  hwx0_5 : ∀ i : grid0.Coords, EltTy.bits .bf16 = 32 ∨ (Rect.block (s := S512x256) S512x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S8192x256.size a
  hwx0_7 : ∀ i : grid0.Coords, EltTy.bits .f32 = 32 ∨ (Rect.block (s := S8192x256) S128x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x32x256.size a ≤ S8192x32x256.size a
  hwx1_0 : ∀ i : grid1.Coords, EltTy.bits .bf16 = 32 ∨ (Rect.block (s := S8192x32x256) S128x32x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x32x256.size a ≤ S8192x32x256.size a
  hwx1_1 : ∀ i : grid1.Coords, EltTy.bits .bf16 = 32 ∨ (Rect.block (s := S8192x32x256) S128x32x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S8192x256.size a
  hwx1_2 : ∀ i : grid1.Coords, EltTy.bits .bf16 = 32 ∨ (Rect.block (s := S8192x256) S128x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .bf16 = 32 ∨ (Rect.block (s := S512x256) S512x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .bf16 = 32 ∨ (Rect.block (s := S512x256) S512x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x256.size a ≤ S8192x256.size a
  hwx1_7 : ∀ i : grid1.Coords, EltTy.bits .f32 = 32 ∨ (Rect.block (s := S8192x256) S128x256.size (cc1_transform_7 i) (hinb1_7 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S128x32x256.size a ≤ S128x32x256.size a
  hwx2_0 : ∀ i : grid2.Coords, EltTy.bits .bf16 = 32 ∨ (Rect.block (s := S128x32x256) S128x32x256.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S128x32x256.size a ≤ S128x32x256.size a
  hwx2_1 : ∀ i : grid2.Coords, EltTy.bits .bf16 = 32 ∨ (Rect.block (s := S128x32x256) S128x32x256.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .bf16 = 32 ∨ (Rect.block (s := S128x256) S128x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S512x256.size a
  hwx2_3 : ∀ i : grid2.Coords, EltTy.bits .bf16 = 32 ∨ (Rect.block (s := S512x256) S512x256.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x256.size a ≤ S512x256.size a
  hwx2_5 : ∀ i : grid2.Coords, EltTy.bits .bf16 = 32 ∨ (Rect.block (s := S512x256) S512x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 1
  hreads2_7 : ∀ i i' : grid2.Coords, (∀ a, reads2_7 a = true → i a = i' a) → cc2_transform_7 i = cc2_transform_7 i'
  hinb2_7 : ∀ (i : grid2.Coords) a, (cc2_transform_7 i a + 1) * S128x256.size a ≤ S128x256.size a
  hwx2_7 : ∀ i : grid2.Coords, EltTy.bits .f32 = 32 ∨ (Rect.block (s := S128x256) S128x256.size (cc2_transform_7 i) (hinb2_7 i)).WholeWords (EltTy.packing .f32)

variable [Facts₀]

def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf
def gather_S100000x32_S8192x1_S8192x32_1_0_n_n_0_1_132 : GatherDims S100000x32 S8192x1 S8192x32 where
  offsetDims := [1]
  collapsedSliceDims := [0]
  operandBatchingDims := []
  startIndicesBatchingDims := []
  startIndexMap := [0]
  indexVectorDim := 1
  sliceSizes := ![1, 32]
  wf := gather_S100000x32_S8192x1_S8192x32_1_0_n_n_0_1_132_wf
def gather_S100000x256_S8192x32x1_S8192x32x256_2_0_n_n_0_2_1256 : GatherDims S100000x256 S8192x32x1 S8192x32x256 where
  offsetDims := [2]
  collapsedSliceDims := [0]
  operandBatchingDims := []
  startIndicesBatchingDims := []
  startIndexMap := [0]
  indexVectorDim := 2
  sliceSizes := ![1, 256]
  wf := gather_S100000x256_S8192x32x1_S8192x32x256_2_0_n_n_0_2_1256_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def gather_S100000x256_S128x1_S128x256_1_0_n_n_0_1_1256 : GatherDims S100000x256 S128x1 S128x256 where
  offsetDims := [1]
  collapsedSliceDims := [0]
  operandBatchingDims := []
  startIndicesBatchingDims := []
  startIndexMap := [0]
  indexVectorDim := 1
  sliceSizes := ![1, 256]
  wf := gather_S100000x256_S128x1_S128x256_1_0_n_n_0_1_1256_wf
def gather_S100000x32_S128x1_S128x32_1_0_n_n_0_1_132 : GatherDims S100000x32 S128x1 S128x32 where
  offsetDims := [1]
  collapsedSliceDims := [0]
  operandBatchingDims := []
  startIndicesBatchingDims := []
  startIndexMap := [0]
  indexVectorDim := 1
  sliceSizes := ![1, 32]
  wf := gather_S100000x32_S128x1_S128x32_1_0_n_n_0_1_132_wf
def gather_S100000x256_S128x32x1_S128x32x256_2_0_n_n_0_2_1256 : GatherDims S100000x256 S128x32x1 S128x32x256 where
  offsetDims := [2]
  collapsedSliceDims := [0]
  operandBatchingDims := []
  startIndicesBatchingDims := []
  startIndexMap := [0]
  indexVectorDim := 2
  sliceSizes := ![1, 256]
  wf := gather_S100000x256_S128x32x1_S128x32x256_2_0_n_n_0_2_1256_wf

abbrev win0_0 : Pipeline.Window sig grid0 :=
  Pipeline.Window.ofSpec (Memref.whole main_v28) S128x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S128x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S128x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v57) S128x32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v64) S128x32x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v65) S128x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v88) S128x32x256.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v95) S128x32x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S128x256.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S512x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v5) S512x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v7) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v96) S128x256.size cc2_transform_7 reads2_7 true false 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x512 : Shape := ⟨2, ![256, 512]⟩
abbrev S256 : Shape := ⟨1, ![256]⟩
abbrev S100000x32 : Shape := ⟨2, ![100000, 32]⟩
abbrev S8192 : Shape := ⟨1, ![8192]⟩
abbrev S10 : Shape := ⟨1, ![10]⟩
abbrev S_ : Shape := ⟨0, ![]⟩
abbrev S8192x1 : Shape := ⟨2, ![8192, 1]⟩
abbrev S8192x256 : Shape := ⟨2, ![8192, 256]⟩
abbrev S8192x32 : Shape := ⟨2, ![8192, 32]⟩
abbrev S8192x32x1 : Shape := ⟨3, ![8192, 32, 1]⟩
abbrev S8192x32x256 : Shape := ⟨3, ![8192, 32, 256]⟩
abbrev S8192x32x512 : Shape := ⟨3, ![8192, 32, 512]⟩
abbrev S1x1x256 : Shape := ⟨3, ![1, 1, 256]⟩
abbrev S8192x512 : Shape := ⟨2, ![8192, 512]⟩
abbrev S512x256 : Shape := ⟨2, ![512, 256]⟩
abbrev S1x256 : Shape := ⟨2, ![1, 256]⟩
abbrev S10x1 : Shape := ⟨2, ![10, 1]⟩
abbrev S10x256 : Shape := ⟨2, ![10, 256]⟩
abbrev S10x32 : Shape := ⟨2, ![10, 32]⟩
abbrev S10x32x1 : Shape := ⟨3, ![10, 32, 1]⟩
abbrev S10x32x256 : Shape := ⟨3, ![10, 32, 256]⟩
abbrev S10x32x512 : Shape := ⟨3, ![10, 32, 512]⟩
abbrev S10x512 : Shape := ⟨2, ![10, 512]⟩

abbrev nBuf : Space → Nat
  | .hbm => 187
  | .vmem => 0
  | .smem => 0
  | _ => 0

abbrev hbmTy0_0 (i : Nat) : BufTy := match i % 128 with
  | 0 => ⟨S100000x256, .f32⟩
  | 1 => ⟨S100000x256, .f32⟩
  | 2 => ⟨S256x512, .f32⟩
  | 3 => ⟨S256, .f32⟩
  | 4 => ⟨S256x512, .f32⟩
  | 5 => ⟨S256, .f32⟩
  | 6 => ⟨S100000x32, .i32⟩
  | 7 => ⟨S8192, .i32⟩
  | 8 => ⟨S8192, .i32⟩
  | 9 => ⟨S10, .i32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S8192x256, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x32, .i32⟩
  | 28 => ⟨S_, .i32⟩
  | 29 => ⟨S8192x32, .i32⟩
  | 30 => ⟨S8192x32, .i1⟩
  | 31 => ⟨S_, .i32⟩
  | 32 => ⟨S8192x32, .i32⟩
  | 33 => ⟨S8192x32, .i32⟩
  | 34 => ⟨S8192x32, .i32⟩
  | 35 => ⟨S8192x32x1, .i32⟩
  | 36 => ⟨S8192x32x256, .f32⟩
  | 37 => ⟨S_, .i32⟩
  | 38 => ⟨S8192x32, .i32⟩
  | 39 => ⟨S8192x32, .i1⟩
  | 40 => ⟨S_, .i32⟩
  | 41 => ⟨S8192x32, .i32⟩
  | 42 => ⟨S8192x32, .i32⟩
  | 43 => ⟨S8192x32, .i32⟩
  | 44 => ⟨S8192x32x1, .i32⟩
  | 45 => ⟨S8192x32x256, .f32⟩
  | 46 => ⟨S8192x32x512, .f32⟩
  | 47 => ⟨S8192x32x256, .f32⟩
  | 48 => ⟨S1x1x256, .f32⟩
  | 49 => ⟨S8192x32x256, .f32⟩
  | 50 => ⟨S8192x32x256, .f32⟩
  | 51 => ⟨S_, .f32⟩
  | 52 => ⟨S8192x256, .f32⟩
  | 53 => ⟨S8192x512, .f32⟩
  | 54 => ⟨S512x256, .f32⟩
  | 55 => ⟨S8192x256, .f32⟩
  | 56 => ⟨S1x256, .f32⟩
  | 57 => ⟨S8192x256, .f32⟩
  | 58 => ⟨S8192x256, .f32⟩
  | 59 => ⟨S8192x256, .f32⟩
  | 60 => ⟨S_, .f32⟩
  | 61 => ⟨S8192, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x256, .f32⟩
  | 68 => ⟨S8192x256, .f32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192x256, .f32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x32, .i32⟩
  | 87 => ⟨S_, .i32⟩
  | 88 => ⟨S8192x32, .i32⟩
  | 89 => ⟨S8192x32, .i1⟩
  | 90 => ⟨S_, .i32⟩
  | 91 => ⟨S8192x32, .i32⟩
  | 92 => ⟨S8192x32, .i32⟩
  | 93 => ⟨S8192x32, .i32⟩
  | 94 => ⟨S8192x32x1, .i32⟩
  | 95 => ⟨S8192x32x256, .f32⟩
  | 96 => ⟨S_, .i32⟩
  | 97 => ⟨S8192x32, .i32⟩
  | 98 => ⟨S8192x32, .i1⟩
  | 99 => ⟨S_, .i32⟩
  | 100 => ⟨S8192x32, .i32⟩
  | 101 => ⟨S8192x32, .i32⟩
  | 102 => ⟨S8192x32, .i32⟩
  | 103 => ⟨S8192x32x1, .i32⟩
  | 104 => ⟨S8192x32x256, .f32⟩
  | 105 => ⟨S8192x32x512, .f32⟩
  | 106 => ⟨S8192x32x256, .f32⟩
  | 107 => ⟨S1x1x256, .f32⟩
  | 108 => ⟨S8192x32x256, .f32⟩
  | 109 => ⟨S8192x32x256, .f32⟩
  | 110 => ⟨S_, .f32⟩
  | 111 => ⟨S8192x256, .f32⟩
  | 112 => ⟨S8192x512, .f32⟩
  | 113 => ⟨S512x256, .f32⟩
  | 114 => ⟨S8192x256, .f32⟩
  | 115 => ⟨S1x256, .f32⟩
  | 116 => ⟨S8192x256, .f32⟩
  | 117 => ⟨S8192x256, .f32⟩
  | 118 => ⟨S8192x256, .f32⟩
  | 119 => ⟨S_, .f32⟩
  | 120 => ⟨S8192, .f32⟩
  | 121 => ⟨S8192x1, .f32⟩
  | 122 => ⟨S8192x1, .f32⟩
  | 123 => ⟨S_, .f32⟩
  | 124 => ⟨S8192x1, .f32⟩
  | 125 => ⟨S8192x1, .f32⟩
  | 126 => ⟨S8192x256, .f32⟩
  | 127 => ⟨S8192x256, .f32⟩
  | _ => ⟨S100000x256, .f32⟩

abbrev hbmTy0_1 (i : Nat) : BufTy := match i % 128 with
  | 0 => ⟨S_, .i32⟩
  | 1 => ⟨S10, .i32⟩
  | 2 => ⟨S10, .i1⟩
  | 3 => ⟨S_, .i32⟩
  | 4 => ⟨S10, .i32⟩
  | 5 => ⟨S10, .i32⟩
  | 6 => ⟨S10, .i32⟩
  | 7 => ⟨S10x1, .i32⟩
  | 8 => ⟨S10x256, .f32⟩
  | 9 => ⟨S_, .i32⟩
  | 10 => ⟨S10, .i32⟩
  | 11 => ⟨S10, .i1⟩
  | 12 => ⟨S_, .i32⟩
  | 13 => ⟨S10, .i32⟩
  | 14 => ⟨S10, .i32⟩
  | 15 => ⟨S10, .i32⟩
  | 16 => ⟨S10x1, .i32⟩
  | 17 => ⟨S10x32, .i32⟩
  | 18 => ⟨S_, .i32⟩
  | 19 => ⟨S10x32, .i32⟩
  | 20 => ⟨S10x32, .i1⟩
  | 21 => ⟨S_, .i32⟩
  | 22 => ⟨S10x32, .i32⟩
  | 23 => ⟨S10x32, .i32⟩
  | 24 => ⟨S10x32, .i32⟩
  | 25 => ⟨S10x32x1, .i32⟩
  | 26 => ⟨S10x32x256, .f32⟩
  | 27 => ⟨S_, .i32⟩
  | 28 => ⟨S10x32, .i32⟩
  | 29 => ⟨S10x32, .i1⟩
  | 30 => ⟨S_, .i32⟩
  | 31 => ⟨S10x32, .i32⟩
  | 32 => ⟨S10x32, .i32⟩
  | 33 => ⟨S10x32, .i32⟩
  | 34 => ⟨S10x32x1, .i32⟩
  | 35 => ⟨S10x32x256, .f32⟩
  | 36 => ⟨S10x32x512, .f32⟩
  | 37 => ⟨S10x32x256, .f32⟩
  | 38 => ⟨S1x1x256, .f32⟩
  | 39 => ⟨S10x32x256, .f32⟩
  | 40 => ⟨S10x32x256, .f32⟩
  | 41 => ⟨S_, .f32⟩
  | 42 => ⟨S10x256, .f32⟩
  | 43 => ⟨S10x512, .f32⟩
  | 44 => ⟨S512x256, .f32⟩
  | 45 => ⟨S10x256, .f32⟩
  | 46 => ⟨S1x256, .f32⟩
  | 47 => ⟨S10x256, .f32⟩
  | 48 => ⟨S10x256, .f32⟩
  | 49 => ⟨S10x256, .f32⟩
  | 50 => ⟨S_, .f32⟩
  | 51 => ⟨S10, .f32⟩
  | 52 => ⟨S10x1, .f32⟩
  | 53 => ⟨S10x1, .f32⟩
  | 54 => ⟨S_, .f32⟩
  | 55 => ⟨S10x1, .f32⟩
  | 56 => ⟨S10x1, .f32⟩
  | 57 => ⟨S10x256, .f32⟩
  | 58 => ⟨S10x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_c_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call0_v0 : Ref sig .tc := ⟨.hbm, 59, rfl⟩
abbrev main_call0_cst : Ref sig .tc := ⟨.hbm, 60, rfl⟩
abbrev main_call0_v1 : Ref sig .tc := ⟨.hbm, 61, rfl⟩
abbrev main_call0_v2 : Ref sig .tc := ⟨.hbm, 62, rfl⟩
abbrev main_v40 : Ref sig .tc := ⟨.hbm, 63, rfl⟩
abbrev main_cst_7 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_8 : Ref sig .tc := ⟨.hbm, 69, rfl⟩
abbrev main_v45 : Ref sig .tc := ⟨.hbm, 70, rfl⟩
abbrev main_v46 : Ref sig .tc := ⟨.hbm, 71, rfl⟩
abbrev main_c_9 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_c_15 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call1_v0 : Ref sig .tc := ⟨.hbm, 118, rfl⟩
abbrev main_call1_cst : Ref sig .tc := ⟨.hbm, 119, rfl⟩
abbrev main_call1_v1 : Ref sig .tc := ⟨.hbm, 120, rfl⟩
abbrev main_call1_v2 : Ref sig .tc := ⟨.hbm, 121, rfl⟩
abbrev main_v85 : Ref sig .tc := ⟨.hbm, 122, rfl⟩
abbrev main_cst_17 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_18 : Ref sig .tc := ⟨.hbm, 128, rfl⟩
abbrev main_v90 : Ref sig .tc := ⟨.hbm, 129, rfl⟩
abbrev main_v91 : Ref sig .tc := ⟨.hbm, 130, rfl⟩
abbrev main_c_19 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_20 : Ref sig .tc := ⟨.hbm, 137, rfl⟩
abbrev main_v97 : Ref sig .tc := ⟨.hbm, 138, rfl⟩
abbrev main_v98 : Ref sig .tc := ⟨.hbm, 139, rfl⟩
abbrev main_c_21 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_22 : Ref sig .tc := ⟨.hbm, 146, rfl⟩
abbrev main_v104 : Ref sig .tc := ⟨.hbm, 147, rfl⟩
abbrev main_v105 : Ref sig .tc := ⟨.hbm, 148, rfl⟩
abbrev main_c_23 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_24 : Ref sig .tc := ⟨.hbm, 155, rfl⟩
abbrev main_v111 : Ref sig .tc := ⟨.hbm, 156, rfl⟩
abbrev main_v112 : Ref sig .tc := ⟨.hbm, 157, rfl⟩
abbrev main_c_25 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_cst_26 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_call2_v0 : Ref sig .tc := ⟨.hbm, 177, rfl⟩
abbrev main_call2_cst : Ref sig .tc := ⟨.hbm, 178, rfl⟩
abbrev main_call2_v1 : Ref sig .tc := ⟨.hbm, 179, rfl⟩
abbrev main_call2_v2 : Ref sig .tc := ⟨.hbm, 180, rfl⟩
abbrev main_v130 : Ref sig .tc := ⟨.hbm, 181, rfl⟩
abbrev main_cst_27 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  concatenates_S8192x32x256_S8192x32x256_S8192x32x512_d2 : Shape.Concatenates [S8192x32x256, S8192x32x256] S8192x32x512 2
  bcast_S256_S1x1x256_2 : S256.BroadcastsInDim S1x1x256 (![2] : Fin 1 → Fin S1x1x256.rank)
  bcast_S1x1x256_S8192x32x256_0_1_2 : S1x1x256.BroadcastsInDim S8192x32x256 (![0, 1, 2] : Fin 3 → Fin S8192x32x256.rank)
  reducesTo_S8192x32x256_S8192x256_d1 : S8192x32x256.ReducesTo [1] S8192x256
  h_S_ : 0 < S_.numel
  concatenates_S8192x256_S8192x256_S8192x512_d1 : Shape.Concatenates [S8192x256, S8192x256] S8192x512 1
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S8192_d1 : S8192x256.ReducesTo [1] S8192
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S10 : S_.BroadcastsInDim S10 (![] : Fin 0 → Fin S10.rank)
  bcast_S10_S10x1_0 : S10.BroadcastsInDim S10x1 (![0] : Fin 1 → Fin S10x1.rank)
  bcast_S_S10x32 : S_.BroadcastsInDim S10x32 (![] : Fin 0 → Fin S10x32.rank)
  bcast_S10x32_S10x32x1_0_1 : S10x32.BroadcastsInDim S10x32x1 (![0, 1] : Fin 2 → Fin S10x32x1.rank)
  concatenates_S10x32x256_S10x32x256_S10x32x512_d2 : Shape.Concatenates [S10x32x256, S10x32x256] S10x32x512 2
  bcast_S1x1x256_S10x32x256_0_1_2 : S1x1x256.BroadcastsInDim S10x32x256 (![0, 1, 2] : Fin 3 → Fin S10x32x256.rank)
  reducesTo_S10x32x256_S10x256_d1 : S10x32x256.ReducesTo [1] S10x256
  concatenates_S10x256_S10x256_S10x512_d1 : Shape.Concatenates [S10x256, S10x256] S10x512 1
  bcast_S1x256_S10x256_0_1 : S1x256.BroadcastsInDim S10x256 (![0, 1] : Fin 2 → Fin S10x256.rank)
  reducesTo_S10x256_S10_d1 : S10x256.ReducesTo [1] S10
  bcast_S_S10x1 : S_.BroadcastsInDim S10x1 (![] : Fin 0 → Fin S10x1.rank)
  bcast_S10x1_S10x256_0_1 : S10x1.BroadcastsInDim S10x256 (![0, 1] : Fin 2 → Fin S10x256.rank)
  gather_S100000x256_S8192x1_S8192x256_1_0_n_n_0_1_1256_wf : GatherDims.WF S100000x256 S8192x1 S8192x256 [1] [0] [] [0] [] 1 ![1, 256]
  gather_S100000x32_S8192x1_S8192x32_1_0_n_n_0_1_132_wf : GatherDims.WF S100000x32 S8192x1 S8192x32 [1] [0] [] [0] [] 1 ![1, 32]
  gather_S100000x256_S8192x32x1_S8192x32x256_2_0_n_n_0_2_1256_wf : GatherDims.WF S100000x256 S8192x32x1 S8192x32x256 [2] [0] [] [0] [] 2 ![1, 256]
  dot_S8192x32x512_S256x512_S8192x32x256_2_1_01_0_n_n_wf : DotDims.WF S8192x32x512 S256x512 S8192x32x256 [2] [1] [0, 1] [0] [] []
  dot_S8192x512_S512x256_S8192x256_1_0_0_1_n_n_wf : DotDims.WF S8192x512 S512x256 S8192x256 [1] [0] [0] [1] [] []
  gather_S100000x256_S10x1_S10x256_1_0_n_n_0_1_1256_wf : GatherDims.WF S100000x256 S10x1 S10x256 [1] [0] [] [0] [] 1 ![1, 256]
  gather_S100000x32_S10x1_S10x32_1_0_n_n_0_1_132_wf : GatherDims.WF S100000x32 S10x1 S10x32 [1] [0] [] [0] [] 1 ![1, 32]
  gather_S100000x256_S10x32x1_S10x32x256_2_0_n_n_0_2_1256_wf : GatherDims.WF S100000x256 S10x32x1 S10x32x256 [2] [0] [] [0] [] 2 ![1, 256]
  dot_S10x32x512_S256x512_S10x32x256_2_1_01_0_n_n_wf : DotDims.WF S10x32x512 S256x512 S10x32x256 [2] [1] [0, 1] [0] [] []
  dot_S10x512_S512x256_S10x256_1_0_0_1_n_n_wf : DotDims.WF S10x512 S512x256 S10x256 [1] [0] [0] [1] [] []

variable [Facts₀]

def gather_S100000x256_S8192x1_S8192x256_1_0_n_n_0_1_1256 : GatherDims S100000x256 S8192x1 S8192x256 where
  offsetDims := [1]
  collapsedSliceDims := [0]
  operandBatchingDims := []
  startIndicesBatchingDims := []
  startIndexMap := [0]
  indexVectorDim := 1
  sliceSizes := ![1, 256]
  wf := gather_S100000x256_S8192x1_S8192x256_1_0_n_n_0_1_1256_wf
def gather_S100000x32_S8192x1_S8192x32_1_0_n_n_0_1_132 : GatherDims S100000x32 S8192x1 S8192x32 where
  offsetDims := [1]
  collapsedSliceDims := [0]
  operandBatchingDims := []
  startIndicesBatchingDims := []
  startIndexMap := [0]
  indexVectorDim := 1
  sliceSizes := ![1, 32]
  wf := gather_S100000x32_S8192x1_S8192x32_1_0_n_n_0_1_132_wf
def gather_S100000x256_S8192x32x1_S8192x32x256_2_0_n_n_0_2_1256 : GatherDims S100000x256 S8192x32x1 S8192x32x256 where
  offsetDims := [2]
  collapsedSliceDims := [0]
  operandBatchingDims := []
  startIndicesBatchingDims := []
  startIndexMap := [0]
  indexVectorDim := 2
  sliceSizes := ![1, 256]
  wf := gather_S100000x256_S8192x32x1_S8192x32x256_2_0_n_n_0_2_1256_wf
def dot_S8192x32x512_S256x512_S8192x32x256_2_1_01_0_n_n : DotDims S8192x32x512 S256x512 S8192x32x256 where
  lhsContracting := [2]
  rhsContracting := [1]
  lhsNonContracting := [0, 1]
  rhsNonContracting := [0]
  lhsBatch := []
  rhsBatch := []
  wf := dot_S8192x32x512_S256x512_S8192x32x256_2_1_01_0_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S100000x256_S10x1_S10x256_1_0_n_n_0_1_1256 : GatherDims S100000x256 S10x1 S10x256 where
  offsetDims := [1]
  collapsedSliceDims := [0]
  operandBatchingDims := []
  startIndicesBatchingDims := []
  startIndexMap := [0]
  indexVectorDim := 1
  sliceSizes := ![1, 256]
  wf := gather_S100000x256_S10x1_S10x256_1_0_n_n_0_1_1256_wf
def gather_S100000x32_S10x1_S10x32_1_0_n_n_0_1_132 : GatherDims S100000x32 S10x1 S10x32 where
  offsetDims := [1]
  collapsedSliceDims := [0]
  operandBatchingDims := []
  startIndicesBatchingDims := []
  startIndexMap := [0]
  indexVectorDim := 1
  sliceSizes := ![1, 32]
  wf := gather_S100000x32_S10x1_S10x32_1_0_n_n_0_1_132_wf
def gather_S100000x256_S10x32x1_S10x32x256_2_0_n_n_0_2_1256 : GatherDims S100000x256 S10x32x1 S10x32x256 where
  offsetDims := [2]
  collapsedSliceDims := [0]
  operandBatchingDims := []
  startIndicesBatchingDims := []
  startIndexMap := [0]
  indexVectorDim := 2
  sliceSizes := ![1, 256]
  wf := gather_S100000x256_S10x32x1_S10x32x256_2_0_n_n_0_2_1256_wf
def dot_S10x32x512_S256x512_S10x32x256_2_1_01_0_n_n : DotDims S10x32x512 S256x512 S10x32x256 where
  lhsContracting := [2]
  rhsContracting := [1]
  lhsNonContracting := [0, 1]
  rhsNonContracting := [0]
  lhsBatch := []
  rhsBatch := []
  wf := dot_S10x32x512_S256x512_S10x32x256_2_1_01_0_n_n_wf
def dot_S10x512_S512x256_S10x256_1_0_0_1_n_n : DotDims S10x512 S512x256 S10x256 where
  lhsContracting := [1]
  rhsContracting := [0]
  lhsNonContracting := [0]
  rhsNonContracting := [1]
  lhsBatch := []
  rhsBatch := []
  wf := dot_S10x512_S512x256_S10x256_1_0_0_1_n_n_wf

class Facts : Prop extends Facts₀ where

variable [Facts]
-- ==== Proof.Spec.lean ====
/-
  One node's output row, as a function of the argument arrays.

  For a node word `n`: the node's own feature row is `feat[row n]`; its 32 neighbours are `adj[row n, d]`; each
  neighbour contributes the 512-wide row `feat[nb] ‖ feats[nb]` through the first linear layer, `W1 · (…) + b1`, and the
  32 contributions are summed (so the bias is counted 32 times); the node's row joined with that sum goes through the
  second linear layer, `W2 · (…) + b2`; the result is divided by the larger of its Euclidean norm and a fixed small
  constant. A table row is addressed by a word the way an index into an array of 100000 rows is: a negative word has
  100000 added, and the outcome, read signed, is clamped into the table.
-/
import Idealize.ShloMosaic.PureOps.Ideal
import Idealize.ShloMosaic.Lib.ValueIdx

noncomputable section

namespace Cert.Agg

open Idealize.ShloMosaic Idealize.ShloMosaic.ValueIdx

/-- Position `k` of two 256-wide rows laid side by side. -/
def cat (a b : Fin 256 → EReal) (k : Fin 512) : EReal :=
  if h : k.val < 256 then a ⟨k.val, h⟩ else b ⟨k.val - 256, by omega⟩

/-- Neighbour `d`'s contribution at output feature `o`: the first linear layer on its joined row. -/
def emb (fnb fsnb : Fin 32 → Fin 256 → EReal) (w1 : Fin 256 → Fin 512 → EReal) (b1 : Fin 256 → EReal)
    (d : Fin 32) (o : Fin 256) : EReal :=
  (∑ k : Fin 512, cat (fnb d) (fsnb d) k * w1 o k) + b1 o

/-- The 32 neighbours' contributions summed. -/
def nsum (fnb fsnb : Fin 32 → Fin 256 → EReal) (w1 : Fin 256 → Fin 512 → EReal) (b1 : Fin 256 → EReal)
    (o : Fin 256) : EReal :=
  ∑ d : Fin 32, emb fnb fsnb w1 b1 d o

/-- The second linear layer on the node's row joined with the neighbour sum. -/
def lin2 (nf : Fin 256 → EReal) (fnb fsnb : Fin 32 → Fin 256 → EReal) (w1 : Fin 256 → Fin 512 → EReal)
    (b1 : Fin 256 → EReal) (w2 : Fin 256 → Fin 512 → EReal) (b2 : Fin 256 → EReal) (j : Fin 256) : EReal :=
  (∑ k : Fin 512, cat nf (nsum fnb fsnb w1 b1) k * w2 j k) + b2 j

/-- The row divided by the larger of its Euclidean norm and the constant. -/
def rowOut (nf : Fin 256 → EReal) (fnb fsnb : Fin 32 → Fin 256 → EReal) (w1 : Fin 256 → Fin 512 → EReal)
    (b1 : Fin 256 → EReal) (w2 : Fin 256 → Fin 512 → EReal) (b2 : Fin 256 → EReal) (j : Fin 256) : EReal :=
  Ideal.div (lin2 nf fnb fsnb w1 b1 w2 b2 j)
    (max (Ideal.sqrt (∑ j' : Fin 256, lin2 nf fnb fsnb w1 b1 w2 b2 j' * lin2 nf fnb fsnb w1 b1 w2 b2 j'))
      (Ideal.ofBits .f32 0x2B8CBCCC#32))

/-- A node word as an index into 100000 rows: a negative word has 100000 added. -/
def wrapWord (n : BitVec 32) : BitVec 32 :=
  Scalar.select (IntOp.cmpi .slt n 0#32) (IntOp.addi n 100000#32) n

/-- The table row a word addresses: wrapped, read signed, clamped into the table. -/
def rowIx (n : BitVec 32) : Fin 100000 :=
  ⟨min (wrapWord n).toInt.toNat 99999, by omega⟩

/-- Node `n`'s output row from the argument arrays. -/
def nodeOut (feat feats : (⟨2, ![100000, 256]⟩ : Shape).Idx → EReal) (adj : (⟨2, ![100000, 32]⟩ : Shape).Idx → BitVec 32)
    (W1 : (⟨2, ![256, 512]⟩ : Shape).Idx → EReal) (b1 : (⟨1, ![256]⟩ : Shape).Idx → EReal)
    (W2 : (⟨2, ![256, 512]⟩ : Shape).Idx → EReal) (b2 : (⟨1, ![256]⟩ : Shape).Idx → EReal)
    (n : BitVec 32) (j : Fin 256) : EReal :=
  rowOut (fun k => feat (ix2 (rowIx n) k))
    (fun d k => feat (ix2 (rowIx (adj (ix2 (rowIx n) d))) k))
    (fun d k => feats (ix2 (rowIx (adj (ix2 (rowIx n) d))) k))
    (fun o k => W1 (ix2 o k)) (fun o => b1 (ix1 o)) (fun o k => W2 (ix2 o k)) (fun o => b2 (ix1 o)) j

/-- The result array for a vector of `E` node words: row `i` is node `nodes[i]`'s output row. -/
def outArr (E : Nat) (feat feats : (⟨2, ![100000, 256]⟩ : Shape).Idx → EReal)
    (adj : (⟨2, ![100000, 32]⟩ : Shape).Idx → BitVec 32)
    (W1 : (⟨2, ![256, 512]⟩ : Shape).Idx → EReal) (b1 : (⟨1, ![256]⟩ : Shape).Idx → EReal)
    (W2 : (⟨2, ![256, 512]⟩ : Shape).Idx → EReal) (b2 : (⟨1, ![256]⟩ : Shape).Idx → EReal)
    (nodes : (⟨1, ![E]⟩ : Shape).Idx → BitVec 32) : (⟨2, ![E, 256]⟩ : Shape).Idx → EReal :=
  fun y => nodeOut feat feats adj W1 b1 W2 b2 (nodes (ix1 ⟨(y 0).val, idx2_lt0 y⟩)) ⟨(y 1).val, idx2_lt1 y⟩

theorem outArr_ix2 (E : Nat) (feat feats : (⟨2, ![100000, 256]⟩ : Shape).Idx → EReal)
    (adj : (⟨2, ![100000, 32]⟩ : Shape).Idx → BitVec 32)
    (W1 : (⟨2, ![256, 512]⟩ : Shape).Idx → EReal) (b1 : (⟨1, ![256]⟩ : Shape).Idx → EReal)
    (W2 : (⟨2, ![256, 512]⟩ : Shape).Idx → EReal) (b2 : (⟨1, ![256]⟩ : Shape).Idx → EReal)
    (nodes : (⟨1, ![E]⟩ : Shape).Idx → BitVec 32) (i : Fin E) (j : Fin 256) :
    outArr E feat feats adj W1 b1 W2 b2 nodes (ix2 i j) = nodeOut feat feats adj W1 b1 W2 b2 (nodes (ix1 i)) j := rfl

end Cert.Agg

end
-- ==== Proof.SpecArr.lean ====
/-
  The result array as a function of the GATHERED arrays: the nodes' own rows `[E, 256]`, their neighbours' rows of the
  two feature tables `[E, 32, 256]`, the two weight matrices given transposed `[512, 256]` and the two biases as `[1, 256]`
  rows. Row `r` of the result is the output row (`rowOut`) of row `r` of each gathered array.
-/
import proofs.«128609_j49039936585979_1_alg».proof.Proof.Spec

noncomputable section

namespace Cert.Agg

open Idealize.ShloMosaic Idealize.ShloMosaic.ValueIdx

/-- Row `r`, feature `q` of the result from the gathered arrays. -/
def gathArr (E : Nat) (nf : (⟨2, ![E, 256]⟩ : Shape).Idx → EReal) (fnb fsnb : (⟨3, ![E, 32, 256]⟩ : Shape).Idx → EReal)
    (w1t : (⟨2, ![512, 256]⟩ : Shape).Idx → EReal) (b1r : (⟨2, ![1, 256]⟩ : Shape).Idx → EReal)
    (w2t : (⟨2, ![512, 256]⟩ : Shape).Idx → EReal) (b2r : (⟨2, ![1, 256]⟩ : Shape).Idx → EReal) :
    (⟨2, ![E, 256]⟩ : Shape).Idx → EReal :=
  fun y => rowOut (fun k => nf (ix2 ⟨(y 0).val, idx2_lt0 y⟩ k))
    (fun d k => fnb (ix3 ⟨(y 0).val, idx2_lt0 y⟩ d k)) (fun d k => fsnb (ix3 ⟨(y 0).val, idx2_lt0 y⟩ d k))
    (fun o k => w1t (ix2 k o)) (fun o => b1r (ix2 (0 : Fin 1) o)) (fun o k => w2t (ix2 k o)) (fun o => b2r (ix2 (0 : Fin 1) o))
    ⟨(y 1).val, idx2_lt1 y⟩

theorem gathArr_ix2 (E : Nat) (nf : (⟨2, ![E, 256]⟩ : Shape).Idx → EReal) (fnb fsnb : (⟨3, ![E, 32, 256]⟩ : Shape).Idx → EReal)
    (w1t : (⟨2, ![512, 256]⟩ : Shape).Idx → EReal) (b1r : (⟨2, ![1, 256]⟩ : Shape).Idx → EReal)
    (w2t : (⟨2, ![512, 256]⟩ : Shape).Idx → EReal) (b2r : (⟨2, ![1, 256]⟩ : Shape).Idx → EReal) (i : Fin E) (j : Fin 256) :
    gathArr E nf fnb fsnb w1t b1r w2t b2r (ix2 i j)
      = rowOut (fun k => nf (ix2 i k)) (fun d k => fnb (ix3 i d k)) (fun d k => fsnb (ix3 i d k))
          (fun o k => w1t (ix2 k o)) (fun o => b1r (ix2 (0 : Fin 1) o)) (fun o k => w2t (ix2 k o)) (fun o => b2r (ix2 (0 : Fin 1) o)) j := rfl

end Cert.Agg

end
-- ==== Proof.KernelArr0.lean ====
/-
  The first call's output array after its 64 grid points, as one function of the arrays the call is entered with.
  Point `t` reads rows `128·t … 128·t + 127` of the three gathered arrays and the whole of the four weight and bias
  arrays, and writes back rows `128·t … 128·t + 127` of the output; the 64 blocks tile the 8192 rows, so the array ends
  holding, row by row, the body's result of that row's gathered values.
-/
import proofs.«128609_j49039936585979_1_alg».proof.Proof.Gen.KernelIdeal.Frame
import proofs.«128609_j49039936585979_1_alg».proof.Proof.SpecArr
import Idealize.ShloMosaic.Lib.Pipeline.Value
import Idealize.ShloMosaic.Lib.ValueIdx

set_option maxRecDepth 16384

noncomputable section

namespace Cert.KernelIdeal.Arr0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps over the grid: the three gathered windows and the output move with the point on their row
    axis; the weight and bias windows stay at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Every block of rows is some point's. -/
theorem idx_onto : ∀ q0 : Fin 64, ∃ t : Fin cfg0.N, win0_7.index t = ![q0.val, 0] :=
  (by decide +kernel : ∀ q0 : Fin 64, ∃ t : Fin grid0.N, win0_7.index t = ![q0.val, 0])

theorem t_lt (t : Fin cfg0.N) : t.val < 64 := t.isLt

/-! ## Each input window's block at a point, read where the output's rows say -/

theorem read0 (c : Dev nD) (t : Fin cfg0.N) (p : Fin 128) (d : Fin 32) (k : Fin 256) :
    iblk0 V c 0 t (ix3 p d k) = V c main_v28 (ix3 (⟨t.val * 128 + p.val, by have := t_lt t; omega⟩ : Fin 8192) d k) := by
  obtain ⟨e0, e1, e2, -⟩ := idx_facts t
  have h : ((cfg0.win 0).blk t).view.emb (ix3 p d k) = ix3 (⟨t.val * 128 + p.val, by have := t_lt t; omega⟩ : Fin 8192) d k := by
    funext a; apply Fin.ext
    match a with
    | ⟨0, _⟩ => show win0_0.index t (0 : Fin 3) * 128 + 1 * p.val = t.val * 128 + p.val; omega
    | ⟨1, _⟩ => show win0_0.index t (1 : Fin 3) * 32 + 1 * d.val = d.val; omega
    | ⟨2, _⟩ => show win0_0.index t (2 : Fin 3) * 256 + 1 * k.val = k.val; omega
  show V c main_v28 (((cfg0.win 0).blk t).view.emb (ix3 p d k)) = _
  rw [h]

theorem read1 (c : Dev nD) (t : Fin cfg0.N) (p : Fin 128) (d : Fin 32) (k : Fin 256) :
    iblk0 V c 1 t (ix3 p d k) = V c main_v35 (ix3 (⟨t.val * 128 + p.val, by have := t_lt t; omega⟩ : Fin 8192) d k) := by
  obtain ⟨-, -, -, e0, e1, e2, -⟩ := idx_facts t
  have h : ((cfg0.win 1).blk t).view.emb (ix3 p d k) = ix3 (⟨t.val * 128 + p.val, by have := t_lt t; omega⟩ : Fin 8192) d k := by
    funext a; apply Fin.ext
    match a with
    | ⟨0, _⟩ => show win0_1.index t (0 : Fin 3) * 128 + 1 * p.val = t.val * 128 + p.val; omega
    | ⟨1, _⟩ => show win0_1.index t (1 : Fin 3) * 32 + 1 * d.val = d.val; omega
    | ⟨2, _⟩ => show win0_1.index t (2 : Fin 3) * 256 + 1 * k.val = k.val; omega
  show V c main_v35 (((cfg0.win 1).blk t).view.emb (ix3 p d k)) = _
  rw [h]

theorem read2 (c : Dev nD) (t : Fin cfg0.N) (p : Fin 128) (k : Fin 256) :
    iblk0 V c 2 t (ix2 p k) = V c main_v14 (ix2 (⟨t.val * 128 + p.val, by have := t_lt t; omega⟩ : Fin 8192) k) := by
  obtain ⟨-, -, -, -, -, -, e0, e1, -⟩ := idx_facts t
  have h : ((cfg0.win 2).blk t).view.emb (ix2 p k) = ix2 (⟨t.val * 128 + p.val, by have := t_lt t; omega⟩ : Fin 8192) k := by
    funext a; apply Fin.ext
    match a with
    | ⟨0, _⟩ => show win0_2.index t (0 : Fin 2) * 128 + 1 * p.val = t.val * 128 + p.val; omega
    | ⟨1, _⟩ => show win0_2.index t (1 : Fin 2) * 256 + 1 * k.val = k.val; omega
  show V c main_v14 (((cfg0.win 2).blk t).view.emb (ix2 p k)) = _
  rw [h]

theorem read3 (c : Dev nD) (t : Fin cfg0.N) (k : Fin 512) (o : Fin 256) :
    iblk0 V c 3 t (ix2 k o) = V c main_v3 (ix2 k o) := by
  obtain ⟨-, -, -, -, -, -, -, -, e0, e1, -⟩ := idx_facts t
  have h : ((cfg0.win 3).blk t).view.emb (ix2 k o) = ix2 k o := by
    funext a; apply Fin.ext
    match a with
    | ⟨0, _⟩ => show win0_3.index t (0 : Fin 2) * 512 + 1 * k.val = k.val; omega
    | ⟨1, _⟩ => show win0_3.index t (1 : Fin 2) * 256 + 1 * o.val = o.val; omega
  show V c main_v3 (((cfg0.win 3).blk t).view.emb (ix2 k o)) = _
  rw [h]

theorem read4 (c : Dev nD) (t : Fin cfg0.N) (o : Fin 256) :
    iblk0 V c 4 t (ix2 (0 : Fin 1) o) = V c main_v6 (ix2 (0 : Fin 1) o) := by
  obtain ⟨-, -, -, -, -, -, -, -, -, -, e0, e1, -⟩ := idx_facts t
  have h : ((cfg0.win 4).blk t).view.emb (ix2 (0 : Fin 1) o) = ix2 (0 : Fin 1) o := by
    funext a; apply Fin.ext
    match a with
    | ⟨0, _⟩ => show win0_4.index t (0 : Fin 2) * 1 + 1 * 0 = 0; omega
    | ⟨1, _⟩ => show win0_4.index t (1 : Fin 2) * 256 + 1 * o.val = o.val; omega
  show V c main_v6 (((cfg0.win 4).blk t).view.emb (ix2 (0 : Fin 1) o)) = _
  rw [h]

theorem read5 (c : Dev nD) (t : Fin cfg0.N) (k : Fin 512) (o : Fin 256) :
    iblk0 V c 5 t (ix2 k o) = V c main_v5 (ix2 k o) := by
  obtain ⟨-, -, -, -, -, -, -, -, -, -, -, -, e0, e1, -⟩ := idx_facts t
  have h : ((cfg0.win 5).blk t).view.emb (ix2 k o) = ix2 k o := by
    funext a; apply Fin.ext
    match a with
    | ⟨0, _⟩ => show win0_5.index t (0 : Fin 2) * 512 + 1 * k.val = k.val; omega
    | ⟨1, _⟩ => show win0_5.index t (1 : Fin 2) * 256 + 1 * o.val = o.val; omega
  show V c main_v5 (((cfg0.win 5).blk t).view.emb (ix2 k o)) = _
  rw [h]

theorem read6 (c : Dev nD) (t : Fin cfg0.N) (o : Fin 256) :
    iblk0 V c 6 t (ix2 (0 : Fin 1) o) = V c main_v7 (ix2 (0 : Fin 1) o) := by
  obtain ⟨-, -, -, -, -, -, -, -, -, -, -, -, -, -, e0, e1, -⟩ := idx_facts t
  have h : ((cfg0.win 6).blk t).view.emb (ix2 (0 : Fin 1) o) = ix2 (0 : Fin 1) o := by
    funext a; apply Fin.ext
    match a with
    | ⟨0, _⟩ => show win0_6.index t (0 : Fin 2) * 1 + 1 * 0 = 0; omega
    | ⟨1, _⟩ => show win0_6.index t (1 : Fin 2) * 256 + 1 * o.val = o.val; omega
  show V c main_v7 (((cfg0.win 6).blk t).view.emb (ix2 (0 : Fin 1) o)) = _
  rw [h]

/-- The output block's index in the array. -/
theorem emb7 (t : Fin cfg0.N) (p : Fin 128) (q : Fin 256) :
    ((cfg0.win 7).blk t).view.emb (ix2 p q) = ix2 (⟨t.val * 128 + p.val, by have := t_lt t; omega⟩ : Fin 8192) q := by
  obtain ⟨-, -, -, -, -, -, -, -, -, -, -, -, -, -, -, -, e0, e1⟩ := idx_facts t
  funext a; apply Fin.ext
  match a with
  | ⟨0, _⟩ => show win0_7.index t (0 : Fin 2) * 128 + 1 * p.val = t.val * 128 + p.val; omega
  | ⟨1, _⟩ => show win0_7.index t (1 : Fin 2) * 256 + 1 * q.val = q.val; omega

/-- The array the call leaves, from the arrays it is entered with. -/
abbrev G (c : Dev nD) : S8192x256.Idx → EReal :=
  Cert.Agg.gathArr 8192 (V c main_v14) (V c main_v28) (V c main_v35) (V c main_v3) (V c main_v6) (V c main_v5) (V c main_v7)

/-- WHAT POINT `t` WRITES BACK is block `t` of `G`, given the body's result read at an index (`hpay`). -/
theorem flushed_eq
    (hpay : ∀ (x0 x1 : Vec Ideal S128x32x256 .bf16) (x2 : Vec Ideal S128x256 .bf16) (x3 : Vec Ideal S512x256 .bf16)
      (x4 : Vec Ideal S1x256 .f32) (x5 : Vec Ideal S512x256 .bf16) (x6 : Vec Ideal S1x256 .f32) (p : Fin 128) (j : Fin 256),
      out0_7 (F := Ideal) x0 x1 x2 x3 x4 x5 x6 (ix2 p j)
        = Cert.Agg.rowOut (fun k => x2 (ix2 p k)) (fun d k => x0 (ix3 p d k)) (fun d k => x1 (ix3 p d k))
            (fun o k => x3 (ix2 k o)) (fun o => x4 (ix2 (0 : Fin 1) o)) (fun o k => x5 (ix2 k o)) (fun o => x6 (ix2 (0 : Fin 1) o)) j)
    (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  funext y
  obtain ⟨p, q, rfl⟩ : ∃ (p : Fin 128) (q : Fin 256), y = ix2 p q := ⟨y 0, y 1, eq_ix2 y⟩
  show out0_7 (iblk0 V c 0 t) (iblk0 V c 1 t) (iblk0 V c 2 t) (iblk0 V c 3 t) (iblk0 V c 4 t) (iblk0 V c 5 t) (iblk0 V c 6 t) (ix2 p q)
    = G V c (((cfg0.win 7).blk t).view.emb (ix2 p q))
  rw [emb7 t p q]
  refine (hpay (iblk0 V c 0 t) (iblk0 V c 1 t) (iblk0 V c 2 t) (iblk0 V c 3 t) (iblk0 V c 4 t) (iblk0 V c 5 t) (iblk0 V c 6 t) p q).trans ?_
  show _ = Cert.Agg.gathArr 8192 (V c main_v14) (V c main_v28) (V c main_v35) (V c main_v3) (V c main_v6) (V c main_v5) (V c main_v7)
    (ix2 (⟨t.val * 128 + p.val, by have := t_lt t; omega⟩ : Fin 8192) q)
  rw [Cert.Agg.gathArr_ix2]
  simp only [read0 V c t, read1 V c t, read2 V c t, read3 V c t, read4 V c t, read5 V c t, read6 V c t]

/-- An index of the array is in point `t`'s block iff each coordinate is in the block's range on its axis. -/
theorem mem_blk (t : Fin cfg0.N) (i : S8192x256.Idx) :
    i ∈ ((cfg0.win 7).blk t).view.set ↔ ∀ a : Fin 2, win0_7.index t a * S128x256.size a ≤ (i a).val ∧ (i a).val < win0_7.index t a * S128x256.size a + S128x256.size a := by
  show i ∈ ((View.whole main_v36).slice (win0_7.rect t)).set ↔ _
  rw [View.set_slice_whole, Rect.mem_set_unit]
  exact Iff.rfl

/-- Every index of the array is in some point's block: row `r` is in block `r / 128`. -/
theorem cover (i : S8192x256.Idx) :
    ∃ t : Fin cfg0.N, (cfg0.win 7).flush t = true ∧ i ∈ ((cfg0.win 7).blk t).view.set := by
  have hi0 : (i 0).val < 8192 := (i 0).isLt
  have hi1 : (i 1).val < 256 := (i 1).isLt
  obtain ⟨t, ht⟩ := idx_onto ⟨(i 0).val / 128, by omega⟩
  have q0 : win0_7.index t (0 : Fin 2) = (i 0).val / 128 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 128 ≤ (i 0).val ∧ (i 0).val < win0_7.index t (0 : Fin 2) * 128 + 128; omega
  | ⟨1, _⟩ => show win0_7.index t (1 : Fin 2) * 256 ≤ (i 1).val ∧ (i 1).val < win0_7.index t (1 : Fin 2) * 256 + 256; omega

/-- THE ARRAY after the call's 64 points. -/
theorem arr
    (hpay : ∀ (x0 x1 : Vec Ideal S128x32x256 .bf16) (x2 : Vec Ideal S128x256 .bf16) (x3 : Vec Ideal S512x256 .bf16)
      (x4 : Vec Ideal S1x256 .f32) (x5 : Vec Ideal S512x256 .bf16) (x6 : Vec Ideal S1x256 .f32) (p : Fin 128) (j : Fin 256),
      out0_7 (F := Ideal) x0 x1 x2 x3 x4 x5 x6 (ix2 p j)
        = Cert.Agg.rowOut (fun k => x2 (ix2 p k)) (fun d k => x0 (ix3 p d k)) (fun d k => x1 (ix3 p d k))
            (fun o k => x3 (ix2 k o)) (fun o => x4 (ix2 (0 : Fin 1) o)) (fun o k => x5 (ix2 k o)) (fun o => x6 (ix2 (0 : Fin 1) o)) j)
    (c : Dev nD) : (dat0 V c).arrAt 7 cfg0.N = G V c :=
  (dat0 V c).arrAt_eq_of_cover 7 (G V c) (fun t _ => flushed_eq V hpay c t) cover

end Cert.KernelIdeal.Arr0

end
-- ==== Proof.LibGatherRows.lean ====
/-
  A gather of whole rows, read at an index. What `x[idx]` along the first axis of a table `x : [N, C]` lowers to, for a
  column of start indices `idx : [E, 1]`: a gather with offset axis 1, the operand's axis 0 collapsed, no batching axes, the
  start index mapped to axis 0, the index vector on the start indices' axis 1, and slices of one whole row. Result element
  `(e, j)` is the table at row `idx[e, 0]` — read as a signed integer and clamped into `[0, N − 1]`, as a gather clamps
  every start index — and column `j`. Where the start index, read unsigned, is already below `N ≤ 2³¹`, the sign and the
  clamp change nothing and the row is the start index itself.
-/
import Idealize.ShloMosaic.Lib.ValueIdx

namespace LibGatherRows

open Idealize.ShloMosaic Idealize.ShloMosaic.ValueIdx

variable {α : Type}

/-- The dimension numbers of a gather of whole rows, for an operand `[N, C]`, start indices `[E, 1]` and a result
    `[E, C]`; their conditions `wf` are decided on a program's literal shapes. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, j)`: the operand at row `idx[e, 0]`, read signed and clamped into `[0, N − 1]`, and
    column `j`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j)
      = x (ix2 (⟨min (idx (ix2 e (0 : Fin 1))).toInt.toNat (N - 1), by omega⟩ : Fin N) j) := by
  unfold Host.gather
  congr 1
  funext a
  refine Fin.ext ?_
  match a with
  | ⟨0, _⟩ =>
    show (rowDims N C E wf).start (ix2 e j) idx 0 + (rowDims N C E wf).batchCoord (ix2 e j) 0
      + (rowDims N C E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e j) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e j) idx 1 + (rowDims N C E wf).batchCoord (ix2 e j) 1
      + (rowDims N C E wf).offCoord (ix2 e j) 1 = j.val
    rw [GatherDims.batchCoord_eq_zero _ _ _ List.not_mem_nil]
    have hst : (rowDims N C E wf).start (ix2 e j) idx 1 = 0 := by
      unfold GatherDims.start
      rw [dif_neg (show ¬ (1 : Fin 2) ∈ (rowDims N C E wf).startIndexMap from
        fun h => absurd (congrArg Fin.val (List.mem_singleton.mp h)) Nat.one_ne_zero)]
    have hk : (1 : Fin 2) ∈ (rowDims N C E wf).sKept :=
      (GatherDims.mem_sKept _ _).mpr
        ⟨fun h => absurd (congrArg Fin.val (List.mem_singleton.mp h)) Nat.one_ne_zero, List.not_mem_nil⟩
    have hoff : (rowDims N C E wf).offCoord (ix2 e j) 1 = j.val := by
      unfold GatherDims.offCoord
      rw [dif_pos hk]
      rfl
    rw [hst, hoff, Nat.add_zero, Nat.zero_add]

/-- A 32-bit word below 2³¹ read as a signed integer is its unsigned reading. -/
theorem toInt_toNat_of_lt {a : BitVec 32} (ha : a.toNat < 2 ^ 31) : a.toInt.toNat = a.toNat := by
  have hw := BitVec.toInt_eq_toNat_cond a
  split at hw <;> omega

/-- THE GATHER OF ROWS AT AN IN-RANGE START INDEX: where `idx[e, 0]`, read unsigned, is below `N ≤ 2³¹`, the result's
    element `(e, j)` is the operand at row `idx[e, 0]` and column `j`. -/
theorem gather_rows_apply_of_lt {N C E : Nat} (hN : N ≤ 2 ^ 31)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (j : Fin C)
    (h : (idx (ix2 e (0 : Fin 1))).toNat < N) :
    Host.gather (rowDims N C E wf) x idx (ix2 e j) = x (ix2 (⟨(idx (ix2 e (0 : Fin 1))).toNat, h⟩ : Fin N) j) := by
  rw [gather_rows_apply (by omega) wf x idx e j]
  congr 2
  refine Fin.ext ?_
  show min (idx (ix2 e (0 : Fin 1))).toInt.toNat (N - 1) = (idx (ix2 e (0 : Fin 1))).toNat
  rw [toInt_toNat_of_lt (by omega)]
  omega

/-- A record of dimension numbers with the fields of a gather of whole rows is `rowDims`. -/
theorem eq_rowDims {N C E : Nat} (G : GatherDims ⟨2, ![N, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C]) :
    ∃ wf, G = rowDims N C E wf := by
  obtain ⟨od, cd, ob, sb, sm, iv, ss, wf⟩ := G
  simp only at hod hcd hob hsb hsm hiv hss
  subst hod hcd hob hsb hsm hiv hss
  exact ⟨wf, rfl⟩

/-- The gather of rows at an in-range start index, for any record of dimension numbers with those fields. -/
theorem gather_apply_of_fields {N C E : Nat} (hN : N ≤ 2 ^ 31) (G : GatherDims ⟨2, ![N, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C])
    (x : (⟨2, ![N, C]⟩ : Shape).Idx → α) (idx : IVec ⟨2, ![E, 1]⟩ 32) (e : Fin E) (j : Fin C)
    (h : (idx (ix2 e (0 : Fin 1))).toNat < N) :
    Host.gather G x idx (ix2 e j) = x (ix2 (⟨(idx (ix2 e (0 : Fin 1))).toNat, h⟩ : Fin N) j) := by
  obtain ⟨wf, rfl⟩ := eq_rowDims G hod hcd hob hsb hsm hiv hss
  exact gather_rows_apply_of_lt hN wf x idx e j h

end LibGatherRows
-- ==== Proof.LibGatherRows3.lean ====
/-
  A gather of whole rows through a two-axis table of start indices, read at an index. What `x[idx]` along the first
  axis of a table `x : [N, C]` lowers to for an index array `idx : [B, D]`, carried as `[B, D, 1]`: a gather with offset
  axis 2, the operand's axis 0 collapsed, no batching axes, the start index mapped to axis 0, the index vector on the
  start indices' axis 2, and slices of one whole row. Result element `(b, d, j)` is the table at row `idx[b, d, 0]` — read
  as a signed integer and clamped into `[0, N − 1]`, as a gather clamps every start index — and column `j`.
-/
import Idealize.ShloMosaic.Lib.ValueIdx

namespace LibGatherRows3

open Idealize.ShloMosaic Idealize.ShloMosaic.ValueIdx

variable {α : Type}

/-- The dimension numbers of a gather of whole rows through start indices `[B, D, 1]`, for an operand `[N, C]` and a
    result `[B, D, C]`; their conditions `wf` are decided on a program's literal shapes. -/
abbrev rowDims3 (N C B D : Nat)
    (wf : GatherDims.WF ⟨2, ![N, C]⟩ ⟨3, ![B, D, 1]⟩ ⟨3, ![B, D, C]⟩ [2] [0] [] [0] [] 2 ![1, C]) :
    GatherDims ⟨2, ![N, C]⟩ ⟨3, ![B, D, 1]⟩ ⟨3, ![B, D, C]⟩ where
  offsetDims := [2]
  collapsedSliceDims := [0]
  operandBatchingDims := []
  startIndicesBatchingDims := []
  startIndexMap := [0]
  indexVectorDim := 2
  sliceSizes := ![1, C]
  wf := wf

/-- THE GATHER OF ROWS READ AT `(b, d, j)`: the operand at row `idx[b, d, 0]`, read signed and clamped into
    `[0, N − 1]`, and column `j`. -/
theorem gather_rows3_apply {N C B D w : Nat} (hN : 0 < N)
    (wf : GatherDims.WF ⟨2, ![N, C]⟩ ⟨3, ![B, D, 1]⟩ ⟨3, ![B, D, C]⟩ [2] [0] [] [0] [] 2 ![1, C])
    (x : (⟨2, ![N, C]⟩ : Shape).Idx → α) (idx : IVec ⟨3, ![B, D, 1]⟩ w) (b : Fin B) (d : Fin D) (j : Fin C) :
    Host.gather (rowDims3 N C B D wf) x idx (ix3 b d j)
      = x (ix2 (⟨min (idx (ix3 b d (0 : Fin 1))).toInt.toNat (N - 1), by omega⟩ : Fin N) j) := by
  unfold Host.gather
  congr 1
  funext a
  refine Fin.ext ?_
  match a with
  | ⟨0, _⟩ =>
    show (rowDims3 N C B D wf).start (ix3 b d j) idx 0 + (rowDims3 N C B D wf).batchCoord (ix3 b d j) 0
      + (rowDims3 N C B D wf).offCoord (ix3 b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N C B D wf).startIndexMap from List.mem_singleton.mpr rfl)]
    have hsi : (rowDims3 N C B D wf).siIdx (ix3 b d j) ⟨List.idxOf (0 : Fin 2) (rowDims3 N C B D wf).startIndexMap,
        List.idxOf_lt_length_iff.2 (List.mem_singleton.mpr rfl)⟩ = ix3 b d (0 : Fin 1) := by
      funext e; refine Fin.ext ?_
      match e with
      | ⟨0, _⟩ => rfl
      | ⟨1, _⟩ => rfl
      | ⟨2, _⟩ => rfl
    rw [hsi]
    rfl
  | ⟨1, _⟩ =>
    show (rowDims3 N C B D wf).start (ix3 b d j) idx 1 + (rowDims3 N C B D wf).batchCoord (ix3 b d j) 1
      + (rowDims3 N C B D wf).offCoord (ix3 b d j) 1 = j.val
    rw [GatherDims.batchCoord_eq_zero _ _ _ List.not_mem_nil]
    have hst : (rowDims3 N C B D wf).start (ix3 b d j) idx 1 = 0 := by
      unfold GatherDims.start
      rw [dif_neg (show ¬ (1 : Fin 2) ∈ (rowDims3 N C B D wf).startIndexMap from
        fun h => absurd (congrArg Fin.val (List.mem_singleton.mp h)) Nat.one_ne_zero)]
    have hk : (1 : Fin 2) ∈ (rowDims3 N C B D wf).sKept :=
      (GatherDims.mem_sKept _ _).mpr
        ⟨fun h => absurd (congrArg Fin.val (List.mem_singleton.mp h)) Nat.one_ne_zero, List.not_mem_nil⟩
    have hoff : (rowDims3 N C B D wf).offCoord (ix3 b d j) 1 = j.val := by
      unfold GatherDims.offCoord
      rw [dif_pos hk]
      rfl
    rw [hst, hoff, Nat.add_zero, Nat.zero_add]

/-- A record of dimension numbers with the fields of a gather of whole rows through `[B, D, 1]` is `rowDims3`. -/
theorem eq_rowDims3 {N C B D : Nat} (G : GatherDims ⟨2, ![N, C]⟩ ⟨3, ![B, D, 1]⟩ ⟨3, ![B, D, C]⟩)
    (hod : G.offsetDims = [2]) (hcd : G.collapsedSliceDims = [0]) (hob : G.operandBatchingDims = [])
    (hsb : G.startIndicesBatchingDims = []) (hsm : G.startIndexMap = [0]) (hiv : G.indexVectorDim = 2)
    (hss : G.sliceSizes = ![1, C]) :
    ∃ wf, G = rowDims3 N C B D wf := by
  obtain ⟨od, cd, ob, sb, sm, iv, ss, wf⟩ := G
  simp only at hod hcd hob hsb hsm hiv hss
  subst hod hcd hob hsb hsm hiv hss
  exact ⟨wf, rfl⟩

end LibGatherRows3
-- ==== Proof.HostGlue.lean ====
/-
  The host operations around the calls, read at an index, for any number `E` of nodes.

  An index vector is carried to a gather as a column (`[E] → [E, 1]`) or, for the neighbour table, as `[E, D] → [E, D, 1]`;
  the gather of rows then reads the operand at the row the index word addresses, read signed and clamped into the
  table. A weight matrix handed over transposed reads at `(k, o)` what the matrix holds at `(o, k)`, and a bias reshaped to
  one row reads at `(0, o)` what the vector holds at `o`.
-/
import proofs.«128609_j49039936585979_1_alg».proof.Proof.SpecArr
import proofs.«128609_j49039936585979_1_alg».proof.Proof.LibGatherRows
import proofs.«128609_j49039936585979_1_alg».proof.Proof.LibGatherRows3
import Idealize.ShloMosaic.Lib.Pipeline.Value
import Idealize.ShloMosaic.Lib.ValueIdx

noncomputable section

namespace Cert.Agg.Glue

open Idealize.ShloMosaic Idealize.ShloMosaic.ValueIdx

variable {α : Type}

/-- A vector carried as a column, read at row `i`. -/
theorem bcast_col {E : Nat} (hb : (⟨1, ![E]⟩ : Shape).BroadcastsInDim ⟨2, ![E, 1]⟩ ![0])
    (v : (⟨1, ![E]⟩ : Shape).Idx → α) (i : Fin E) :
    broadcastInDim ⟨2, ![E, 1]⟩ ![0] hb v (ix2 i (0 : Fin 1)) = v (ix1 i) := by
  refine broadcastInDim_apply _ hb v _ (ix1 i) fun a => ?_
  obtain rfl : a = 0 := Subsingleton.elim _ _
  show i.val = if E = 1 then 0 else i.val
  split
  · have := i.isLt; omega
  · rfl

/-- A two-axis table carried with a trailing unit axis, read at `(b, d)`. -/
theorem bcast_tab {E D : Nat} (hb : (⟨2, ![E, D]⟩ : Shape).BroadcastsInDim ⟨3, ![E, D, 1]⟩ ![0, 1])
    (v : (⟨2, ![E, D]⟩ : Shape).Idx → α) (b : Fin E) (d : Fin D) :
    broadcastInDim ⟨3, ![E, D, 1]⟩ ![0, 1] hb v (ix3 b d (0 : Fin 1)) = v (ix2 b d) := by
  refine broadcastInDim_apply _ hb v _ (ix2 b d) fun a => ?_
  match a with
  | ⟨0, _⟩ =>
    show b.val = if E = 1 then 0 else b.val
    split
    · have := b.isLt; omega
    · rfl
  | ⟨1, _⟩ =>
    show d.val = if D = 1 then 0 else d.val
    split
    · have := d.isLt; omega
    · rfl

/-- THE GATHER OF ROWS THROUGH A COLUMN OF WORDS, read at `(i, k)`: the operand at the row word `v[i]` addresses. -/
theorem rows_apply {N C E : Nat} (hN : 0 < N) (G : GatherDims ⟨2, ![N, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C])
    (hb : (⟨1, ![E]⟩ : Shape).BroadcastsInDim ⟨2, ![E, 1]⟩ ![0])
    (x : (⟨2, ![N, C]⟩ : Shape).Idx → α) (v : IVec ⟨1, ![E]⟩ 32) (i : Fin E) (k : Fin C) :
    Host.gather G x (broadcastInDim ⟨2, ![E, 1]⟩ ![0] hb v) (ix2 i k)
      = x (ix2 (⟨min (v (ix1 i)).toInt.toNat (N - 1), by omega⟩ : Fin N) k) := by
  obtain ⟨wf, rfl⟩ := LibGatherRows.eq_rowDims G hod hcd hob hsb hsm hiv hss
  rw [LibGatherRows.gather_rows_apply hN wf x _ i k]
  refine congrArg (fun r : Fin N => x (ix2 r k)) (Fin.ext ?_)
  show min (broadcastInDim ⟨2, ![E, 1]⟩ ![0] hb v (ix2 i (0 : Fin 1))).toInt.toNat (N - 1) = min (v (ix1 i)).toInt.toNat (N - 1)
  rw [bcast_col hb v i]

/-- THE GATHER OF ROWS THROUGH A TABLE OF WORDS, read at `(b, d, k)`: the operand at the row word `v[b, d]` addresses. -/
theorem rows3_apply {N C E D : Nat} (hN : 0 < N) (G : GatherDims ⟨2, ![N, C]⟩ ⟨3, ![E, D, 1]⟩ ⟨3, ![E, D, C]⟩)
    (hod : G.offsetDims = [2]) (hcd : G.collapsedSliceDims = [0]) (hob : G.operandBatchingDims = [])
    (hsb : G.startIndicesBatchingDims = []) (hsm : G.startIndexMap = [0]) (hiv : G.indexVectorDim = 2)
    (hss : G.sliceSizes = ![1, C])
    (hb : (⟨2, ![E, D]⟩ : Shape).BroadcastsInDim ⟨3, ![E, D, 1]⟩ ![0, 1])
    (x : (⟨2, ![N, C]⟩ : Shape).Idx → α) (v : IVec ⟨2, ![E, D]⟩ 32) (b : Fin E) (d : Fin D) (k : Fin C) :
    Host.gather G x (broadcastInDim ⟨3, ![E, D, 1]⟩ ![0, 1] hb v) (ix3 b d k)
      = x (ix2 (⟨min (v (ix2 b d)).toInt.toNat (N - 1), by omega⟩ : Fin N) k) := by
  obtain ⟨wf, rfl⟩ := LibGatherRows3.eq_rowDims3 G hod hcd hob hsb hsm hiv hss
  rw [LibGatherRows3.gather_rows3_apply hN wf x _ b d k]
  refine congrArg (fun r : Fin N => x (ix2 r k)) (Fin.ext ?_)
  show min (broadcastInDim ⟨3, ![E, D, 1]⟩ ![0, 1] hb v (ix3 b d (0 : Fin 1))).toInt.toNat (N - 1) = min (v (ix2 b d)).toInt.toNat (N - 1)
  rw [bcast_tab hb v b d]

/-- The index wrap as the programs print it, at an element: the word wrapped. -/
theorem wrap_apply {s : Shape} (h0 : (⟨0, ![]⟩ : Shape).BroadcastsInDim s ![]) (x : IVec s 32) (i : s.Idx) :
    select (cmpi .slt x (broadcastInDim s ![] h0 (constantI ⟨0, ![]⟩ 32 0#32)))
      (addi x (broadcastInDim s ![] h0 (constantI ⟨0, ![]⟩ 32 100000#32))) x i = wrapWord (x i) := rfl

/-- A `[256, 512]` matrix handed over transposed, read at `(k, o)`. -/
theorem transposed_apply (h : (⟨2, ![256, 512]⟩ : Shape).Transposes [1, 0] ⟨2, ![512, 256]⟩)
    (W : (⟨2, ![256, 512]⟩ : Shape).Idx → α) (k : Fin 512) (o : Fin 256) :
    transpose ⟨2, ![512, 256]⟩ [1, 0] W h (ix2 k o) = W (ix2 o k) := by
  refine transpose_apply _ W h _ (ix2 o k) fun b => ?_
  match b with
  | ⟨0, _⟩ => rfl
  | ⟨1, _⟩ => rfl

/-- A `[256]` vector reshaped to one row, read at `(0, o)`. -/
theorem row_apply (h : (⟨1, ![256]⟩ : Shape).ShapeCasts ⟨2, ![1, 256]⟩)
    (b : (⟨1, ![256]⟩ : Shape).Idx → α) (o : Fin 256) :
    shapeCast ⟨2, ![1, 256]⟩ b h (ix2 (0 : Fin 1) o) = b (ix1 o) := by
  refine shapeCast_apply b h _ (ix1 o) ?_
  rw [Shape.rowMajor_val_one, Shape.rowMajor_val_two]
  show o.val = 0 * 256 + o.val
  omega

/-- A GATHER OF ROWS THROUGH THE WRAPPED COLUMN OF NODE WORDS, as the programs print it, read at `(i, k)`: the operand
    at the row node `i`'s word addresses. -/
theorem rows_wrap_apply {C E : Nat} (G : GatherDims ⟨2, ![100000, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C])
    (hb : (⟨1, ![E]⟩ : Shape).BroadcastsInDim ⟨2, ![E, 1]⟩ ![0])
    (h0 : (⟨0, ![]⟩ : Shape).BroadcastsInDim ⟨1, ![E]⟩ ![])
    (x : (⟨2, ![100000, C]⟩ : Shape).Idx → α) (nodes : IVec ⟨1, ![E]⟩ 32) (i : Fin E) (k : Fin C) :
    Host.gather G x (broadcastInDim ⟨2, ![E, 1]⟩ ![0] hb
        (select (cmpi .slt nodes (broadcastInDim ⟨1, ![E]⟩ ![] h0 (constantI ⟨0, ![]⟩ 32 0#32)))
          (addi nodes (broadcastInDim ⟨1, ![E]⟩ ![] h0 (constantI ⟨0, ![]⟩ 32 100000#32))) nodes)) (ix2 i k)
      = x (ix2 (rowIx (nodes (ix1 i))) k) :=
  rows_apply (by decide) G hod hcd hob hsb hsm hiv hss hb x _ i k

/-- THE NEIGHBOURS' ROWS, as the programs print them, read at `(i, d, k)`: the neighbour table's row for node `i` is
    gathered through the wrapped node words, and the feature table's rows through the wrapped neighbour words; element
    `(i, d, k)` is the feature table at the row neighbour `d` of node `i` addresses. -/
theorem nbrows_apply {E : Nat}
    (G3 : GatherDims ⟨2, ![100000, 256]⟩ ⟨3, ![E, 32, 1]⟩ ⟨3, ![E, 32, 256]⟩)
    (hod3 : G3.offsetDims = [2]) (hcd3 : G3.collapsedSliceDims = [0]) (hob3 : G3.operandBatchingDims = [])
    (hsb3 : G3.startIndicesBatchingDims = []) (hsm3 : G3.startIndexMap = [0]) (hiv3 : G3.indexVectorDim = 2)
    (hss3 : G3.sliceSizes = ![1, 256])
    (G2 : GatherDims ⟨2, ![100000, 32]⟩ ⟨2, ![E, 1]⟩ ⟨2, ![E, 32]⟩)
    (hod2 : G2.offsetDims = [1]) (hcd2 : G2.collapsedSliceDims = [0]) (hob2 : G2.operandBatchingDims = [])
    (hsb2 : G2.startIndicesBatchingDims = []) (hsm2 : G2.startIndexMap = [0]) (hiv2 : G2.indexVectorDim = 1)
    (hss2 : G2.sliceSizes = ![1, 32])
    (hb3 : (⟨2, ![E, 32]⟩ : Shape).BroadcastsInDim ⟨3, ![E, 32, 1]⟩ ![0, 1])
    (hb1 : (⟨1, ![E]⟩ : Shape).BroadcastsInDim ⟨2, ![E, 1]⟩ ![0])
    (h0 : (⟨0, ![]⟩ : Shape).BroadcastsInDim ⟨1, ![E]⟩ ![])
    (h00 : (⟨0, ![]⟩ : Shape).BroadcastsInDim ⟨2, ![E, 32]⟩ ![])
    (x : (⟨2, ![100000, 256]⟩ : Shape).Idx → α) (adj : IVec ⟨2, ![100000, 32]⟩ 32) (nodes : IVec ⟨1, ![E]⟩ 32)
    (i : Fin E) (d : Fin 32) (k : Fin 256) :
    Host.gather G3 x (broadcastInDim ⟨3, ![E, 32, 1]⟩ ![0, 1] hb3
        (select
          (cmpi .slt
            (Host.gather G2 adj (broadcastInDim ⟨2, ![E, 1]⟩ ![0] hb1
              (select (cmpi .slt nodes (broadcastInDim ⟨1, ![E]⟩ ![] h0 (constantI ⟨0, ![]⟩ 32 0#32)))
                (addi nodes (broadcastInDim ⟨1, ![E]⟩ ![] h0 (constantI ⟨0, ![]⟩ 32 100000#32))) nodes)))
            (broadcastInDim ⟨2, ![E, 32]⟩ ![] h00 (constantI ⟨0, ![]⟩ 32 0#32)))
          (addi
            (Host.gather G2 adj (broadcastInDim ⟨2, ![E, 1]⟩ ![0] hb1
              (select (cmpi .slt nodes (broadcastInDim ⟨1, ![E]⟩ ![] h0 (constantI ⟨0, ![]⟩ 32 0#32)))
                (addi nodes (broadcastInDim ⟨1, ![E]⟩ ![] h0 (constantI ⟨0, ![]⟩ 32 100000#32))) nodes)))
            (broadcastInDim ⟨2, ![E, 32]⟩ ![] h00 (constantI ⟨0, ![]⟩ 32 100000#32)))
          (Host.gather G2 adj (broadcastInDim ⟨2, ![E, 1]⟩ ![0] hb1
            (select (cmpi .slt nodes (broadcastInDim ⟨1, ![E]⟩ ![] h0 (constantI ⟨0, ![]⟩ 32 0#32)))
              (addi nodes (broadcastInDim ⟨1, ![E]⟩ ![] h0 (constantI ⟨0, ![]⟩ 32 100000#32))) nodes))))) (ix3 i d k)
      = x (ix2 (rowIx (adj (ix2 (rowIx (nodes (ix1 i))) d))) k) := by
  refine (rows3_apply (by decide) G3 hod3 hcd3 hob3 hsb3 hsm3 hiv3 hss3 hb3 x _ i d k).trans ?_
  have h2 := rows_wrap_apply G2 hod2 hcd2 hob2 hsb2 hsm2 hiv2 hss2 hb1 h0 adj nodes i d
  show x (ix2 (rowIx (Host.gather G2 adj (broadcastInDim ⟨2, ![E, 1]⟩ ![0] hb1
      (select (cmpi .slt nodes (broadcastInDim ⟨1, ![E]⟩ ![] h0 (constantI ⟨0, ![]⟩ 32 0#32)))
        (addi nodes (broadcastInDim ⟨1, ![E]⟩ ![] h0 (constantI ⟨0, ![]⟩ 32 100000#32))) nodes)) (ix2 i d))) k) = _
  rw [h2]

/-- The result array from gathered arrays that hold, row by row, what the nodes' words address: the result array for
    the node words. -/
theorem gathArr_eq_outArr (E : Nat) (nf : (⟨2, ![E, 256]⟩ : Shape).Idx → EReal)
    (fnb fsnb : (⟨3, ![E, 32, 256]⟩ : Shape).Idx → EReal)
    (w1t : (⟨2, ![512, 256]⟩ : Shape).Idx → EReal) (b1r : (⟨2, ![1, 256]⟩ : Shape).Idx → EReal)
    (w2t : (⟨2, ![512, 256]⟩ : Shape).Idx → EReal) (b2r : (⟨2, ![1, 256]⟩ : Shape).Idx → EReal)
    (feat feats : (⟨2, ![100000, 256]⟩ : Shape).Idx → EReal) (adj : (⟨2, ![100000, 32]⟩ : Shape).Idx → BitVec 32)
    (W1 : (⟨2, ![256, 512]⟩ : Shape).Idx → EReal) (b1 : (⟨1, ![256]⟩ : Shape).Idx → EReal)
    (W2 : (⟨2, ![256, 512]⟩ : Shape).Idx → EReal) (b2 : (⟨1, ![256]⟩ : Shape).Idx → EReal)
    (nodes : (⟨1, ![E]⟩ : Shape).Idx → BitVec 32)
    (hnf : ∀ (i : Fin E) (k : Fin 256), nf (ix2 i k) = feat (ix2 (rowIx (nodes (ix1 i))) k))
    (hfnb : ∀ (i : Fin E) (d : Fin 32) (k : Fin 256),
      fnb (ix3 i d k) = feat (ix2 (rowIx (adj (ix2 (rowIx (nodes (ix1 i))) d))) k))
    (hfsnb : ∀ (i : Fin E) (d : Fin 32) (k : Fin 256),
      fsnb (ix3 i d k) = feats (ix2 (rowIx (adj (ix2 (rowIx (nodes (ix1 i))) d))) k))
    (hw1 : ∀ (k : Fin 512) (o : Fin 256), w1t (ix2 k o) = W1 (ix2 o k))
    (hb1 : ∀ o : Fin 256, b1r (ix2 (0 : Fin 1) o) = b1 (ix1 o))
    (hw2 : ∀ (k : Fin 512) (o : Fin 256), w2t (ix2 k o) = W2 (ix2 o k))
    (hb2 : ∀ o : Fin 256, b2r (ix2 (0 : Fin 1) o) = b2 (ix1 o)) :
    gathArr E nf fnb fsnb w1t b1r w2t b2r = outArr E feat feats adj W1 b1 W2 b2 nodes := by
  funext y
  obtain ⟨i, j, rfl⟩ : ∃ (i : Fin E) (j : Fin 256), y = ix2 i j := ⟨y 0, y 1, eq_ix2 y⟩
  rw [gathArr_ix2, outArr_ix2]
  unfold nodeOut
  simp only [hnf, hfnb, hfsnb, hw1, hb1, hw2, hb2]

end Cert.Agg.Glue

end
-- ==== Proof.Payload.lean ====
/-
  The kernel body's result, read at an index.

  One grid point handles a block of 128 nodes. Its inputs are the two `[128, 32, 256]` blocks of neighbour rows, the
  `[128, 256]` block of the nodes' own rows, and the two `[512, 256]` weight blocks with their `[1, 256]` biases. The
  body joins the two neighbour blocks along the feature axis, flattens the result to 4096 rows of width 512, multiplies by
  the first weight block and adds the first bias, regroups the 4096 rows as 128 × 32 and sums over the 32 neighbours,
  joins each node's own row with that sum, multiplies by the second weight block and adds the second bias, and divides
  each row by the larger of its Euclidean norm and a fixed small constant.

  At the ideal values every format change is the identity, a product into the zero accumulator is the plain sum over the
  contraction position, and a sum over one axis is the plain sum over that axis's coordinates. So at node `p` of the
  block and feature `j` the result is `Cert.Agg.rowOut` of row `p` of each input (`out0_apply`), which is what the
  blocks-to-array step needs of the body.
-/
import proofs.«128609_j49039936585979_1_alg».proof.Proof.Gen.KernelIdeal.Frame
import proofs.«128609_j49039936585979_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section
namespace Cert.KernelIdeal.Pay
open Idealize.ShloMosaic Idealize.ShloMosaic.ValueIdx Cert.KernelIdeal Cert.KernelIdeal.Gen

/-! ## Layout: the joined neighbour rows, flattened -/

/-- Row `p * 32 + d` of the flattened `[4096, ·]` arrays: node `p` of the block, neighbour `d`. -/
def row (p : Fin 128) (d : Fin 32) : Fin 4096 := ⟨p.val * 32 + d.val, by omega⟩

/-- Two `[128, 32, 256]` blocks joined along the feature axis and flattened to `[4096, 512]`: row `p * 32 + d` at
    position `k` is position `k` of the two 256-wide rows `(p, d, ·)` laid side by side. -/
theorem joined_rows_apply (a b : FVec Ideal S128x32x256 .bf16) (p : Fin 128) (d : Fin 32) (k : Fin 512) :
    shapeCast S4096x512 (concatenate S128x32x512 2 [⟨S128x32x256, a⟩, ⟨S128x32x256, b⟩]
        concatenates_S128x32x256_S128x32x256_S128x32x512_d2) shapeCasts_S128x32x512_S4096x512 (ix2 (row p d) k)
      = Cert.Agg.cat (fun k => a (ix3 p d k)) (fun k => b (ix3 p d k)) k := by
  refine (shapeCast_apply _ _ (ix2 (row p d) k) (ix3 p d k) (by
    rw [Shape.rowMajor_val_three, Shape.rowMajor_val_two]
    show (p.val * 32 + d.val) * 512 + k.val = (p.val * 32 + d.val) * 512 + k.val
    rfl)).trans ?_
  unfold Cert.Agg.cat
  by_cases hk : k.val < 256
  · rw [dif_pos hk]
    exact concatenate_pair_apply_left 2 a b _ (ix3 p d k) rfl (ix3 p d ⟨k.val, hk⟩)
      (fun c => match c with | ⟨0, _⟩ => rfl | ⟨1, _⟩ => rfl | ⟨2, _⟩ => rfl)
  · rw [dif_neg hk]
    exact concatenate_pair_apply_right 2 a b _ (ix3 p d k) rfl rfl (ix3 p d ⟨k.val - 256, by omega⟩)
      (fun c hc => match c, hc with
        | ⟨0, _⟩, _ => rfl
        | ⟨1, _⟩, _ => rfl
        | ⟨2, _⟩, hc => absurd rfl hc)
      (by show (k.val - 256) + 256 = k.val; omega)

/-- Two `[128, 256]` blocks joined along the feature axis: row `p` at position `k` is position `k` of the two rows
    `p` laid side by side. -/
theorem joined_cols_apply (a b : FVec Ideal S128x256 .f32) (p : Fin 128) (k : Fin 512) :
    concatenate S128x512 1 [⟨S128x256, a⟩, ⟨S128x256, b⟩] concatenates_S128x256_S128x256_S128x512_d1 (ix2 p k)
      = Cert.Agg.cat (fun k => a (ix2 p k)) (fun k => b (ix2 p k)) k := by
  unfold Cert.Agg.cat
  by_cases hk : k.val < 256
  · rw [dif_pos hk]
    exact concatenate_pair_apply_left 1 a b _ (ix2 p k) rfl (ix2 p ⟨k.val, hk⟩)
      (fun c => match c with | ⟨0, _⟩ => rfl | ⟨1, _⟩ => rfl)
  · rw [dif_neg hk]
    exact concatenate_pair_apply_right 1 a b _ (ix2 p k) rfl rfl (ix2 p ⟨k.val - 256, by omega⟩)
      (fun c hc => match c, hc with
        | ⟨0, _⟩, _ => rfl
        | ⟨1, _⟩, hc => absurd rfl hc)
      (by show (k.val - 256) + 256 = k.val; omega)

/-- A `[4096, 256]` array regrouped as `[128, 32, 256]`: entry `(p, d, o)` is row `p * 32 + d` at `o`. -/
theorem regroup_apply (y : FVec Ideal S4096x256 .f32) (p : Fin 128) (d : Fin 32) (o : Fin 256) :
    shapeCast S128x32x256 y shapeCasts_S4096x256_S128x32x256 (ix3 p d o) = y (ix2 (row p d) o) :=
  shapeCast_apply _ _ (ix3 p d o) (ix2 (row p d) o) (by
    rw [Shape.rowMajor_val_two, Shape.rowMajor_val_three]
    show (p.val * 32 + d.val) * 256 + o.val = (p.val * 32 + d.val) * 256 + o.val
    rfl)

/-- A `[128]` vector read as a `[128, 1]` column: entry `(p, u)` is entry `p`. -/
theorem column_apply (y : FVec Ideal S128 .f32) (p : Fin 128) (u : Fin 1) :
    shapeCast S128x1 y shapeCasts_S128_S128x1 (ix2 p u) = y (ix1 p) :=
  shapeCast_apply _ _ (ix2 p u) (ix1 p) (by
    have hu : u.val = 0 := by omega
    rw [Shape.rowMajor_val_one, Shape.rowMajor_val_two]
    show p.val = p.val * 1 + u.val
    omega)

/-- A `[128, 1]` column spread over 256 lanes: entry `(p, j)` is the column's entry `(p, 0)`. -/
theorem spread_column_apply (y : FVec Ideal S128x1 .f32) (p : Fin 128) (j : Fin 256) :
    broadcastTo S128x256 y broadcasts_S128x1_S128x256 (ix2 p j) = y (ix2 p (0 : Fin 1)) :=
  broadcastTo_apply y _ (ix2 p j) (ix2 p (0 : Fin 1)) (fun c => match c with
    | ⟨0, _⟩ => by show p.val = if (128 : Nat) = 1 then 0 else p.val; rw [if_neg (by decide)]
    | ⟨1, _⟩ => rfl)

/-! ## The two products -/

theorem lhs1_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs1_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhs1_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs1_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- The `[4096, 512] × [512, 256]` product into the zero accumulator, read at `(r, o)`: the sum over the 512 contraction positions of the
    left operand's row `r` times the right operand's column `o`. -/
theorem matmul1_apply (lhs : FVec Ideal S4096x512 .bf16) (rhs : FVec Ideal S512x256 .bf16) (r : Fin 4096) (o : Fin 256) :
    matmul dot_S4096x512_S512x256_S4096x256_1_0_0_1_n_n none lhs rhs (constant (F := Ideal) S4096x256 .f32 0x00000000#32) (ix2 r o)
      = ∑ k : Fin 512, lhs (ix2 r k) * rhs (ix2 k o) := by
  simp only [matmul]
  rw [Ideal.matmul_constant_zero_apply, ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 r o) ((contrEquiv1 dot_S4096x512_S512x256_S4096x256_1_0_0_1_n_n 512 rfl rfl).symm k) = ix2 r k := funext fun a => Fin.ext (by
    match a with
    | ⟨0, _⟩ => exact lhs1_0 _ _
    | ⟨1, _⟩ => exact (lhs1_1 _ _).trans hk)
  have er : dot_S4096x512_S512x256_S4096x256_1_0_0_1_n_n.rhsIdx (ix2 r o) ((contrEquiv1 dot_S4096x512_S512x256_S4096x256_1_0_0_1_n_n 512 rfl rfl).symm k) = ix2 k o := funext fun a => Fin.ext (by
    match a with
    | ⟨0, _⟩ => exact (rhs1_0 _ _).trans hk
    | ⟨1, _⟩ => exact rhs1_1 _ _)
  rw [el, er]

theorem lhs2_0 (i : S128x256.Idx) (q : dot_S128x512_S512x256_S128x256_1_0_0_1_n_n.contr.Idx) :
    (dot_S128x512_S512x256_S128x256_1_0_0_1_n_n.lhsIdx i q 0).val = (i 0).val := by
  unfold DotDims.lhsIdx
  rw [dif_neg (show ¬(0 : Fin S128x512.rank) ∈ dot_S128x512_S512x256_S128x256_1_0_0_1_n_n.lhsBatch by decide), dif_pos (show (0 : Fin S128x512.rank) ∈ dot_S128x512_S512x256_S128x256_1_0_0_1_n_n.lhsNonContracting by decide)]
  rfl
theorem lhs2_1 (i : S128x256.Idx) (q : dot_S128x512_S512x256_S128x256_1_0_0_1_n_n.contr.Idx) :
    (dot_S128x512_S512x256_S128x256_1_0_0_1_n_n.lhsIdx i q 1).val = (q ⟨0, by decide⟩).val :=
  dot_S128x512_S512x256_S128x256_1_0_0_1_n_n.lhsIdx_val_of_single rfl i q
theorem rhs2_0 (i : S128x256.Idx) (q : dot_S128x512_S512x256_S128x256_1_0_0_1_n_n.contr.Idx) :
    (dot_S128x512_S512x256_S128x256_1_0_0_1_n_n.rhsIdx i q 0).val = (q ⟨0, by decide⟩).val :=
  dot_S128x512_S512x256_S128x256_1_0_0_1_n_n.rhsIdx_val_of_single rfl i q
theorem rhs2_1 (i : S128x256.Idx) (q : dot_S128x512_S512x256_S128x256_1_0_0_1_n_n.contr.Idx) :
    (dot_S128x512_S512x256_S128x256_1_0_0_1_n_n.rhsIdx i q 1).val = (i 1).val := by
  unfold DotDims.rhsIdx
  rw [dif_neg (show ¬(1 : Fin S512x256.rank) ∈ dot_S128x512_S512x256_S128x256_1_0_0_1_n_n.rhsBatch by decide), dif_pos (show (1 : Fin S512x256.rank) ∈ dot_S128x512_S512x256_S128x256_1_0_0_1_n_n.rhsNonContracting by decide)]
  rfl

/-- The `[128, 512] × [512, 256]` product into the zero accumulator, read at `(r, o)`: the sum over the 512 contraction positions of the
    left operand's row `r` times the right operand's column `o`. -/
theorem matmul2_apply (lhs : FVec Ideal S128x512 .bf16) (rhs : FVec Ideal S512x256 .bf16) (r : Fin 128) (o : Fin 256) :
    matmul dot_S128x512_S512x256_S128x256_1_0_0_1_n_n none lhs rhs (constant (F := Ideal) S128x256 .f32 0x00000000#32) (ix2 r o)
      = ∑ k : Fin 512, lhs (ix2 r k) * rhs (ix2 k o) := by
  simp only [matmul]
  rw [Ideal.matmul_constant_zero_apply, ← Equiv.sum_comp (contrEquiv1 dot_S128x512_S512x256_S128x256_1_0_0_1_n_n 512 rfl rfl).symm]
  refine Finset.sum_congr rfl fun k _ => ?_
  have hk := contrEquiv1_symm_val dot_S128x512_S512x256_S128x256_1_0_0_1_n_n 512 rfl rfl k
  have el : dot_S128x512_S512x256_S128x256_1_0_0_1_n_n.lhsIdx (ix2 r o) ((contrEquiv1 dot_S128x512_S512x256_S128x256_1_0_0_1_n_n 512 rfl rfl).symm k) = ix2 r k := funext fun a => Fin.ext (by
    match a with
    | ⟨0, _⟩ => exact lhs2_0 _ _
    | ⟨1, _⟩ => exact (lhs2_1 _ _).trans hk)
  have er : dot_S128x512_S512x256_S128x256_1_0_0_1_n_n.rhsIdx (ix2 r o) ((contrEquiv1 dot_S128x512_S512x256_S128x256_1_0_0_1_n_n 512 rfl rfl).symm k) = ix2 k o := funext fun a => Fin.ext (by
    match a with
    | ⟨0, _⟩ => exact (rhs2_0 _ _).trans hk
    | ⟨1, _⟩ => exact rhs2_1 _ _)
  rw [el, er]

/-! ## The two sums over an axis -/

/-- The sum over the neighbour axis of a `[128, 32, 256]` array, read at `(p, o)`. -/
theorem sum_neighbours_apply (src : FVec Ideal S128x32x256 .f32) (hφ : FKind.Formats .f32)
    (hacc : (0x00000000#32 : BitVec 32) = FKind.add.neutral .f32 hφ) (p : Fin 128) (o : Fin 256) :
    multiReduction .add [1] S128x256 src 0x00000000#32 reduces_S128x32x256_S128x256 hφ hacc (ix2 p o)
      = ∑ d : Fin 32, src (ix3 p d o) := by
  refine (Ideal.multiReduction_add_single src _ reduces_S128x32x256_S128x256 hφ hacc (ix2 p o)).trans ?_
  refine Finset.sum_congr rfl fun d _ => congrArg src (funext fun c => Fin.ext ?_)
  match c with
  | ⟨0, _⟩ => rfl
  | ⟨1, _⟩ => rfl
  | ⟨2, _⟩ => rfl

/-- The sum over the feature axis of a `[128, 256]` array, read at `p`. -/
theorem sum_features_apply (src : FVec Ideal S128x256 .f32) (hφ : FKind.Formats .f32)
    (hacc : (0x00000000#32 : BitVec 32) = FKind.add.neutral .f32 hφ) (p : Fin 128) :
    multiReduction .add [1] S128 src 0x00000000#32 reduces_S128x256_S128 hφ hacc (ix1 p)
      = ∑ j : Fin 256, src (ix2 p j) := by
  refine (Ideal.multiReduction_add_single src _ reduces_S128x256_S128 hφ hacc (ix1 p)).trans ?_
  refine Finset.sum_congr rfl fun j _ => congrArg src (funext fun c => Fin.ext ?_)
  match c with
  | ⟨0, _⟩ => rfl
  | ⟨1, _⟩ => rfl

/-! ## The body in four stages -/

/-- The first linear layer on the 4096 joined neighbour rows, bias added: a `[4096, 256]` array. -/
def layer1 (x0 x1 : FVec Ideal S128x32x256 .bf16) (x3 : FVec Ideal S512x256 .bf16) (x4 : FVec Ideal S1x256 .f32) :
    FVec Ideal S4096x256 .f32 :=
  addf
    (matmul dot_S4096x512_S512x256_S4096x256_1_0_0_1_n_n none
      (shapeCast S4096x512 (concatenate S128x32x512 2 [⟨S128x32x256, x0⟩, ⟨S128x32x256, x1⟩]
        concatenates_S128x32x256_S128x32x256_S128x32x512_d2) shapeCasts_S128x32x512_S4096x512)
      x3 (constant (F := Ideal) S4096x256 .f32 0x00000000#32))
    (broadcastTo S4096x256 x4 broadcasts_S1x256_S4096x256)

/-- Its rows regrouped by node and summed over the 32 neighbours: a `[128, 256]` array. -/
def neighbourSum (x0 x1 : FVec Ideal S128x32x256 .bf16) (x3 : FVec Ideal S512x256 .bf16) (x4 : FVec Ideal S1x256 .f32) :
    FVec Ideal S128x256 .f32 :=
  multiReduction .add [1] S128x256 (shapeCast S128x32x256 (layer1 x0 x1 x3 x4) shapeCasts_S4096x256_S128x32x256)
    0x00000000#32 reduces_S128x32x256_S128x256 (.inl rfl) rfl

/-- The second linear layer on each node's own row joined with its neighbour sum, bias added. -/
def layer2 (x0 x1 : FVec Ideal S128x32x256 .bf16) (x2 : FVec Ideal S128x256 .bf16) (x3 : FVec Ideal S512x256 .bf16)
    (x4 : FVec Ideal S1x256 .f32) (x5 : FVec Ideal S512x256 .bf16) (x6 : FVec Ideal S1x256 .f32) : FVec Ideal S128x256 .f32 :=
  addf
    (matmul dot_S128x512_S512x256_S128x256_1_0_0_1_n_n none
      (truncf .bf16 (concatenate S128x512 1 [⟨S128x256, extf .f32 x2 bitsLt_bf16_f32⟩, ⟨S128x256, neighbourSum x0 x1 x3 x4⟩]
        concatenates_S128x256_S128x256_S128x512_d1) bitsLt_bf16_f32)
      x5 (constant (F := Ideal) S128x256 .f32 0x00000000#32))
    (broadcastTo S128x256 x6 broadcasts_S1x256_S128x256)

/-- Each row divided by the larger of its Euclidean norm and the constant. -/
def normalise (V : FVec Ideal S128x256 .f32) : FVec Ideal S128x256 .f32 :=
  divf V
    (broadcastTo S128x256
      (maximumf
        (sqrt (shapeCast S128x1 (multiReduction .add [1] S128 (mulf V V) 0x00000000#32 reduces_S128x256_S128 (.inl rfl) rfl)
          shapeCasts_S128_S128x1))
        (broadcast S128x1 (Scalar.ofBits (F := Ideal) .f32 0x2B8CBCCC#32)))
      broadcasts_S128x1_S128x256)

/-- The generated payload is these four stages composed (its same-shape casts are identities). -/
theorem pay1_eq_stages (v0 v2 : Vec Ideal S128x32x256 .bf16) (v6 : Vec Ideal S512x256 .bf16) (v9 : Vec Ideal S1x256 .f32)
    (v15 : Vec Ideal S128x256 .bf16) (v20 : Vec Ideal S512x256 .bf16) (v23 : Vec Ideal S1x256 .f32) :
    k0_pay1 (F := Ideal) v0 v2 v6 v9 v15 v20 v23 = normalise (layer2 v0 v2 v15 v6 v9 v20 v23) := by
  unfold k0_pay1 normalise layer2 neighbourSum layer1
  simp only [shapeCast_self]
  rw [shapeCast_self v0, shapeCast_self v2, shapeCast_self v6, shapeCast_self v9, shapeCast_self v15]

/-- Row `p * 32 + d` of the first layer at feature `o` is neighbour `d`'s contribution to node `p`. -/
theorem layer1_apply (x0 x1 : FVec Ideal S128x32x256 .bf16) (x3 : FVec Ideal S512x256 .bf16) (x4 : FVec Ideal S1x256 .f32)
    (p : Fin 128) (d : Fin 32) (o : Fin 256) :
    layer1 x0 x1 x3 x4 (ix2 (row p d) o)
      = Cert.Agg.emb (fun d k => x0 (ix3 p d k)) (fun d k => x1 (ix3 p d k)) (fun o k => x3 (ix2 k o))
          (fun o => x4 (ix2 (0 : Fin 1) o)) d o := by
  unfold layer1 Cert.Agg.emb
  rw [addf_apply, matmul1_apply, broadcastTo_1b_ab_apply]
  refine congrArg (· + x4 (ix2 (0 : Fin 1) o)) (Finset.sum_congr rfl fun k _ => ?_)
  rw [joined_rows_apply]

/-- The neighbour sum at `(p, o)`. -/
theorem neighbourSum_apply (x0 x1 : FVec Ideal S128x32x256 .bf16) (x3 : FVec Ideal S512x256 .bf16) (x4 : FVec Ideal S1x256 .f32)
    (p : Fin 128) (o : Fin 256) :
    neighbourSum x0 x1 x3 x4 (ix2 p o)
      = Cert.Agg.nsum (fun d k => x0 (ix3 p d k)) (fun d k => x1 (ix3 p d k)) (fun o k => x3 (ix2 k o))
          (fun o => x4 (ix2 (0 : Fin 1) o)) o := by
  unfold neighbourSum Cert.Agg.nsum
  refine (sum_neighbours_apply _ _ _ p o).trans (Finset.sum_congr rfl fun d _ => ?_)
  rw [regroup_apply, layer1_apply]

/-- The second layer at `(p, j)`. -/
theorem layer2_apply (x0 x1 : FVec Ideal S128x32x256 .bf16) (x2 : FVec Ideal S128x256 .bf16) (x3 : FVec Ideal S512x256 .bf16)
    (x4 : FVec Ideal S1x256 .f32) (x5 : FVec Ideal S512x256 .bf16) (x6 : FVec Ideal S1x256 .f32) (p : Fin 128) (j : Fin 256) :
    layer2 x0 x1 x2 x3 x4 x5 x6 (ix2 p j)
      = Cert.Agg.lin2 (fun k => x2 (ix2 p k)) (fun d k => x0 (ix3 p d k)) (fun d k => x1 (ix3 p d k))
          (fun o k => x3 (ix2 k o)) (fun o => x4 (ix2 (0 : Fin 1) o)) (fun o k => x5 (ix2 k o))
          (fun o => x6 (ix2 (0 : Fin 1) o)) j := by
  unfold layer2 Cert.Agg.lin2
  rw [addf_apply, matmul2_apply, broadcastTo_1b_ab_apply]
  refine congrArg (· + x6 (ix2 (0 : Fin 1) j)) (Finset.sum_congr rfl fun k _ => ?_)
  rw [truncf_apply, joined_cols_apply]
  refine congrArg (fun f => Cert.Agg.cat (fun k => x2 (ix2 p k)) f k * x5 (ix2 k j)) (funext fun o => ?_)
  exact neighbourSum_apply x0 x1 x3 x4 p o

/-- A normalised array at `(p, j)`. -/
theorem normalise_apply (V : FVec Ideal S128x256 .f32) (p : Fin 128) (j : Fin 256) :
    normalise V (ix2 p j)
      = Ideal.div (V (ix2 p j))
          (max (Ideal.sqrt (∑ j' : Fin 256, V (ix2 p j') * V (ix2 p j'))) (Ideal.ofBits .f32 0x2B8CBCCC#32)) := by
  unfold normalise
  rw [divf_apply, spread_column_apply, maximumf_apply]
  show Ideal.div _ (max (Ideal.sqrt (shapeCast S128x1 _ shapeCasts_S128_S128x1 (ix2 p (0 : Fin 1)))) _) = _
  rw [column_apply]
  exact congrArg (fun t => Ideal.div (V (ix2 p j)) (max (Ideal.sqrt t) (Ideal.ofBits .f32 0x2B8CBCCC#32)))
    (sum_features_apply (mulf V V) _ _ p)

/-! ## The payload at an index -/

/-- The kernel body's result at `(p, j)`: node `p`'s output row at `j`. -/
theorem pay1_apply (v0 v2 : Vec Ideal S128x32x256 .bf16) (v6 : Vec Ideal S512x256 .bf16) (v9 : Vec Ideal S1x256 .f32)
    (v15 : Vec Ideal S128x256 .bf16) (v20 : Vec Ideal S512x256 .bf16) (v23 : Vec Ideal S1x256 .f32) (p : Fin 128) (j : Fin 256) :
    k0_pay1 (F := Ideal) v0 v2 v6 v9 v15 v20 v23 (ix2 p j)
      = Cert.Agg.rowOut (fun k => v15 (ix2 p k)) (fun d k => v0 (ix3 p d k)) (fun d k => v2 (ix3 p d k))
          (fun o k => v6 (ix2 k o)) (fun o => v9 (ix2 (0 : Fin 1) o)) (fun o k => v20 (ix2 k o))
          (fun o => v23 (ix2 (0 : Fin 1) o)) j := by
  rw [pay1_eq_stages, normalise_apply]
  unfold Cert.Agg.rowOut
  have h : ∀ j' : Fin 256, layer2 v0 v2 v15 v6 v9 v20 v23 (ix2 p j')
      = Cert.Agg.lin2 (fun k => v15 (ix2 p k)) (fun d k => v0 (ix3 p d k)) (fun d k => v2 (ix3 p d k))
          (fun o k => v6 (ix2 k o)) (fun o => v9 (ix2 (0 : Fin 1) o)) (fun o k => v20 (ix2 k o))
          (fun o => v23 (ix2 (0 : Fin 1) o)) j' := fun j' => layer2_apply v0 v2 v15 v6 v9 v20 v23 p j'
  rw [h j, Finset.sum_congr rfl fun j' _ => by rw [h j']]

/-! ## The output window's buffer after the body -/

theorem zeros2 : (![0, 0] : Fin 2 → Nat) = fun _ => 0 := funext fun a => by fin_cases a <;> rfl
theorem zeros3 : (![0, 0, 0] : Fin 3 → Nat) = fun _ => 0 := funext fun a => by fin_cases a <;> rfl

theorem out1_eq : @out1_7 Ideal _ = @out0_7 Ideal _ := rfl
theorem out2_eq : @out2_7 Ideal _ = @out0_7 Ideal _ := rfl

theorem out0_apply (x0 x1 : Vec Ideal S128x32x256 .bf16) (x2 : Vec Ideal S128x256 .bf16) (x3 : Vec Ideal S512x256 .bf16)
    (x4 : Vec Ideal S1x256 .f32) (x5 : Vec Ideal S512x256 .bf16) (x6 : Vec Ideal S1x256 .f32) (p : Fin 128) (j : Fin 256) :
    out0_7 (F := Ideal) x0 x1 x2 x3 x4 x5 x6 (ix2 p j)
      = Cert.Agg.rowOut (fun k => x2 (ix2 p k)) (fun d k => x0 (ix3 p d k)) (fun d k => x1 (ix3 p d k))
          (fun o k => x3 (ix2 k o)) (fun o => x4 (ix2 (0 : Fin 1) o)) (fun o k => x5 (ix2 k o)) (fun o => x6 (ix2 (0 : Fin 1) o)) j := by
  unfold out0_7
  rw [View.canon_unit_zero zeros2]
  simp only [View.ld_unit_zero (S := S128x32x256) zeros3, View.ld_unit_zero (S := S512x256) zeros2,
    View.ld_unit_zero (S := S1x256) zeros2, View.ld_unit_zero (S := S128x256) zeros2]
  exact pay1_apply x0 x1 x3 x4 x2 x5 x6 p j

end Cert.KernelIdeal.Pay
end
-- ==== Proof.KernelVal0.lean ====
/-
  The first result of the kernel's program as a function of the argument arrays.

  The first call is entered after the first stretch of host operations, which leave: the nodes' rows and the neighbours'
  rows of the two feature tables, gathered through the wrapped words of the first node vector; the two weight matrices
  transposed; the two biases as rows. Nothing after the call writes its output, so the result buffer ends at the array the
  call's 64 points leave, which row by row is the node's output row.
-/
import proofs.«128609_j49039936585979_1_alg».proof.Proof.Gen.KernelIdeal.Frame
import proofs.«128609_j49039936585979_1_alg».proof.Proof.KernelArr0
import proofs.«128609_j49039936585979_1_alg».proof.Proof.HostGlue
import proofs.«128609_j49039936585979_1_alg».proof.Proof.Payload
import Idealize.ShloMosaic.Lib.StableHlo.Run

set_option maxRecDepth 16384

noncomputable section

namespace Cert.KernelIdeal.Val0

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## The arrays the call is entered with, read at an index -/

set_option maxHeartbeats 4000000 in
theorem nf_apply (c : Dev nD) (i : Fin 8192) (k : Fin 256) :
    V1 m ρ c main_v14 (ix2 i k)
      = m ((c : Thread nD τ).loc main_arg0) (ix2 (Cert.Agg.rowIx (m ((c : Thread nD τ).loc main_arg7) (ix1 i))) k) := by
  show StableHlo.after hostOps0 (W0 m ρ c) (Proc.devRef .tc main_v14) (ix2 i k) = _
  after_results_simp
  exact Cert.Agg.Glue.rows_wrap_apply _ rfl rfl rfl rfl rfl rfl rfl _ _ _ _ i k

set_option maxHeartbeats 4000000 in
theorem fnb_apply (c : Dev nD) (i : Fin 8192) (d : Fin 32) (k : Fin 256) :
    V1 m ρ c main_v28 (ix3 i d k)
      = m ((c : Thread nD τ).loc main_arg0) (ix2 (Cert.Agg.rowIx (m ((c : Thread nD τ).loc main_arg6)
          (ix2 (Cert.Agg.rowIx (m ((c : Thread nD τ).loc main_arg7) (ix1 i))) d))) k) := by
  show StableHlo.after hostOps0 (W0 m ρ c) (Proc.devRef .tc main_v28) (ix3 i d k) = _
  after_results_simp
  exact Cert.Agg.Glue.nbrows_apply _ rfl rfl rfl rfl rfl rfl rfl _ rfl rfl rfl rfl rfl rfl rfl _ _ _ _ _ _ _ i d k

set_option maxHeartbeats 4000000 in
theorem fsnb_apply (c : Dev nD) (i : Fin 8192) (d : Fin 32) (k : Fin 256) :
    V1 m ρ c main_v35 (ix3 i d k)
      = m ((c : Thread nD τ).loc main_arg1) (ix2 (Cert.Agg.rowIx (m ((c : Thread nD τ).loc main_arg6)
          (ix2 (Cert.Agg.rowIx (m ((c : Thread nD τ).loc main_arg7) (ix1 i))) d))) k) := by
  show StableHlo.after hostOps0 (W0 m ρ c) (Proc.devRef .tc main_v35) (ix3 i d k) = _
  after_results_simp
  exact Cert.Agg.Glue.nbrows_apply _ rfl rfl rfl rfl rfl rfl rfl _ rfl rfl rfl rfl rfl rfl rfl _ _ _ _ _ _ _ i d k

theorem w1_apply (c : Dev nD) (k : Fin 512) (o : Fin 256) :
    V1 m ρ c main_v3 (ix2 k o) = m ((c : Thread nD τ).loc main_arg2) (ix2 o k) := by
  show StableHlo.after hostOps0 (W0 m ρ c) (Proc.devRef .tc main_v3) (ix2 k o) = _
  after_results_simp
  exact Cert.Agg.Glue.transposed_apply _ _ k o

theorem w2_apply (c : Dev nD) (k : Fin 512) (o : Fin 256) :
    V1 m ρ c main_v5 (ix2 k o) = m ((c : Thread nD τ).loc main_arg4) (ix2 o k) := by
  show StableHlo.after hostOps0 (W0 m ρ c) (Proc.devRef .tc main_v5) (ix2 k o) = _
  after_results_simp
  exact Cert.Agg.Glue.transposed_apply _ _ k o

theorem b1_apply (c : Dev nD) (o : Fin 256) :
    V1 m ρ c main_v6 (ix2 (0 : Fin 1) o) = m ((c : Thread nD τ).loc main_arg3) (ix1 o) := by
  show StableHlo.after hostOps0 (W0 m ρ c) (Proc.devRef .tc main_v6) (ix2 (0 : Fin 1) o) = _
  after_results_simp
  exact Cert.Agg.Glue.row_apply _ _ o

theorem b2_apply (c : Dev nD) (o : Fin 256) :
    V1 m ρ c main_v7 (ix2 (0 : Fin 1) o) = m ((c : Thread nD τ).loc main_arg5) (ix1 o) := by
  show StableHlo.after hostOps0 (W0 m ρ c) (Proc.devRef .tc main_v7) (ix2 (0 : Fin 1) o) = _
  after_results_simp
  exact Cert.Agg.Glue.row_apply _ _ o

/-! ## The result buffer at the end of the program is the array the call leaves -/

theorem W7_out (c : Dev nD) : W7 m ρ c (Proc.devRef .tc main_v36) = (dat0 (V1 m ρ) c).arrAt 7 cfg0.N :=
  calc W7 m ρ c (Proc.devRef .tc main_v36)
    _ = W6 m ρ c (Proc.devRef .tc main_v36) := by
          show StableHlo.after hostOps3 (W6 m ρ c) (Proc.devRef .tc main_v36) = _
          after_results_simp
    _ = W5 m ρ c (Proc.devRef .tc main_v36) := W6_of_ne m ρ c main_v36 (by decide)
    _ = W4 m ρ c (Proc.devRef .tc main_v36) := by
          show StableHlo.after hostOps2 (W4 m ρ c) (Proc.devRef .tc main_v36) = _
          after_results_simp
    _ = W3 m ρ c (Proc.devRef .tc main_v36) := W4_of_ne m ρ c main_v36 (by decide)
    _ = W2 m ρ c (Proc.devRef .tc main_v36) := by
          show StableHlo.after hostOps1 (W2 m ρ c) (Proc.devRef .tc main_v36) = _
          after_results_simp
    _ = (dat0 (V1 m ρ) c).arrAt 7 cfg0.N := W2_arr m ρ c 7

/-- THE FIRST RESULT: row `i` is the output row of node `arg7[i]`. -/
theorem out (c : Dev nD) :
    W7 m ρ c (Proc.devRef .tc main_v36)
      = Cert.Agg.outArr 8192 (m ((c : Thread nD τ).loc main_arg0)) (m ((c : Thread nD τ).loc main_arg1))
          (m ((c : Thread nD τ).loc main_arg6)) (m ((c : Thread nD τ).loc main_arg2)) (m ((c : Thread nD τ).loc main_arg3))
          (m ((c : Thread nD τ).loc main_arg4)) (m ((c : Thread nD τ).loc main_arg5)) (m ((c : Thread nD τ).loc main_arg7)) := by
  rw [W7_out, Cert.KernelIdeal.Arr0.arr (V1 m ρ) Cert.KernelIdeal.Pay.out0_apply c]
  exact Cert.Agg.Glue.gathArr_eq_outArr 8192 _ _ _ _ _ _ _ _ _ _ _ _ _ _ _
    (nf_apply m ρ c) (fnb_apply m ρ c) (fsnb_apply m ρ c) (w1_apply m ρ c) (b1_apply m ρ c) (w2_apply m ρ c) (b2_apply m ρ c)

end Cert.KernelIdeal.Val0

end
-- ==== Proof.KernelArr1.lean ====
/-
  The second call's output array after its 64 grid points, as one function of the arrays the call is entered with.
  Point `t` reads rows `128·t … 128·t + 127` of the three gathered arrays and the whole of the four weight and bias
  arrays, and writes back rows `128·t … 128·t + 127` of the output; the 64 blocks tile the 8192 rows, so the array ends
  holding, row by row, the body's result of that row's gathered values.
-/
import proofs.«128609_j49039936585979_1_alg».proof.Proof.Gen.KernelIdeal.Frame
import proofs.«128609_j49039936585979_1_alg».proof.Proof.SpecArr
import Idealize.ShloMosaic.Lib.Pipeline.Value
import Idealize.ShloMosaic.Lib.ValueIdx

set_option maxRecDepth 16384

noncomputable section

namespace Cert.KernelIdeal.Arr1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps over the grid: the three gathered windows and the output move with the point on their row
    axis; the weight and bias windows stay at the origin. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Every block of rows is some point's. -/
theorem idx_onto : ∀ q0 : Fin 64, ∃ t : Fin cfg1.N, win1_7.index t = ![q0.val, 0] :=
  (by decide +kernel : ∀ q0 : Fin 64, ∃ t : Fin grid1.N, win1_7.index t = ![q0.val, 0])

theorem t_lt (t : Fin cfg1.N) : t.val < 64 := t.isLt

/-! ## Each input window's block at a point, read where the output's rows say -/

theorem read0 (c : Dev nD) (t : Fin cfg1.N) (p : Fin 128) (d : Fin 32) (k : Fin 256) :
    iblk1 V c 0 t (ix3 p d k) = V c main_v57 (ix3 (⟨t.val * 128 + p.val, by have := t_lt t; omega⟩ : Fin 8192) d k) := by
  obtain ⟨e0, e1, e2, -⟩ := idx_facts t
  have h : ((cfg1.win 0).blk t).view.emb (ix3 p d k) = ix3 (⟨t.val * 128 + p.val, by have := t_lt t; omega⟩ : Fin 8192) d k := by
    funext a; apply Fin.ext
    match a with
    | ⟨0, _⟩ => show win1_0.index t (0 : Fin 3) * 128 + 1 * p.val = t.val * 128 + p.val; omega
    | ⟨1, _⟩ => show win1_0.index t (1 : Fin 3) * 32 + 1 * d.val = d.val; omega
    | ⟨2, _⟩ => show win1_0.index t (2 : Fin 3) * 256 + 1 * k.val = k.val; omega
  show V c main_v57 (((cfg1.win 0).blk t).view.emb (ix3 p d k)) = _
  rw [h]

theorem read1 (c : Dev nD) (t : Fin cfg1.N) (p : Fin 128) (d : Fin 32) (k : Fin 256) :
    iblk1 V c 1 t (ix3 p d k) = V c main_v64 (ix3 (⟨t.val * 128 + p.val, by have := t_lt t; omega⟩ : Fin 8192) d k) := by
  obtain ⟨-, -, -, e0, e1, e2, -⟩ := idx_facts t
  have h : ((cfg1.win 1).blk t).view.emb (ix3 p d k) = ix3 (⟨t.val * 128 + p.val, by have := t_lt t; omega⟩ : Fin 8192) d k := by
    funext a; apply Fin.ext
    match a with
    | ⟨0, _⟩ => show win1_1.index t (0 : Fin 3) * 128 + 1 * p.val = t.val * 128 + p.val; omega
    | ⟨1, _⟩ => show win1_1.index t (1 : Fin 3) * 32 + 1 * d.val = d.val; omega
    | ⟨2, _⟩ => show win1_1.index t (2 : Fin 3) * 256 + 1 * k.val = k.val; omega
  show V c main_v64 (((cfg1.win 1).blk t).view.emb (ix3 p d k)) = _
  rw [h]

theorem read2 (c : Dev nD) (t : Fin cfg1.N) (p : Fin 128) (k : Fin 256) :
    iblk1 V c 2 t (ix2 p k) = V c main_v43 (ix2 (⟨t.val * 128 + p.val, by have := t_lt t; omega⟩ : Fin 8192) k) := by
  obtain ⟨-, -, -, -, -, -, e0, e1, -⟩ := idx_facts t
  have h : ((cfg1.win 2).blk t).view.emb (ix2 p k) = ix2 (⟨t.val * 128 + p.val, by have := t_lt t; omega⟩ : Fin 8192) k := by
    funext a; apply Fin.ext
    match a with
    | ⟨0, _⟩ => show win1_2.index t (0 : Fin 2) * 128 + 1 * p.val = t.val * 128 + p.val; omega
    | ⟨1, _⟩ => show win1_2.index t (1 : Fin 2) * 256 + 1 * k.val = k.val; omega
  show V c main_v43 (((cfg1.win 2).blk t).view.emb (ix2 p k)) = _
  rw [h]

theorem read3 (c : Dev nD) (t : Fin cfg1.N) (k : Fin 512) (o : Fin 256) :
    iblk1 V c 3 t (ix2 k o) = V c main_v3 (ix2 k o) := by
  obtain ⟨-, -, -, -, -, -, -, -, e0, e1, -⟩ := idx_facts t
  have h : ((cfg1.win 3).blk t).view.emb (ix2 k o) = ix2 k o := by
    funext a; apply Fin.ext
    match a with
    | ⟨0, _⟩ => show win1_3.index t (0 : Fin 2) * 512 + 1 * k.val = k.val; omega
    | ⟨1, _⟩ => show win1_3.index t (1 : Fin 2) * 256 + 1 * o.val = o.val; omega
  show V c main_v3 (((cfg1.win 3).blk t).view.emb (ix2 k o)) = _
  rw [h]

theorem read4 (c : Dev nD) (t : Fin cfg1.N) (o : Fin 256) :
    iblk1 V c 4 t (ix2 (0 : Fin 1) o) = V c main_v6 (ix2 (0 : Fin 1) o) := by
  obtain ⟨-, -, -, -, -, -, -, -, -, -, e0, e1, -⟩ := idx_facts t
  have h : ((cfg1.win 4).blk t).view.emb (ix2 (0 : Fin 1) o) = ix2 (0 : Fin 1) o := by
    funext a; apply Fin.ext
    match a with
    | ⟨0, _⟩ => show win1_4.index t (0 : Fin 2) * 1 + 1 * 0 = 0; omega
    | ⟨1, _⟩ => show win1_4.index t (1 : Fin 2) * 256 + 1 * o.val = o.val; omega
  show V c main_v6 (((cfg1.win 4).blk t).view.emb (ix2 (0 : Fin 1) o)) = _
  rw [h]

theorem read5 (c : Dev nD) (t : Fin cfg1.N) (k : Fin 512) (o : Fin 256) :
    iblk1 V c 5 t (ix2 k o) = V c main_v5 (ix2 k o) := by
  obtain ⟨-, -, -, -, -, -, -, -, -, -, -, -, e0, e1, -⟩ := idx_facts t
  have h : ((cfg1.win 5).blk t).view.emb (ix2 k o) = ix2 k o := by
    funext a; apply Fin.ext
    match a with
    | ⟨0, _⟩ => show win1_5.index t (0 : Fin 2) * 512 + 1 * k.val = k.val; omega
    | ⟨1, _⟩ => show win1_5.index t (1 : Fin 2) * 256 + 1 * o.val = o.val; omega
  show V c main_v5 (((cfg1.win 5).blk t).view.emb (ix2 k o)) = _
  rw [h]

theorem read6 (c : Dev nD) (t : Fin cfg1.N) (o : Fin 256) :
    iblk1 V c 6 t (ix2 (0 : Fin 1) o) = V c main_v7 (ix2 (0 : Fin 1) o) := by
  obtain ⟨-, -, -, -, -, -, -, -, -, -, -, -, -, -, e0, e1, -⟩ := idx_facts t
  have h : ((cfg1.win 6).blk t).view.emb (ix2 (0 : Fin 1) o) = ix2 (0 : Fin 1) o := by
    funext a; apply Fin.ext
    match a with
    | ⟨0, _⟩ => show win1_6.index t (0 : Fin 2) * 1 + 1 * 0 = 0; omega
    | ⟨1, _⟩ => show win1_6.index t (1 : Fin 2) * 256 + 1 * o.val = o.val; omega
  show V c main_v7 (((cfg1.win 6).blk t).view.emb (ix2 (0 : Fin 1) o)) = _
  rw [h]

/-- The output block's index in the array. -/
theorem emb7 (t : Fin cfg1.N) (p : Fin 128) (q : Fin 256) :
    ((cfg1.win 7).blk t).view.emb (ix2 p q) = ix2 (⟨t.val * 128 + p.val, by have := t_lt t; omega⟩ : Fin 8192) q := by
  obtain ⟨-, -, -, -, -, -, -, -, -, -, -, -, -, -, -, -, e0, e1⟩ := idx_facts t
  funext a; apply Fin.ext
  match a with
  | ⟨0, _⟩ => show win1_7.index t (0 : Fin 2) * 128 + 1 * p.val = t.val * 128 + p.val; omega
  | ⟨1, _⟩ => show win1_7.index t (1 : Fin 2) * 256 + 1 * q.val = q.val; omega

/-- The array the call leaves, from the arrays it is entered with. -/
abbrev G (c : Dev nD) : S8192x256.Idx → EReal :=
  Cert.Agg.gathArr 8192 (V c main_v43) (V c main_v57) (V c main_v64) (V c main_v3) (V c main_v6) (V c main_v5) (V c main_v7)

/-- WHAT POINT `t` WRITES BACK is block `t` of `G`, given the body's result read at an index (`hpay`). -/
theorem flushed_eq
    (hpay : ∀ (x0 x1 : Vec Ideal S128x32x256 .bf16) (x2 : Vec Ideal S128x256 .bf16) (x3 : Vec Ideal S512x256 .bf16)
      (x4 : Vec Ideal S1x256 .f32) (x5 : Vec Ideal S512x256 .bf16) (x6 : Vec Ideal S1x256 .f32) (p : Fin 128) (j : Fin 256),
      out1_7 (F := Ideal) x0 x1 x2 x3 x4 x5 x6 (ix2 p j)
        = Cert.Agg.rowOut (fun k => x2 (ix2 p k)) (fun d k => x0 (ix3 p d k)) (fun d k => x1 (ix3 p d k))
            (fun o k => x3 (ix2 k o)) (fun o => x4 (ix2 (0 : Fin 1) o)) (fun o k => x5 (ix2 k o)) (fun o => x6 (ix2 (0 : Fin 1) o)) j)
    (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  funext y
  obtain ⟨p, q, rfl⟩ : ∃ (p : Fin 128) (q : Fin 256), y = ix2 p q := ⟨y 0, y 1, eq_ix2 y⟩
  show out1_7 (iblk1 V c 0 t) (iblk1 V c 1 t) (iblk1 V c 2 t) (iblk1 V c 3 t) (iblk1 V c 4 t) (iblk1 V c 5 t) (iblk1 V c 6 t) (ix2 p q)
    = G V c (((cfg1.win 7).blk t).view.emb (ix2 p q))
  rw [emb7 t p q]
  refine (hpay (iblk1 V c 0 t) (iblk1 V c 1 t) (iblk1 V c 2 t) (iblk1 V c 3 t) (iblk1 V c 4 t) (iblk1 V c 5 t) (iblk1 V c 6 t) p q).trans ?_
  show _ = Cert.Agg.gathArr 8192 (V c main_v43) (V c main_v57) (V c main_v64) (V c main_v3) (V c main_v6) (V c main_v5) (V c main_v7)
    (ix2 (⟨t.val * 128 + p.val, by have := t_lt t; omega⟩ : Fin 8192) q)
  rw [Cert.Agg.gathArr_ix2]
  simp only [read0 V c t, read1 V c t, read2 V c t, read3 V c t, read4 V c t, read5 V c t, read6 V c t]

/-- An index of the array is in point `t`'s block iff each coordinate is in the block's range on its axis. -/
theorem mem_blk (t : Fin cfg1.N) (i : S8192x256.Idx) :
    i ∈ ((cfg1.win 7).blk t).view.set ↔ ∀ a : Fin 2, win1_7.index t a * S128x256.size a ≤ (i a).val ∧ (i a).val < win1_7.index t a * S128x256.size a + S128x256.size a := by
  show i ∈ ((View.whole main_v65).slice (win1_7.rect t)).set ↔ _
  rw [View.set_slice_whole, Rect.mem_set_unit]
  exact Iff.rfl

/-- Every index of the array is in some point's block: row `r` is in block `r / 128`. -/
theorem cover (i : S8192x256.Idx) :
    ∃ t : Fin cfg1.N, (cfg1.win 7).flush t = true ∧ i ∈ ((cfg1.win 7).blk t).view.set := by
  have hi0 : (i 0).val < 8192 := (i 0).isLt
  have hi1 : (i 1).val < 256 := (i 1).isLt
  obtain ⟨t, ht⟩ := idx_onto ⟨(i 0).val / 128, by omega⟩
  have q0 : win1_7.index t (0 : Fin 2) = (i 0).val / 128 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 128 ≤ (i 0).val ∧ (i 0).val < win1_7.index t (0 : Fin 2) * 128 + 128; omega
  | ⟨1, _⟩ => show win1_7.index t (1 : Fin 2) * 256 ≤ (i 1).val ∧ (i 1).val < win1_7.index t (1 : Fin 2) * 256 + 256; omega

/-- THE ARRAY after the call's 64 points. -/
theorem arr
    (hpay : ∀ (x0 x1 : Vec Ideal S128x32x256 .bf16) (x2 : Vec Ideal S128x256 .bf16) (x3 : Vec Ideal S512x256 .bf16)
      (x4 : Vec Ideal S1x256 .f32) (x5 : Vec Ideal S512x256 .bf16) (x6 : Vec Ideal S1x256 .f32) (p : Fin 128) (j : Fin 256),
      out1_7 (F := Ideal) x0 x1 x2 x3 x4 x5 x6 (ix2 p j)
        = Cert.Agg.rowOut (fun k => x2 (ix2 p k)) (fun d k => x0 (ix3 p d k)) (fun d k => x1 (ix3 p d k))
            (fun o k => x3 (ix2 k o)) (fun o => x4 (ix2 (0 : Fin 1) o)) (fun o k => x5 (ix2 k o)) (fun o => x6 (ix2 (0 : Fin 1) o)) j)
    (c : Dev nD) : (dat1 V c).arrAt 7 cfg1.N = G V c :=
  (dat1 V c).arrAt_eq_of_cover 7 (G V c) (fun t _ => flushed_eq V hpay c t) cover

end Cert.KernelIdeal.Arr1

end
-- ==== Proof.KernelVal1.lean ====
/-
  The second result of the kernel's program as a function of the argument arrays.

  The second call is entered after the second stretch of host operations, which gather through the wrapped words of the
  second node vector from what the first stretch left: the two feature tables, still there because the first call writes
  only its own output, and the neighbour table and the node vector themselves, arguments nothing writes. The weights and
  biases are the first stretch's. Nothing after the call writes its output.
-/
import proofs.«128609_j49039936585979_1_alg».proof.Proof.Gen.KernelIdeal.Frame
import proofs.«128609_j49039936585979_1_alg».proof.Proof.KernelArr1
import proofs.«128609_j49039936585979_1_alg».proof.Proof.HostGlue
import proofs.«128609_j49039936585979_1_alg».proof.Proof.Payload
import proofs.«128609_j49039936585979_1_alg».proof.Proof.KernelVal0
import Idealize.ShloMosaic.Lib.StableHlo.Run
import Idealize.ShloMosaic.Lib.Pipeline.Value

set_option maxRecDepth 16384

noncomputable section

namespace Cert.KernelIdeal.Val1

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## What the first stretch left, and the arguments, as the second stretch finds them -/

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp <;> rfl

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp <;> rfl

theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp <;> rfl

theorem W2_v0_apply (c : Dev nD) (y : S100000x256.Idx) :
    W2 m ρ c (Proc.devRef .tc main_v0) y = m ((c : Thread nD τ).loc main_arg0) y := by
  rw [W2_of_ne m ρ c main_v0 (by decide)]
  show StableHlo.after hostOps0 (W0 m ρ c) (Proc.devRef .tc main_v0) y = _
  after_results_simp <;> rfl

theorem W2_v1_apply (c : Dev nD) (y : S100000x256.Idx) :
    W2 m ρ c (Proc.devRef .tc main_v1) y = m ((c : Thread nD τ).loc main_arg1) y := by
  rw [W2_of_ne m ρ c main_v1 (by decide)]
  show StableHlo.after hostOps0 (W0 m ρ c) (Proc.devRef .tc main_v1) y = _
  after_results_simp <;> rfl

/-- A weight or bias array is one of the earlier call's input windows: the call leaves an input's array as it found it. -/
theorem W2_v3 (c : Dev nD) : W2 m ρ c (Proc.devRef .tc main_v3) = V1 m ρ c main_v3 :=
  (W2_arr m ρ c 3).trans (((dat0 (V1 m ρ) c).arrAt_in 3 rfl cfg0.N).trans (A_eq0 (V1 m ρ) c 3))
theorem W2_v6 (c : Dev nD) : W2 m ρ c (Proc.devRef .tc main_v6) = V1 m ρ c main_v6 :=
  (W2_arr m ρ c 4).trans (((dat0 (V1 m ρ) c).arrAt_in 4 rfl cfg0.N).trans (A_eq0 (V1 m ρ) c 4))
theorem W2_v5 (c : Dev nD) : W2 m ρ c (Proc.devRef .tc main_v5) = V1 m ρ c main_v5 :=
  (W2_arr m ρ c 5).trans (((dat0 (V1 m ρ) c).arrAt_in 5 rfl cfg0.N).trans (A_eq0 (V1 m ρ) c 5))
theorem W2_v7 (c : Dev nD) : W2 m ρ c (Proc.devRef .tc main_v7) = V1 m ρ c main_v7 :=
  (W2_arr m ρ c 6).trans (((dat0 (V1 m ρ) c).arrAt_in 6 rfl cfg0.N).trans (A_eq0 (V1 m ρ) c 6))

/-! ## The arrays the call is entered with, read at an index -/

set_option maxHeartbeats 4000000 in
theorem nf_apply (c : Dev nD) (i : Fin 8192) (k : Fin 256) :
    V3 m ρ c main_v43 (ix2 i k)
      = m ((c : Thread nD τ).loc main_arg0) (ix2 (Cert.Agg.rowIx (m ((c : Thread nD τ).loc main_arg8) (ix1 i))) k) := by
  show StableHlo.after hostOps1 (W2 m ρ c) (Proc.devRef .tc main_v43) (ix2 i k) = _
  after_results_simp
  refine (Cert.Agg.Glue.rows_wrap_apply _ rfl rfl rfl rfl rfl rfl rfl _ _ _ _ i k).trans ?_
  rw [W2_arg8 m ρ c]
  exact W2_v0_apply m ρ c _

set_option maxHeartbeats 4000000 in
theorem fnb_apply (c : Dev nD) (i : Fin 8192) (d : Fin 32) (k : Fin 256) :
    V3 m ρ c main_v57 (ix3 i d k)
      = m ((c : Thread nD τ).loc main_arg0) (ix2 (Cert.Agg.rowIx (m ((c : Thread nD τ).loc main_arg6)
          (ix2 (Cert.Agg.rowIx (m ((c : Thread nD τ).loc main_arg8) (ix1 i))) d))) k) := by
  show StableHlo.after hostOps1 (W2 m ρ c) (Proc.devRef .tc main_v57) (ix3 i d k) = _
  after_results_simp
  refine (Cert.Agg.Glue.nbrows_apply _ rfl rfl rfl rfl rfl rfl rfl _ rfl rfl rfl rfl rfl rfl rfl _ _ _ _ _ _ _ i d k).trans ?_
  rw [W2_arg8 m ρ c, W2_arg6 m ρ c]
  exact W2_v0_apply m ρ c _

set_option maxHeartbeats 4000000 in
theorem fsnb_apply (c : Dev nD) (i : Fin 8192) (d : Fin 32) (k : Fin 256) :
    V3 m ρ c main_v64 (ix3 i d k)
      = m ((c : Thread nD τ).loc main_arg1) (ix2 (Cert.Agg.rowIx (m ((c : Thread nD τ).loc main_arg6)
          (ix2 (Cert.Agg.rowIx (m ((c : Thread nD τ).loc main_arg8) (ix1 i))) d))) k) := by
  show StableHlo.after hostOps1 (W2 m ρ c) (Proc.devRef .tc main_v64) (ix3 i d k) = _
  after_results_simp
  refine (Cert.Agg.Glue.nbrows_apply _ rfl rfl rfl rfl rfl rfl rfl _ rfl rfl rfl rfl rfl rfl rfl _ _ _ _ _ _ _ i d k).trans ?_
  rw [W2_arg8 m ρ c, W2_arg6 m ρ c]
  exact W2_v1_apply m ρ c _

theorem w1_apply (c : Dev nD) (k : Fin 512) (o : Fin 256) :
    V3 m ρ c main_v3 (ix2 k o) = m ((c : Thread nD τ).loc main_arg2) (ix2 o k) := by
  show StableHlo.after hostOps1 (W2 m ρ c) (Proc.devRef .tc main_v3) (ix2 k o) = _
  after_results_simp
  rw [W2_v3 m ρ c]
  exact Cert.KernelIdeal.Val0.w1_apply m ρ c k o

theorem w2_apply (c : Dev nD) (k : Fin 512) (o : Fin 256) :
    V3 m ρ c main_v5 (ix2 k o) = m ((c : Thread nD τ).loc main_arg4) (ix2 o k) := by
  show StableHlo.after hostOps1 (W2 m ρ c) (Proc.devRef .tc main_v5) (ix2 k o) = _
  after_results_simp
  rw [W2_v5 m ρ c]
  exact Cert.KernelIdeal.Val0.w2_apply m ρ c k o

theorem b1_apply (c : Dev nD) (o : Fin 256) :
    V3 m ρ c main_v6 (ix2 (0 : Fin 1) o) = m ((c : Thread nD τ).loc main_arg3) (ix1 o) := by
  show StableHlo.after hostOps1 (W2 m ρ c) (Proc.devRef .tc main_v6) (ix2 (0 : Fin 1) o) = _
  after_results_simp
  rw [W2_v6 m ρ c]
  exact Cert.KernelIdeal.Val0.b1_apply m ρ c o

theorem b2_apply (c : Dev nD) (o : Fin 256) :
    V3 m ρ c main_v7 (ix2 (0 : Fin 1) o) = m ((c : Thread nD τ).loc main_arg5) (ix1 o) := by
  show StableHlo.after hostOps1 (W2 m ρ c) (Proc.devRef .tc main_v7) (ix2 (0 : Fin 1) o) = _
  after_results_simp
  rw [W2_v7 m ρ c]
  exact Cert.KernelIdeal.Val0.b2_apply m ρ c o

/-! ## The result buffer at the end of the program is the array the call leaves -/

theorem W7_out (c : Dev nD) : W7 m ρ c (Proc.devRef .tc main_v65) = (dat1 (V3 m ρ) c).arrAt 7 cfg1.N :=
  calc W7 m ρ c (Proc.devRef .tc main_v65)
    _ = W6 m ρ c (Proc.devRef .tc main_v65) := by
          show StableHlo.after hostOps3 (W6 m ρ c) (Proc.devRef .tc main_v65) = _
          after_results_simp
    _ = W5 m ρ c (Proc.devRef .tc main_v65) := W6_of_ne m ρ c main_v65 (by decide)
    _ = W4 m ρ c (Proc.devRef .tc main_v65) := by
          show StableHlo.after hostOps2 (W4 m ρ c) (Proc.devRef .tc main_v65) = _
          after_results_simp
    _ = (dat1 (V3 m ρ) c).arrAt 7 cfg1.N := W4_arr m ρ c 7

/-- THE SECOND RESULT: row `i` is the output row of node `arg8[i]`. -/
theorem out (c : Dev nD) :
    W7 m ρ c (Proc.devRef .tc main_v65)
      = Cert.Agg.outArr 8192 (m ((c : Thread nD τ).loc main_arg0)) (m ((c : Thread nD τ).loc main_arg1))
          (m ((c : Thread nD τ).loc main_arg6)) (m ((c : Thread nD τ).loc main_arg2)) (m ((c : Thread nD τ).loc main_arg3))
          (m ((c : Thread nD τ).loc main_arg4)) (m ((c : Thread nD τ).loc main_arg5)) (m ((c : Thread nD τ).loc main_arg8)) := by
  rw [W7_out, Cert.KernelIdeal.Arr1.arr (V3 m ρ)
    (fun x0 x1 x2 x3 x4 x5 x6 p j => by rw [Cert.KernelIdeal.Pay.out1_eq]; exact Cert.KernelIdeal.Pay.out0_apply x0 x1 x2 x3 x4 x5 x6 p j) c]
  exact Cert.Agg.Glue.gathArr_eq_outArr 8192 _ _ _ _ _ _ _ _ _ _ _ _ _ _ _
    (nf_apply m ρ c) (fnb_apply m ρ c) (fsnb_apply m ρ c) (w1_apply m ρ c) (b1_apply m ρ c) (w2_apply m ρ c) (b2_apply m ρ c)

end Cert.KernelIdeal.Val1

end
-- ==== Proof.KernelArr2.lean ====
/-
  The third call's output array after its one grid point, as one function of the arrays the call is entered with.
  Point `t` reads rows `128·t … 128·t + 127` of the three gathered arrays and the whole of the four weight and bias
  arrays, and writes back rows `128·t … 128·t + 127` of the output; the one block is the 128 rows, so the array ends
  holding, row by row, the body's result of that row's gathered values.
-/
import proofs.«128609_j49039936585979_1_alg».proof.Proof.Gen.KernelIdeal.Frame
import proofs.«128609_j49039936585979_1_alg».proof.Proof.SpecArr
import Idealize.ShloMosaic.Lib.Pipeline.Value
import Idealize.ShloMosaic.Lib.ValueIdx

set_option maxRecDepth 16384

noncomputable section

namespace Cert.KernelIdeal.Arr2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps over the grid: the three gathered windows and the output move with the point on their row
    axis; the weight and bias windows stay at the origin. -/
theorem idx_facts : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Every block of rows is some point's. -/
theorem idx_onto : ∀ q0 : Fin 1, ∃ t : Fin cfg2.N, win2_7.index t = ![q0.val, 0] :=
  (by decide +kernel : ∀ q0 : Fin 1, ∃ t : Fin grid2.N, win2_7.index t = ![q0.val, 0])

theorem t_lt (t : Fin cfg2.N) : t.val < 1 := t.isLt

/-! ## Each input window's block at a point, read where the output's rows say -/

theorem read0 (c : Dev nD) (t : Fin cfg2.N) (p : Fin 128) (d : Fin 32) (k : Fin 256) :
    iblk2 V c 0 t (ix3 p d k) = V c main_v88 (ix3 (⟨t.val * 128 + p.val, by have := t_lt t; omega⟩ : Fin 128) d k) := by
  obtain ⟨e0, e1, e2, -⟩ := idx_facts t
  have h : ((cfg2.win 0).blk t).view.emb (ix3 p d k) = ix3 (⟨t.val * 128 + p.val, by have := t_lt t; omega⟩ : Fin 128) d k := by
    funext a; apply Fin.ext
    match a with
    | ⟨0, _⟩ => show win2_0.index t (0 : Fin 3) * 128 + 1 * p.val = t.val * 128 + p.val; omega
    | ⟨1, _⟩ => show win2_0.index t (1 : Fin 3) * 32 + 1 * d.val = d.val; omega
    | ⟨2, _⟩ => show win2_0.index t (2 : Fin 3) * 256 + 1 * k.val = k.val; omega
  show V c main_v88 (((cfg2.win 0).blk t).view.emb (ix3 p d k)) = _
  rw [h]

theorem read1 (c : Dev nD) (t : Fin cfg2.N) (p : Fin 128) (d : Fin 32) (k : Fin 256) :
    iblk2 V c 1 t (ix3 p d k) = V c main_v95 (ix3 (⟨t.val * 128 + p.val, by have := t_lt t; omega⟩ : Fin 128) d k) := by
  obtain ⟨-, -, -, e0, e1, e2, -⟩ := idx_facts t
  have h : ((cfg2.win 1).blk t).view.emb (ix3 p d k) = ix3 (⟨t.val * 128 + p.val, by have := t_lt t; omega⟩ : Fin 128) d k := by
    funext a; apply Fin.ext
    match a with
    | ⟨0, _⟩ => show win2_1.index t (0 : Fin 3) * 128 + 1 * p.val = t.val * 128 + p.val; omega
    | ⟨1, _⟩ => show win2_1.index t (1 : Fin 3) * 32 + 1 * d.val = d.val; omega
    | ⟨2, _⟩ => show win2_1.index t (2 : Fin 3) * 256 + 1 * k.val = k.val; omega
  show V c main_v95 (((cfg2.win 1).blk t).view.emb (ix3 p d k)) = _
  rw [h]

theorem read2 (c : Dev nD) (t : Fin cfg2.N) (p : Fin 128) (k : Fin 256) :
    iblk2 V c 2 t (ix2 p k) = V c main_v74 (ix2 (⟨t.val * 128 + p.val, by have := t_lt t; omega⟩ : Fin 128) k) := by
  obtain ⟨-, -, -, -, -, -, e0, e1, -⟩ := idx_facts t
  have h : ((cfg2.win 2).blk t).view.emb (ix2 p k) = ix2 (⟨t.val * 128 + p.val, by have := t_lt t; omega⟩ : Fin 128) k := by
    funext a; apply Fin.ext
    match a with
    | ⟨0, _⟩ => show win2_2.index t (0 : Fin 2) * 128 + 1 * p.val = t.val * 128 + p.val; omega
    | ⟨1, _⟩ => show win2_2.index t (1 : Fin 2) * 256 + 1 * k.val = k.val; omega
  show V c main_v74 (((cfg2.win 2).blk t).view.emb (ix2 p k)) = _
  rw [h]

theorem read3 (c : Dev nD) (t : Fin cfg2.N) (k : Fin 512) (o : Fin 256) :
    iblk2 V c 3 t (ix2 k o) = V c main_v3 (ix2 k o) := by
  obtain ⟨-, -, -, -, -, -, -, -, e0, e1, -⟩ := idx_facts t
  have h : ((cfg2.win 3).blk t).view.emb (ix2 k o) = ix2 k o := by
    funext a; apply Fin.ext
    match a with
    | ⟨0, _⟩ => show win2_3.index t (0 : Fin 2) * 512 + 1 * k.val = k.val; omega
    | ⟨1, _⟩ => show win2_3.index t (1 : Fin 2) * 256 + 1 * o.val = o.val; omega
  show V c main_v3 (((cfg2.win 3).blk t).view.emb (ix2 k o)) = _
  rw [h]

theorem read4 (c : Dev nD) (t : Fin cfg2.N) (o : Fin 256) :
    iblk2 V c 4 t (ix2 (0 : Fin 1) o) = V c main_v6 (ix2 (0 : Fin 1) o) := by
  obtain ⟨-, -, -, -, -, -, -, -, -, -, e0, e1, -⟩ := idx_facts t
  have h : ((cfg2.win 4).blk t).view.emb (ix2 (0 : Fin 1) o) = ix2 (0 : Fin 1) o := by
    funext a; apply Fin.ext
    match a with
    | ⟨0, _⟩ => show win2_4.index t (0 : Fin 2) * 1 + 1 * 0 = 0; omega
    | ⟨1, _⟩ => show win2_4.index t (1 : Fin 2) * 256 + 1 * o.val = o.val; omega
  show V c main_v6 (((cfg2.win 4).blk t).view.emb (ix2 (0 : Fin 1) o)) = _
  rw [h]

theorem read5 (c : Dev nD) (t : Fin cfg2.N) (k : Fin 512) (o : Fin 256) :
    iblk2 V c 5 t (ix2 k o) = V c main_v5 (ix2 k o) := by
  obtain ⟨-, -, -, -, -, -, -, -, -, -, -, -, e0, e1, -⟩ := idx_facts t
  have h : ((cfg2.win 5).blk t).view.emb (ix2 k o) = ix2 k o := by
    funext a; apply Fin.ext
    match a with
    | ⟨0, _⟩ => show win2_5.index t (0 : Fin 2) * 512 + 1 * k.val = k.val; omega
    | ⟨1, _⟩ => show win2_5.index t (1 : Fin 2) * 256 + 1 * o.val = o.val; omega
  show V c main_v5 (((cfg2.win 5).blk t).view.emb (ix2 k o)) = _
  rw [h]

theorem read6 (c : Dev nD) (t : Fin cfg2.N) (o : Fin 256) :
    iblk2 V c 6 t (ix2 (0 : Fin 1) o) = V c main_v7 (ix2 (0 : Fin 1) o) := by
  obtain ⟨-, -, -, -, -, -, -, -, -, -, -, -, -, -, e0, e1, -⟩ := idx_facts t
  have h : ((cfg2.win 6).blk t).view.emb (ix2 (0 : Fin 1) o) = ix2 (0 : Fin 1) o := by
    funext a; apply Fin.ext
    match a with
    | ⟨0, _⟩ => show win2_6.index t (0 : Fin 2) * 1 + 1 * 0 = 0; omega
    | ⟨1, _⟩ => show win2_6.index t (1 : Fin 2) * 256 + 1 * o.val = o.val; omega
  show V c main_v7 (((cfg2.win 6).blk t).view.emb (ix2 (0 : Fin 1) o)) = _
  rw [h]

/-- The output block's index in the array. -/
theorem emb7 (t : Fin cfg2.N) (p : Fin 128) (q : Fin 256) :
    ((cfg2.win 7).blk t).view.emb (ix2 p q) = ix2 (⟨t.val * 128 + p.val, by have := t_lt t; omega⟩ : Fin 128) q := by
  obtain ⟨-, -, -, -, -, -, -, -, -, -, -, -, -, -, -, -, e0, e1⟩ := idx_facts t
  funext a; apply Fin.ext
  match a with
  | ⟨0, _⟩ => show win2_7.index t (0 : Fin 2) * 128 + 1 * p.val = t.val * 128 + p.val; omega
  | ⟨1, _⟩ => show win2_7.index t (1 : Fin 2) * 256 + 1 * q.val = q.val; omega

/-- The array the call leaves, from the arrays it is entered with. -/
abbrev G (c : Dev nD) : S128x256.Idx → EReal :=
  Cert.Agg.gathArr 128 (V c main_v74) (V c main_v88) (V c main_v95) (V c main_v3) (V c main_v6) (V c main_v5) (V c main_v7)

/-- WHAT POINT `t` WRITES BACK is block `t` of `G`, given the body's result read at an index (`hpay`). -/
theorem flushed_eq
    (hpay : ∀ (x0 x1 : Vec Ideal S128x32x256 .bf16) (x2 : Vec Ideal S128x256 .bf16) (x3 : Vec Ideal S512x256 .bf16)
      (x4 : Vec Ideal S1x256 .f32) (x5 : Vec Ideal S512x256 .bf16) (x6 : Vec Ideal S1x256 .f32) (p : Fin 128) (j : Fin 256),
      out2_7 (F := Ideal) x0 x1 x2 x3 x4 x5 x6 (ix2 p j)
        = Cert.Agg.rowOut (fun k => x2 (ix2 p k)) (fun d k => x0 (ix3 p d k)) (fun d k => x1 (ix3 p d k))
            (fun o k => x3 (ix2 k o)) (fun o => x4 (ix2 (0 : Fin 1) o)) (fun o k => x5 (ix2 k o)) (fun o => x6 (ix2 (0 : Fin 1) o)) j)
    (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  funext y
  obtain ⟨p, q, rfl⟩ : ∃ (p : Fin 128) (q : Fin 256), y = ix2 p q := ⟨y 0, y 1, eq_ix2 y⟩
  show out2_7 (iblk2 V c 0 t) (iblk2 V c 1 t) (iblk2 V c 2 t) (iblk2 V c 3 t) (iblk2 V c 4 t) (iblk2 V c 5 t) (iblk2 V c 6 t) (ix2 p q)
    = G V c (((cfg2.win 7).blk t).view.emb (ix2 p q))
  rw [emb7 t p q]
  refine (hpay (iblk2 V c 0 t) (iblk2 V c 1 t) (iblk2 V c 2 t) (iblk2 V c 3 t) (iblk2 V c 4 t) (iblk2 V c 5 t) (iblk2 V c 6 t) p q).trans ?_
  show _ = Cert.Agg.gathArr 128 (V c main_v74) (V c main_v88) (V c main_v95) (V c main_v3) (V c main_v6) (V c main_v5) (V c main_v7)
    (ix2 (⟨t.val * 128 + p.val, by have := t_lt t; omega⟩ : Fin 128) q)
  rw [Cert.Agg.gathArr_ix2]
  simp only [read0 V c t, read1 V c t, read2 V c t, read3 V c t, read4 V c t, read5 V c t, read6 V c t]

/-- An index of the array is in point `t`'s block iff each coordinate is in the block's range on its axis. -/
theorem mem_blk (t : Fin cfg2.N) (i : S128x256.Idx) :
    i ∈ ((cfg2.win 7).blk t).view.set ↔ ∀ a : Fin 2, win2_7.index t a * S128x256.size a ≤ (i a).val ∧ (i a).val < win2_7.index t a * S128x256.size a + S128x256.size a := by
  show i ∈ ((View.whole main_v96).slice (win2_7.rect t)).set ↔ _
  rw [View.set_slice_whole, Rect.mem_set_unit]
  exact Iff.rfl

/-- Every index of the array is in some point's block: row `r` is in block `r / 128`. -/
theorem cover (i : S128x256.Idx) :
    ∃ t : Fin cfg2.N, (cfg2.win 7).flush t = true ∧ i ∈ ((cfg2.win 7).blk t).view.set := by
  have hi0 : (i 0).val < 128 := (i 0).isLt
  have hi1 : (i 1).val < 256 := (i 1).isLt
  obtain ⟨t, ht⟩ := idx_onto ⟨(i 0).val / 128, by omega⟩
  have q0 : win2_7.index t (0 : Fin 2) = (i 0).val / 128 := congrFun ht 0
  have q1 : win2_7.index t (1 : Fin 2) = 0 := congrFun ht 1
  refine ⟨t, flush2_7 t, ?_⟩
  rw [mem_blk]
  intro a
  match a with
  | ⟨0, _⟩ => show win2_7.index t (0 : Fin 2) * 128 ≤ (i 0).val ∧ (i 0).val < win2_7.index t (0 : Fin 2) * 128 + 128; omega
  | ⟨1, _⟩ => show win2_7.index t (1 : Fin 2) * 256 ≤ (i 1).val ∧ (i 1).val < win2_7.index t (1 : Fin 2) * 256 + 256; omega

/-- THE ARRAY after the call's one point. -/
theorem arr
    (hpay : ∀ (x0 x1 : Vec Ideal S128x32x256 .bf16) (x2 : Vec Ideal S128x256 .bf16) (x3 : Vec Ideal S512x256 .bf16)
      (x4 : Vec Ideal S1x256 .f32) (x5 : Vec Ideal S512x256 .bf16) (x6 : Vec Ideal S1x256 .f32) (p : Fin 128) (j : Fin 256),
      out2_7 (F := Ideal) x0 x1 x2 x3 x4 x5 x6 (ix2 p j)
        = Cert.Agg.rowOut (fun k => x2 (ix2 p k)) (fun d k => x0 (ix3 p d k)) (fun d k => x1 (ix3 p d k))
            (fun o k => x3 (ix2 k o)) (fun o => x4 (ix2 (0 : Fin 1) o)) (fun o k => x5 (ix2 k o)) (fun o => x6 (ix2 (0 : Fin 1) o)) j)
    (c : Dev nD) : (dat2 V c).arrAt 7 cfg2.N = G V c :=
  (dat2 V c).arrAt_eq_of_cover 7 (G V c) (fun t _ => flushed_eq V hpay c t) cover

end Cert.KernelIdeal.Arr2

end
-- ==== Proof.KernelVal2.lean ====
/-
  The third result of the kernel's program as a function of the argument arrays.

  The third node vector has 10 words; the program pads it with 118 zero words to one block of 128, runs the call on
  the 128 padded nodes, and keeps rows 0 … 9 of its output. Row `i < 10` of the call's output is the output row of the
  padded vector's word `i`, which is the third node vector's word `i`: the padding rows are computed and dropped.
  The third stretch of host operations gathers from what the first stretch left — still there, because the two earlier
  calls write only their own outputs — and from arguments nothing writes.
-/
import proofs.«128609_j49039936585979_1_alg».proof.Proof.Gen.KernelIdeal.Frame
import proofs.«128609_j49039936585979_1_alg».proof.Proof.KernelArr2
import proofs.«128609_j49039936585979_1_alg».proof.Proof.KernelVal1
import proofs.«128609_j49039936585979_1_alg».proof.Proof.HostGlue
import proofs.«128609_j49039936585979_1_alg».proof.Proof.Payload
import proofs.«128609_j49039936585979_1_alg».proof.Proof.KernelVal0
import Idealize.ShloMosaic.Lib.StableHlo.Run
import Idealize.ShloMosaic.Lib.Pipeline.Value

set_option maxRecDepth 16384

noncomputable section

namespace Cert.KernelIdeal.Val2

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-! ## What the first stretch left, and the arguments, as the third stretch finds them -/

theorem W4_arg6 (c : Dev nD) : W4 m ρ c (Proc.devRef .tc main_arg6) = m ((c : Thread nD τ).loc main_arg6) := by
  rw [W4_of_ne m ρ c main_arg6 (by decide)]
  show StableHlo.after hostOps1 (W2 m ρ c) (Proc.devRef .tc main_arg6) = _
  after_results_simp
  exact Cert.KernelIdeal.Val1.W2_arg6 m ρ c

theorem W4_arg9 (c : Dev nD) : W4 m ρ c (Proc.devRef .tc main_arg9) = m ((c : Thread nD τ).loc main_arg9) := by
  rw [W4_of_ne m ρ c main_arg9 (by decide)]
  show StableHlo.after hostOps1 (W2 m ρ c) (Proc.devRef .tc main_arg9) = _
  after_results_simp
  exact Cert.KernelIdeal.Val1.W2_arg9 m ρ c

theorem W4_v0_apply (c : Dev nD) (y : S100000x256.Idx) :
    W4 m ρ c (Proc.devRef .tc main_v0) y = m ((c : Thread nD τ).loc main_arg0) y := by
  rw [W4_of_ne m ρ c main_v0 (by decide)]
  show StableHlo.after hostOps1 (W2 m ρ c) (Proc.devRef .tc main_v0) y = _
  after_results_simp
  exact Cert.KernelIdeal.Val1.W2_v0_apply m ρ c y

theorem W4_v1_apply (c : Dev nD) (y : S100000x256.Idx) :
    W4 m ρ c (Proc.devRef .tc main_v1) y = m ((c : Thread nD τ).loc main_arg1) y := by
  rw [W4_of_ne m ρ c main_v1 (by decide)]
  show StableHlo.after hostOps1 (W2 m ρ c) (Proc.devRef .tc main_v1) y = _
  after_results_simp
  exact Cert.KernelIdeal.Val1.W2_v1_apply m ρ c y

/-- The third node vector padded with zero words to 128. -/
abbrev padded (c : Dev nD) : IVec S128 32 :=
  concatenate S128 0 [⟨S10, m ((c : Thread nD τ).loc main_arg9)⟩, ⟨S118, broadcastInDim S118 ![] bcast_S_S118 (constantI S_ 32 0#32)⟩]
    concatenates_S10_S118_S128_d0

/-- Below position 10 the padded vector is the node vector. -/
theorem padded_apply (c : Dev nD) (i : Fin 10) :
    padded m c (ix1 (⟨i.val, by omega⟩ : Fin 128)) = m ((c : Thread nD τ).loc main_arg9) (ix1 i) := by
  refine concatenate_pair_apply_left (t := S128) (s₁ := S10) (s₂ := S118) (0 : Fin 1) _ _ concatenates_S10_S118_S128_d0 _ rfl (ix1 i)
    fun b => ?_
  obtain rfl : b = 0 := Subsingleton.elim _ _
  rfl

/-- A weight or bias array is one of the earlier call's input windows: the call leaves an input's array as it found it. -/
theorem W4_v3 (c : Dev nD) : W4 m ρ c (Proc.devRef .tc main_v3) = V3 m ρ c main_v3 :=
  (W4_arr m ρ c 3).trans (((dat1 (V3 m ρ) c).arrAt_in 3 rfl cfg1.N).trans (A_eq1 (V3 m ρ) c 3))
theorem W4_v6 (c : Dev nD) : W4 m ρ c (Proc.devRef .tc main_v6) = V3 m ρ c main_v6 :=
  (W4_arr m ρ c 4).trans (((dat1 (V3 m ρ) c).arrAt_in 4 rfl cfg1.N).trans (A_eq1 (V3 m ρ) c 4))
theorem W4_v5 (c : Dev nD) : W4 m ρ c (Proc.devRef .tc main_v5) = V3 m ρ c main_v5 :=
  (W4_arr m ρ c 5).trans (((dat1 (V3 m ρ) c).arrAt_in 5 rfl cfg1.N).trans (A_eq1 (V3 m ρ) c 5))
theorem W4_v7 (c : Dev nD) : W4 m ρ c (Proc.devRef .tc main_v7) = V3 m ρ c main_v7 :=
  (W4_arr m ρ c 6).trans (((dat1 (V3 m ρ) c).arrAt_in 6 rfl cfg1.N).trans (A_eq1 (V3 m ρ) c 6))

/-! ## The arrays the call is entered with, read at an index -/

set_option maxHeartbeats 4000000 in
theorem nf_apply (c : Dev nD) (i : Fin 128) (k : Fin 256) :
    V5 m ρ c main_v74 (ix2 i k)
      = m ((c : Thread nD τ).loc main_arg0) (ix2 (Cert.Agg.rowIx (padded m c (ix1 i))) k) := by
  show StableHlo.after hostOps2 (W4 m ρ c) (Proc.devRef .tc main_v74) (ix2 i k) = _
  after_results_simp
  refine (Cert.Agg.Glue.rows_wrap_apply _ rfl rfl rfl rfl rfl rfl rfl _ _ _ _ i k).trans ?_
  -- the padded vector's two pieces: what the third stretch's own first operations leave for them
  repeat (first
    | rw [StableHlo.unary_result] | rw [StableHlo.nullary_result]
    | (rw [StableHlo.unary_result_ne]; rotate_left; decide)
    | (rw [StableHlo.nullary_result_ne]; rotate_left; decide))
  rw [W4_arg9 m ρ c]
  exact W4_v0_apply m ρ c _

set_option maxHeartbeats 4000000 in
theorem fnb_apply (c : Dev nD) (i : Fin 128) (d : Fin 32) (k : Fin 256) :
    V5 m ρ c main_v88 (ix3 i d k)
      = m ((c : Thread nD τ).loc main_arg0) (ix2 (Cert.Agg.rowIx (m ((c : Thread nD τ).loc main_arg6)
          (ix2 (Cert.Agg.rowIx (padded m c (ix1 i))) d))) k) := by
  show StableHlo.after hostOps2 (W4 m ρ c) (Proc.devRef .tc main_v88) (ix3 i d k) = _
  after_results_simp
  refine (Cert.Agg.Glue.nbrows_apply _ rfl rfl rfl rfl rfl rfl rfl _ rfl rfl rfl rfl rfl rfl rfl _ _ _ _ _ _ _ i d k).trans ?_
  -- the padded vector's two pieces: what the third stretch's own first operations leave for them
  repeat (first
    | rw [StableHlo.unary_result] | rw [StableHlo.nullary_result]
    | (rw [StableHlo.unary_result_ne]; rotate_left; decide)
    | (rw [StableHlo.nullary_result_ne]; rotate_left; decide))
  rw [W4_arg9 m ρ c, W4_arg6 m ρ c]
  exact W4_v0_apply m ρ c _

set_option maxHeartbeats 4000000 in
theorem fsnb_apply (c : Dev nD) (i : Fin 128) (d : Fin 32) (k : Fin 256) :
    V5 m ρ c main_v95 (ix3 i d k)
      = m ((c : Thread nD τ).loc main_arg1) (ix2 (Cert.Agg.rowIx (m ((c : Thread nD τ).loc main_arg6)
          (ix2 (Cert.Agg.rowIx (padded m c (ix1 i))) d))) k) := by
  show StableHlo.after hostOps2 (W4 m ρ c) (Proc.devRef .tc main_v95) (ix3 i d k) = _
  after_results_simp
  refine (Cert.Agg.Glue.nbrows_apply _ rfl rfl rfl rfl rfl rfl rfl _ rfl rfl rfl rfl rfl rfl rfl _ _ _ _ _ _ _ i d k).trans ?_
  -- the padded vector's two pieces: what the third stretch's own first operations leave for them
  repeat (first
    | rw [StableHlo.unary_result] | rw [StableHlo.nullary_result]
    | (rw [StableHlo.unary_result_ne]; rotate_left; decide)
    | (rw [StableHlo.nullary_result_ne]; rotate_left; decide))
  rw [W4_arg9 m ρ c, W4_arg6 m ρ c]
  exact W4_v1_apply m ρ c _

theorem w1_apply (c : Dev nD) (k : Fin 512) (o : Fin 256) :
    V5 m ρ c main_v3 (ix2 k o) = m ((c : Thread nD τ).loc main_arg2) (ix2 o k) := by
  show StableHlo.after hostOps2 (W4 m ρ c) (Proc.devRef .tc main_v3) (ix2 k o) = _
  after_results_simp
  rw [W4_v3 m ρ c]
  exact Cert.KernelIdeal.Val1.w1_apply m ρ c k o

theorem w2_apply (c : Dev nD) (k : Fin 512) (o : Fin 256) :
    V5 m ρ c main_v5 (ix2 k o) = m ((c : Thread nD τ).loc main_arg4) (ix2 o k) := by
  show StableHlo.after hostOps2 (W4 m ρ c) (Proc.devRef .tc main_v5) (ix2 k o) = _
  after_results_simp
  rw [W4_v5 m ρ c]
  exact Cert.KernelIdeal.Val1.w2_apply m ρ c k o

theorem b1_apply (c : Dev nD) (o : Fin 256) :
    V5 m ρ c main_v6 (ix2 (0 : Fin 1) o) = m ((c : Thread nD τ).loc main_arg3) (ix1 o) := by
  show StableHlo.after hostOps2 (W4 m ρ c) (Proc.devRef .tc main_v6) (ix2 (0 : Fin 1) o) = _
  after_results_simp
  rw [W4_v6 m ρ c]
  exact Cert.KernelIdeal.Val1.b1_apply m ρ c o

theorem b2_apply (c : Dev nD) (o : Fin 256) :
    V5 m ρ c main_v7 (ix2 (0 : Fin 1) o) = m ((c : Thread nD τ).loc main_arg5) (ix1 o) := by
  show StableHlo.after hostOps2 (W4 m ρ c) (Proc.devRef .tc main_v7) (ix2 (0 : Fin 1) o) = _
  after_results_simp
  rw [W4_v7 m ρ c]
  exact Cert.KernelIdeal.Val1.b2_apply m ρ c o

/-- THE ARRAY THE CALL LEAVES: row `i` is the output row of the padded vector's word `i`. -/
theorem arr_eq (c : Dev nD) :
    (dat2 (V5 m ρ) c).arrAt 7 cfg2.N
      = Cert.Agg.outArr 128 (m ((c : Thread nD τ).loc main_arg0)) (m ((c : Thread nD τ).loc main_arg1))
          (m ((c : Thread nD τ).loc main_arg6)) (m ((c : Thread nD τ).loc main_arg2)) (m ((c : Thread nD τ).loc main_arg3))
          (m ((c : Thread nD τ).loc main_arg4)) (m ((c : Thread nD τ).loc main_arg5)) (padded m c) := by
  rw [Cert.KernelIdeal.Arr2.arr (V5 m ρ)
    (fun x0 x1 x2 x3 x4 x5 x6 p j => by rw [Cert.KernelIdeal.Pay.out2_eq]; exact Cert.KernelIdeal.Pay.out0_apply x0 x1 x2 x3 x4 x5 x6 p j) c]
  exact Cert.Agg.Glue.gathArr_eq_outArr 128 _ _ _ _ _ _ _ _ _ _ _ _ _ _ _
    (nf_apply m ρ c) (fnb_apply m ρ c) (fsnb_apply m ρ c) (w1_apply m ρ c) (b1_apply m ρ c) (w2_apply m ρ c) (b2_apply m ρ c)

/-! ## The result buffer at the end of the program is rows 0 … 9 of that array -/

theorem W7_out_apply (c : Dev nD) (i : Fin 10) (j : Fin 256) :
    W7 m ρ c (Proc.devRef .tc main_v97) (ix2 i j)
      = (dat2 (V5 m ρ) c).arrAt 7 cfg2.N (ix2 (⟨i.val, by omega⟩ : Fin 128) j) := by
  show StableHlo.after hostOps3 (W6 m ρ c) (Proc.devRef .tc main_v97) (ix2 i j) = _
  after_results_simp
  refine (extractStridedSlice_apply _ _ _ (ix2 i j) (ix2 (⟨i.val, by omega⟩ : Fin 128) j) fun a => ?_).trans ?_
  · match a with
    | ⟨0, _⟩ => show i.val = 0 + i.val; omega
    | ⟨1, _⟩ => show j.val = 0 + j.val; omega
  · exact congrFun (W6_arr m ρ c 7) _

/-- THE THIRD RESULT: row `i` is the output row of node `arg9[i]`. -/
theorem out (c : Dev nD) :
    W7 m ρ c (Proc.devRef .tc main_v97)
      = Cert.Agg.outArr 10 (m ((c : Thread nD τ).loc main_arg0)) (m ((c : Thread nD τ).loc main_arg1))
          (m ((c : Thread nD τ).loc main_arg6)) (m ((c : Thread nD τ).loc main_arg2)) (m ((c : Thread nD τ).loc main_arg3))
          (m ((c : Thread nD τ).loc main_arg4)) (m ((c : Thread nD τ).loc main_arg5)) (m ((c : Thread nD τ).loc main_arg9)) := by
  funext y
  obtain ⟨i, j, rfl⟩ : ∃ (i : Fin 10) (j : Fin 256), y = ix2 i j := ⟨y 0, y 1, eq_ix2 y⟩
  rw [W7_out_apply m ρ c i j, arr_eq m ρ c, Cert.Agg.outArr_ix2, Cert.Agg.outArr_ix2, padded_apply m c i]

end Cert.KernelIdeal.Val2

end
-- ==== Proof.RefValueLib.lean ====
/-
  Two layout facts the node-aggregation reference leans on, for any number of rows.

  (1) Two pieces that are 256 wide, joined along their last axis into a piece 512 wide: position `k` of the joined row
  is position `k` of the first piece below 256 and position `k − 256` of the second from 256 on — the function `cat` of
  the specification, applied to the two rows.

  (2) A gather of whole rows of a table of 100000 rows whose start index is a wrapped word: the start index is read
  signed and clamped into the table, so the row read is the specification's `rowIx` of the word.
-/
import Idealize.ShloMosaic.Lib.Pipeline.Value
import Idealize.ShloMosaic.Lib.ValueIdx
import proofs.«128609_j49039936585979_1_alg».proof.Proof.Spec
import proofs.«128609_j49039936585979_1_alg».proof.Proof.LibGatherRows
import proofs.«128609_j49039936585979_1_alg».proof.Proof.LibGatherRows3

noncomputable section

namespace Cert.ReferenceIdeal.RefValueLib

open Idealize.ShloMosaic Idealize.ShloMosaic.ValueIdx

/-- Two `[B, D, 256]` arrays joined along the last axis, read at `(b, d, k)`. -/
theorem concat3_apply {B D : Nat}
    (h : Shape.Concatenates [(⟨3, ![B, D, 256]⟩ : Shape), ⟨3, ![B, D, 256]⟩] ⟨3, ![B, D, 512]⟩ 2)
    (x₁ x₂ : (⟨3, ![B, D, 256]⟩ : Shape).Idx → EReal) (b : Fin B) (d : Fin D) (k : Fin 512) :
    concatenate ⟨3, ![B, D, 512]⟩ 2 [⟨⟨3, ![B, D, 256]⟩, x₁⟩, ⟨⟨3, ![B, D, 256]⟩, x₂⟩] h (ix3 b d k)
      = Cert.Agg.cat (fun k' => x₁ (ix3 b d k')) (fun k' => x₂ (ix3 b d k')) k := by
  unfold Cert.Agg.cat
  split
  · next hk =>
    exact concatenate_pair_apply_left 2 x₁ x₂ h (ix3 b d k) rfl (ix3 b d ⟨k.val, hk⟩)
      (fun a => by match a with | ⟨0, _⟩ => rfl | ⟨1, _⟩ => rfl | ⟨2, _⟩ => rfl)
  · next hk =>
    exact concatenate_pair_apply_right 2 x₁ x₂ h (ix3 b d k) rfl rfl (ix3 b d ⟨k.val - 256, by omega⟩)
      (fun a ha => by
        match a, ha with
        | ⟨0, _⟩, _ => rfl
        | ⟨1, _⟩, _ => rfl
        | ⟨2, _⟩, ha => exact absurd rfl ha)
      (by show k.val - 256 + 256 = k.val; omega)

/-- Two `[B, 256]` arrays joined along the last axis, read at `(b, k)`. -/
theorem concat2_apply {B : Nat}
    (h : Shape.Concatenates [(⟨2, ![B, 256]⟩ : Shape), ⟨2, ![B, 256]⟩] ⟨2, ![B, 512]⟩ 1)
    (x₁ x₂ : (⟨2, ![B, 256]⟩ : Shape).Idx → EReal) (b : Fin B) (k : Fin 512) :
    concatenate ⟨2, ![B, 512]⟩ 1 [⟨⟨2, ![B, 256]⟩, x₁⟩, ⟨⟨2, ![B, 256]⟩, x₂⟩] h (ix2 b k)
      = Cert.Agg.cat (fun k' => x₁ (ix2 b k')) (fun k' => x₂ (ix2 b k')) k := by
  unfold Cert.Agg.cat
  split
  · next hk =>
    exact concatenate_pair_apply_left 1 x₁ x₂ h (ix2 b k) rfl (ix2 b ⟨k.val, hk⟩)
      (fun a => by match a with | ⟨0, _⟩ => rfl | ⟨1, _⟩ => rfl)
  · next hk =>
    exact concatenate_pair_apply_right 1 x₁ x₂ h (ix2 b k) rfl rfl (ix2 b ⟨k.val - 256, by omega⟩)
      (fun a ha => by
        match a, ha with
        | ⟨0, _⟩, _ => rfl
        | ⟨1, _⟩, ha => exact absurd rfl ha)
      (by show k.val - 256 + 256 = k.val; omega)

variable {α : Type}

/-- A gather of whole rows of a 100000-row table through a column of start indices: where the start index at `e` is
    the wrapped word of `n`, element `(e, j)` is the table at row `rowIx n`, column `j`. -/
theorem gather_rows_wrap {C E : Nat} (G : GatherDims ⟨2, ![100000, C]⟩ ⟨2, ![E, 1]⟩ ⟨2, ![E, C]⟩)
    (hod : G.offsetDims = [1]) (hcd : G.collapsedSliceDims = [0]) (hob : G.operandBatchingDims = [])
    (hsb : G.startIndicesBatchingDims = []) (hsm : G.startIndexMap = [0]) (hiv : G.indexVectorDim = 1)
    (hss : G.sliceSizes = ![1, C])
    (x : (⟨2, ![100000, C]⟩ : Shape).Idx → α) (idx : IVec ⟨2, ![E, 1]⟩ 32) (n : BitVec 32) (e : Fin E) (j : Fin C)
    (hn : idx (ix2 e (0 : Fin 1)) = Cert.Agg.wrapWord n) :
    Host.gather G x idx (ix2 e j) = x (ix2 (Cert.Agg.rowIx n) j) := by
  obtain ⟨wf, rfl⟩ := LibGatherRows.eq_rowDims G hod hcd hob hsb hsm hiv hss
  rw [LibGatherRows.gather_rows_apply (by decide) wf x idx e j]
  refine congrArg x (congrArg (fun r => ix2 r j) (Fin.ext ?_))
  show min (idx (ix2 e (0 : Fin 1))).toInt.toNat (100000 - 1) = min (Cert.Agg.wrapWord n).toInt.toNat 99999
  rw [hn]

/-- The same through a two-axis table of start indices `[B, D, 1]`. -/
theorem gather_rows3_wrap {C B D : Nat} (G : GatherDims ⟨2, ![100000, C]⟩ ⟨3, ![B, D, 1]⟩ ⟨3, ![B, D, C]⟩)
    (hod : G.offsetDims = [2]) (hcd : G.collapsedSliceDims = [0]) (hob : G.operandBatchingDims = [])
    (hsb : G.startIndicesBatchingDims = []) (hsm : G.startIndexMap = [0]) (hiv : G.indexVectorDim = 2)
    (hss : G.sliceSizes = ![1, C])
    (x : (⟨2, ![100000, C]⟩ : Shape).Idx → α) (idx : IVec ⟨3, ![B, D, 1]⟩ 32) (n : BitVec 32) (b : Fin B) (d : Fin D)
    (j : Fin C) (hn : idx (ix3 b d (0 : Fin 1)) = Cert.Agg.wrapWord n) :
    Host.gather G x idx (ix3 b d j) = x (ix2 (Cert.Agg.rowIx n) j) := by
  obtain ⟨wf, rfl⟩ := LibGatherRows3.eq_rowDims3 G hod hcd hob hsb hsm hiv hss
  rw [LibGatherRows3.gather_rows3_apply (by decide) wf x idx b d j]
  refine congrArg x (congrArg (fun r => ix2 r j) (Fin.ext ?_))
  show min (idx (ix3 b d (0 : Fin 1))).toInt.toNat (100000 - 1) = min (Cert.Agg.wrapWord n).toInt.toNat 99999
  rw [hn]

/-! ### The specification's arguments, read off the argument arrays -/

/-- A node's own 256-wide row of a table. -/
abbrev selfRow (x : (⟨2, ![100000, 256]⟩ : Shape).Idx → EReal) (n : BitVec 32) : Fin 256 → EReal :=
  fun k => x (ix2 (Cert.Agg.rowIx n) k)

/-- The 32 rows of a table that a node's neighbour words address. -/
abbrev nbRows (x : (⟨2, ![100000, 256]⟩ : Shape).Idx → EReal) (adj : (⟨2, ![100000, 32]⟩ : Shape).Idx → BitVec 32)
    (n : BitVec 32) : Fin 32 → Fin 256 → EReal :=
  fun d k => x (ix2 (Cert.Agg.rowIx (adj (ix2 (Cert.Agg.rowIx n) d))) k)

/-- A weight array by output feature and input position. -/
abbrev mat (W : (⟨2, ![256, 512]⟩ : Shape).Idx → EReal) : Fin 256 → Fin 512 → EReal := fun o k => W (ix2 o k)

/-- A bias array by output feature. -/
abbrev vec (b : (⟨1, ![256]⟩ : Shape).Idx → EReal) : Fin 256 → EReal := fun o => b (ix1 o)

/-- A node's output row is the specification's row function of these. -/
theorem nodeOut_eq (feat feats : (⟨2, ![100000, 256]⟩ : Shape).Idx → EReal)
    (adj : (⟨2, ![100000, 32]⟩ : Shape).Idx → BitVec 32)
    (W1 : (⟨2, ![256, 512]⟩ : Shape).Idx → EReal) (b1 : (⟨1, ![256]⟩ : Shape).Idx → EReal)
    (W2 : (⟨2, ![256, 512]⟩ : Shape).Idx → EReal) (b2 : (⟨1, ![256]⟩ : Shape).Idx → EReal)
    (n : BitVec 32) (j : Fin 256) :
    Cert.Agg.nodeOut feat feats adj W1 b1 W2 b2 n j
      = Cert.Agg.rowOut (selfRow feat n) (nbRows feat adj n) (nbRows feats adj n) (mat W1) (vec b1) (mat W2) (vec b2) j :=
  rfl

end Cert.ReferenceIdeal.RefValueLib

end
-- ==== Proof.RefValue0.lean ====
/-
  Result 0 of the reference, the one for the batch of node words in argument 7, as one whole-array function of the
  argument arrays.
  Read index by index: the column of start indices is the wrapped node word, so the two gathers by node read the
  node's own feature row and its 32 neighbour words; the neighbour words, wrapped the same way, address the two
  256-wide rows that are joined and sent through the first linear layer; the 32 contributions are summed from a zero
  initial value; the node's row joined with that sum goes through the second linear layer (the weight array is read
  transposed, so the sum runs along its second axis); the result is divided by the larger of the square root of its
  sum of squares and the fixed constant. That is the specification's node row, and the array is its array.
-/
import proofs.«128609_j49039936585979_1_alg».proof.Proof.RefRead
import proofs.«128609_j49039936585979_1_alg».proof.Proof.Spec
import proofs.«128609_j49039936585979_1_alg».proof.Proof.RefValueLib
import Idealize.ShloMosaic.PureOps.Ideal.Laws

noncomputable section

namespace Cert.ReferenceIdeal.RefValue0

open Idealize.ShloMosaic Idealize.ShloMosaic.ValueIdx Idealize.SL.Sem Cert.ReferenceIdeal Cert.ReferenceIdeal.PRead
  Cert.ReferenceIdeal.RefValueLib
open Cert.Agg (cat emb nsum lin2 rowOut wrapWord rowIx nodeOut outArr outArr_ix2)

-- the two feature tables, the two layers' weights and biases, the neighbour table, the batch's node words
variable (x0 x1 : (⟨S100000x256, .f32⟩ : BufTy).Contents (Elt Ideal)) (x2 : (⟨S256x512, .f32⟩ : BufTy).Contents (Elt Ideal)) (x3 : (⟨S256, .f32⟩ : BufTy).Contents (Elt Ideal))
  (x4 : (⟨S256x512, .f32⟩ : BufTy).Contents (Elt Ideal)) (x5 : (⟨S256, .f32⟩ : BufTy).Contents (Elt Ideal)) (x6 : (⟨S100000x32, .i32⟩ : BufTy).Contents (Elt Ideal)) (x7 : (⟨S8192, .i32⟩ : BufTy).Contents (Elt Ideal))

/-! ### Index functions of the printed operations at explicit coordinates -/

theorem ix_v5 (i : Fin 8192) : idx_main_v5 (ix2 i (0 : Fin 1)) = ix1 i :=
  funext fun a => Fin.ext (by match a with | ⟨0, _⟩ => rfl)
theorem ix_v12 (i : Fin 8192) : idx_main_v12 (ix2 i (0 : Fin 1)) = ix1 i :=
  funext fun a => Fin.ext (by match a with | ⟨0, _⟩ => rfl)
theorem ix_v19 (i : Fin 8192) (d : Fin 32) : idx_main_v19 (ix3 i d (0 : Fin 1)) = ix2 i d :=
  funext fun a => Fin.ext (by match a with | ⟨0, _⟩ => rfl | ⟨1, _⟩ => rfl)
theorem ix_v26 (i : Fin 8192) (d : Fin 32) : idx_main_v26 (ix3 i d (0 : Fin 1)) = ix2 i d :=
  funext fun a => Fin.ext (by match a with | ⟨0, _⟩ => rfl | ⟨1, _⟩ => rfl)
theorem lx_v29 (i : Fin 8192) (d : Fin 32) (o : Fin 256) (k : Fin 512) : lidx_main_v29 (ix3 i d o) k = ix3 i d k :=
  funext fun a => Fin.ext (by match a with | ⟨0, _⟩ => rfl | ⟨1, _⟩ => rfl | ⟨2, _⟩ => rfl)
theorem rx_v29 (i : Fin 8192) (d : Fin 32) (o : Fin 256) (k : Fin 512) : ridx_main_v29 (ix3 i d o) k = ix2 o k :=
  funext fun a => Fin.ext (by match a with | ⟨0, _⟩ => rfl | ⟨1, _⟩ => rfl)
theorem ix_v33 (i : Fin 8192) (o : Fin 256) (d : Fin 32) : idx_main_v33 (ix2 i o) d = ix3 i d o :=
  funext fun a => Fin.ext (by match a with | ⟨0, _⟩ => rfl | ⟨1, _⟩ => rfl | ⟨2, _⟩ => rfl)
theorem lx_v36 (i : Fin 8192) (j : Fin 256) (k : Fin 512) : lidx_main_v36 (ix2 i j) k = ix2 i k :=
  funext fun a => Fin.ext (by match a with | ⟨0, _⟩ => rfl | ⟨1, _⟩ => rfl)
theorem rx_v36 (i : Fin 8192) (j : Fin 256) (k : Fin 512) : ridx_main_v36 (ix2 i j) k = ix2 k j :=
  funext fun a => Fin.ext (by match a with | ⟨0, _⟩ => rfl | ⟨1, _⟩ => rfl)
theorem ix_v35 (j : Fin 256) (k : Fin 512) : idx_main_v35 (ix2 k j) = ix2 j k :=
  funext fun a => Fin.ext (by match a with | ⟨0, _⟩ => rfl | ⟨1, _⟩ => rfl)
theorem ic1 (i : Fin 8192) (k : Fin 256) : idx_main_call0_v1 (ix1 i) k = ix2 i k :=
  funext fun a => Fin.ext (by match a with | ⟨0, _⟩ => rfl | ⟨1, _⟩ => rfl)
theorem ic2 (i : Fin 8192) : idx_main_call0_v2 (ix2 i (0 : Fin 1)) = ix1 i :=
  funext fun a => Fin.ext (by match a with | ⟨0, _⟩ => rfl)
theorem ix_v43 (i : Fin 8192) (j : Fin 256) : idx_main_v43 (ix2 i j) = ix2 i (0 : Fin 1) :=
  funext fun a => Fin.ext (by match a with | ⟨0, _⟩ => rfl | ⟨1, _⟩ => rfl)

/-! ### The start indices: wrapped words -/

/-- The column of start indices of the node's own row: entry `i` is node `i`'s word, wrapped. -/
theorem at_v5 (i : Fin 8192) :
    val_main_v5 (F := Ideal) x7 (ix2 i (0 : Fin 1)) = wrapWord (x7 (ix1 i)) := by
  rw [val_main_v5_apply, ix_v5, val_main_v4_apply, val_main_v1_apply, val_main_v3_apply]
  rfl

/-- The column of start indices of the node's neighbour list: the same wrapped word. -/
theorem at_v12 (i : Fin 8192) :
    val_main_v12 (F := Ideal) x7 (ix2 i (0 : Fin 1)) = wrapWord (x7 (ix1 i)) := by
  rw [val_main_v12_apply, ix_v12, val_main_v11_apply, val_main_v8_apply, val_main_v10_apply]
  rfl

/-- The node's own feature row. -/
theorem at_v6 (i : Fin 8192) (j : Fin 256) :
    val_main_v6 (F := Ideal) x0 x7 (ix2 i j) = selfRow x0 (x7 (ix1 i)) j := by
  unfold val_main_v6
  exact gather_rows_wrap _ rfl rfl rfl rfl rfl rfl rfl x0 _ _ i j (at_v5 x7 i)

/-- The node's 32 neighbour words. -/
theorem at_v13 (i : Fin 8192) (d : Fin 32) :
    val_main_v13 (F := Ideal) x6 x7 (ix2 i d) = x6 (ix2 (rowIx (x7 (ix1 i))) d) := by
  unfold val_main_v13
  exact gather_rows_wrap _ rfl rfl rfl rfl rfl rfl rfl x6 _ _ i d (at_v12 x7 i)

/-- The start indices into the first table: neighbour `d`'s word, wrapped. -/
theorem at_v19 (i : Fin 8192) (d : Fin 32) :
    val_main_v19 (F := Ideal) x6 x7 (ix3 i d (0 : Fin 1)) = wrapWord (x6 (ix2 (rowIx (x7 (ix1 i))) d)) := by
  rw [val_main_v19_apply, ix_v19, val_main_v18_apply, val_main_v15_apply, val_main_v17_apply, at_v13]
  rfl

/-- The start indices into the second table: the same wrapped word. -/
theorem at_v26 (i : Fin 8192) (d : Fin 32) :
    val_main_v26 (F := Ideal) x6 x7 (ix3 i d (0 : Fin 1)) = wrapWord (x6 (ix2 (rowIx (x7 (ix1 i))) d)) := by
  rw [val_main_v26_apply, ix_v26, val_main_v25_apply, val_main_v22_apply, val_main_v24_apply, at_v13]
  rfl

/-! ### The neighbours' joined rows and the first linear layer -/

/-- Neighbour `d`'s row of the first table. -/
theorem at_v20 (i : Fin 8192) (d : Fin 32) (k : Fin 256) :
    val_main_v20 (F := Ideal) x0 x6 x7 (ix3 i d k) = nbRows x0 x6 (x7 (ix1 i)) d k := by
  unfold val_main_v20
  exact gather_rows3_wrap _ rfl rfl rfl rfl rfl rfl rfl x0 _ _ i d k (at_v19 x6 x7 i d)

/-- Neighbour `d`'s row of the second table. -/
theorem at_v27 (i : Fin 8192) (d : Fin 32) (k : Fin 256) :
    val_main_v27 (F := Ideal) x1 x6 x7 (ix3 i d k) = nbRows x1 x6 (x7 (ix1 i)) d k := by
  unfold val_main_v27
  exact gather_rows3_wrap _ rfl rfl rfl rfl rfl rfl rfl x1 _ _ i d k (at_v26 x6 x7 i d)

/-- The two rows joined. -/
theorem at_v28 (i : Fin 8192) (d : Fin 32) (k : Fin 512) :
    val_main_v28 (F := Ideal) x0 x1 x6 x7 (ix3 i d k) = cat (nbRows x0 x6 (x7 (ix1 i)) d) (nbRows x1 x6 (x7 (ix1 i)) d) k := by
  unfold val_main_v28
  refine (concat3_apply _ _ _ i d k).trans ?_
  exact congrArg₂ (fun a b => cat a b k) (funext fun k' => at_v20 x0 x6 x7 i d k')
    (funext fun k' => at_v27 x1 x6 x7 i d k')

/-- The bias of the first layer, broadcast over nodes and neighbours. -/
theorem at_v31 (i : Fin 8192) (d : Fin 32) (o : Fin 256) :
    val_main_v31 (F := Ideal) x3 (ix3 i d o) = vec x3 o := by
  rw [val_main_v31_apply, val_main_v30_apply]
  exact congrArg x3 (funext fun a => Fin.ext (by match a with | ⟨0, _⟩ => rfl))

/-- Neighbour `d`'s contribution at output feature `o`. -/
theorem at_v32 (i : Fin 8192) (d : Fin 32) (o : Fin 256) :
    val_main_v32 (F := Ideal) x0 x1 x2 x3 x6 x7 (ix3 i d o)
      = emb (nbRows x0 x6 (x7 (ix1 i))) (nbRows x1 x6 (x7 (ix1 i))) (mat x2) (vec x3) d o := by
  rw [val_main_v32_apply, Ideal.addf_def, val_main_v29_apply, at_v31]
  unfold emb
  refine congrArg (· + vec x3 o) (Finset.sum_congr rfl fun k _ => ?_)
  rw [lx_v29, rx_v29, at_v28]

/-- The 32 contributions summed from a zero initial value. -/
theorem at_v33 (i : Fin 8192) (o : Fin 256) :
    val_main_v33 (F := Ideal) x0 x1 x2 x3 x6 x7 (ix2 i o)
      = nsum (nbRows x0 x6 (x7 (ix1 i))) (nbRows x1 x6 (x7 (ix1 i))) (mat x2) (vec x3) o := by
  rw [val_main_v33_apply, val_main_cst_apply, Ideal.ofBits_def, Ideal.ofBits_zero_f32, zero_add]
  unfold nsum
  refine Finset.sum_congr rfl fun d _ => ?_
  rw [ix_v33, at_v32]

/-! ### The second linear layer -/

/-- The node's row joined with the neighbour sum. -/
theorem at_v34 (i : Fin 8192) (k : Fin 512) :
    val_main_v34 (F := Ideal) x0 x1 x2 x3 x6 x7 (ix2 i k) = cat (selfRow x0 (x7 (ix1 i))) (nsum (nbRows x0 x6 (x7 (ix1 i))) (nbRows x1 x6 (x7 (ix1 i))) (mat x2) (vec x3)) k := by
  unfold val_main_v34
  refine (concat2_apply _ _ _ i k).trans ?_
  exact congrArg₂ (fun a b => cat a b k) (funext fun k' => at_v6 x0 x7 i k')
    (funext fun k' => at_v33 x0 x1 x2 x3 x6 x7 i k')

/-- The bias of the second layer, broadcast over nodes. -/
theorem at_v38 (i : Fin 8192) (j : Fin 256) :
    val_main_v38 (F := Ideal) x5 (ix2 i j) = vec x5 j := by
  rw [val_main_v38_apply, val_main_v37_apply]
  exact congrArg x5 (funext fun a => Fin.ext (by match a with | ⟨0, _⟩ => rfl))

/-- The second layer's output at feature `j`. -/
theorem at_v39 (i : Fin 8192) (j : Fin 256) :
    val_main_v39 (F := Ideal) x0 x1 x2 x3 x4 x5 x6 x7 (ix2 i j) = lin2 (selfRow x0 (x7 (ix1 i))) (nbRows x0 x6 (x7 (ix1 i))) (nbRows x1 x6 (x7 (ix1 i))) (mat x2) (vec x3) (mat x4) (vec x5) j := by
  rw [val_main_v39_apply, Ideal.addf_def, val_main_v36_apply, at_v38]
  unfold lin2
  refine congrArg (· + vec x5 j) (Finset.sum_congr rfl fun k _ => ?_)
  rw [lx_v36, rx_v36, at_v34, val_main_v35_apply, ix_v35]

/-! ### The division by the norm -/

/-- The row's sum of squares, from a zero initial value. -/
theorem sq_at (i : Fin 8192) :
    val_main_call0_v1 (F := Ideal) x0 x1 x2 x3 x4 x5 x6 x7 (ix1 i) = ∑ j' : Fin 256, lin2 (selfRow x0 (x7 (ix1 i))) (nbRows x0 x6 (x7 (ix1 i))) (nbRows x1 x6 (x7 (ix1 i))) (mat x2) (vec x3) (mat x4) (vec x5) j' * lin2 (selfRow x0 (x7 (ix1 i))) (nbRows x0 x6 (x7 (ix1 i))) (nbRows x1 x6 (x7 (ix1 i))) (mat x2) (vec x3) (mat x4) (vec x5) j' := by
  rw [val_main_call0_v1_apply, val_main_call0_cst_apply, Ideal.ofBits_def, Ideal.ofBits_zero_f32, zero_add]
  refine Finset.sum_congr rfl fun k _ => ?_
  rw [ic1, val_main_call0_v0_apply, Ideal.mulf_def, at_v39]

/-- The divisor: the larger of the norm and the constant. -/
theorem at_v42 (i : Fin 8192) :
    val_main_v42 (F := Ideal) x0 x1 x2 x3 x4 x5 x6 x7 (ix2 i (0 : Fin 1))
      = max (Ideal.sqrt (∑ j' : Fin 256, lin2 (selfRow x0 (x7 (ix1 i))) (nbRows x0 x6 (x7 (ix1 i))) (nbRows x1 x6 (x7 (ix1 i))) (mat x2) (vec x3) (mat x4) (vec x5) j' * lin2 (selfRow x0 (x7 (ix1 i))) (nbRows x0 x6 (x7 (ix1 i))) (nbRows x1 x6 (x7 (ix1 i))) (mat x2) (vec x3) (mat x4) (vec x5) j')) (Ideal.ofBits .f32 0x2B8CBCCC#32) := by
  rw [val_main_v42_apply, Ideal.maximumf_def, val_main_v40_apply, Ideal.hostUnary_sqrt_def, val_main_call0_v2_apply, ic2, sq_at,
    val_main_v41_apply, val_main_cst_7_apply, Ideal.ofBits_def]

/-- The result at `(i, j)` is node `i`'s output row at `j`. -/
theorem at_v44 (i : Fin 8192) (j : Fin 256) :
    val_main_v44 (F := Ideal) x0 x1 x2 x3 x4 x5 x6 x7 (ix2 i j) = nodeOut x0 x1 x6 x2 x3 x4 x5 (x7 (ix1 i)) j := by
  rw [val_main_v44_apply, Ideal.hostDivf_def, at_v39, val_main_v43_apply, ix_v43, at_v42]
  rfl

/-- The result array is the specification's array. -/
theorem val_eq :
    val_main_v44 (F := Ideal) x0 x1 x2 x3 x4 x5 x6 x7 = outArr 8192 x0 x1 x6 x2 x3 x4 x5 x7 := by
  funext y
  obtain ⟨i, j, rfl⟩ : ∃ (i : Fin 8192) (j : Fin 256), y = ix2 i j := ⟨y 0, y 1, eq_ix2 y⟩
  rw [outArr_ix2]
  exact at_v44 x0 x1 x2 x3 x4 x5 x6 x7 i j

end Cert.ReferenceIdeal.RefValue0

end
-- ==== Proof.RefValue.lean ====
/-
  The reference's three results, each as the specification's array of its batch of node words.

  Each result of the run is, operation by operation, the stage that the read-at-an-index lemmas are stated of; the first
  and third stages are the specification's array by the two per-call modules; the second call applies the very
  operations of the first to the second batch of node words, so its stage is the first call's function at that batch.
-/
import proofs.«128609_j49039936585979_1_alg».proof.Proof.RefRead
import proofs.«128609_j49039936585979_1_alg».proof.Proof.Spec
import proofs.«128609_j49039936585979_1_alg».proof.Proof.LibGatherRows
import proofs.«128609_j49039936585979_1_alg».proof.Proof.LibGatherRows3
import proofs.«128609_j49039936585979_1_alg».proof.Proof.RefValueLib
import proofs.«128609_j49039936585979_1_alg».proof.Proof.RefValue0
import proofs.«128609_j49039936585979_1_alg».proof.Proof.RefValue2

noncomputable section

namespace Cert.ReferenceIdeal.RefValue

open Idealize.ShloMosaic Idealize.ShloMosaic.ValueIdx Idealize.ShloMosaic.TcCoe Idealize.SL.Sem Cert.ReferenceIdeal
  Cert.ReferenceIdeal.PRead

/-- The second call is the first call's function at the second batch of node words: the same operations, in the same
    order, on the same tables. -/
theorem call1_eq_call0 (x0 x1 : (⟨S100000x256, .f32⟩ : BufTy).Contents (Elt Ideal)) (x2 : (⟨S256x512, .f32⟩ : BufTy).Contents (Elt Ideal))
    (x3 : (⟨S256, .f32⟩ : BufTy).Contents (Elt Ideal)) (x4 : (⟨S256x512, .f32⟩ : BufTy).Contents (Elt Ideal)) (x5 : (⟨S256, .f32⟩ : BufTy).Contents (Elt Ideal))
    (x6 : (⟨S100000x32, .i32⟩ : BufTy).Contents (Elt Ideal)) (x8 : (⟨S8192, .i32⟩ : BufTy).Contents (Elt Ideal)) :
    val_main_v89 (F := Ideal) x0 x1 x2 x3 x4 x5 x6 x8 = val_main_v44 (F := Ideal) x0 x1 x2 x3 x4 x5 x6 x8 := rfl

/-- The first result is the specification's array of the first batch. -/
theorem out0_eq (m : (ℓ : Loc nD τ sig) → Buf (Elt Ideal) ℓ) (c : Dev nD) :
    Cert.ReferenceIdeal.PValue.res_out0 (F := Ideal) m c
      = Cert.Agg.outArr 8192 (m ((c.tc : Thread nD τ).loc main_arg0)) (m ((c.tc : Thread nD τ).loc main_arg1))
          (m ((c.tc : Thread nD τ).loc main_arg6)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg7)) :=
  (val_main_v44_eq m c).trans (RefValue0.val_eq _ _ _ _ _ _ _ _)

/-- The second result is the specification's array of the second batch. -/
theorem out1_eq (m : (ℓ : Loc nD τ sig) → Buf (Elt Ideal) ℓ) (c : Dev nD) :
    Cert.ReferenceIdeal.PValue.res_out1 (F := Ideal) m c
      = Cert.Agg.outArr 8192 (m ((c.tc : Thread nD τ).loc main_arg0)) (m ((c.tc : Thread nD τ).loc main_arg1))
          (m ((c.tc : Thread nD τ).loc main_arg6)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg8)) :=
  (val_main_v89_eq m c).trans ((call1_eq_call0 _ _ _ _ _ _ _ _).trans (RefValue0.val_eq _ _ _ _ _ _ _ _))

/-- The third result is the specification's array of the ten node words of the third batch. -/
theorem out2_eq (m : (ℓ : Loc nD τ sig) → Buf (Elt Ideal) ℓ) (c : Dev nD) :
    Cert.ReferenceIdeal.PValue.res_out2 (F := Ideal) m c
      = Cert.Agg.outArr 10 (m ((c.tc : Thread nD τ).loc main_arg0)) (m ((c.tc : Thread nD τ).loc main_arg1))
          (m ((c.tc : Thread nD τ).loc main_arg6)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg9)) :=
  (val_main_v134_eq m c).trans (RefValue2.val_eq _ _ _ _ _ _ _ _)

end Cert.ReferenceIdeal.RefValue

end
-- ==== Proof.lean ====
/-
  Three batches of graph nodes (8192, 8192 and 10 node words) are each mapped to an output row per node: the node's own
  feature row joined with the sum, over its 32 neighbours, of a linear layer applied to the neighbour's two feature rows
  joined, put through a second linear layer and divided by the larger of its Euclidean norm and a small constant.

  The kernel's program gathers the rows on the host, hands them in blocks of 128 nodes to one pipelined call per batch
  (the third batch padded with zero words to one block, the padding rows dropped afterwards), and inside a block takes
  both linear layers as matrix products into a zero accumulator and the neighbour sum as a lane reduction. The reference
  takes the same gathers, the layers as general dot products over whole arrays, and the sums as host reductions. Over
  the extended reals a change of float format is the identity, a product into zero is the plain sum, and a reduction
  from a zero initial value is the plain sum, so both programs compute, row by row, one and the same function
  (`Cert.Agg.nodeOut`) of the argument arrays at the node's word; no law beyond re-indexing the same sums is used,
  and the precondition is never opened. A gather clamps its start index, so both programs read the same table row
  whatever the index words are.

  The two kernel frames are the generated ones; the reference's frame is its generated run with the results dropped;
  the idealization rewrote nothing, so there is nothing to preserve.
-/
import proofs.«128609_j49039936585979_1_alg».proof.Defs
import proofs.«128609_j49039936585979_1_alg».proof.Proof.Gen.Kernel
import proofs.«128609_j49039936585979_1_alg».proof.Proof.Gen.Kernel.Skeleton
import proofs.«128609_j49039936585979_1_alg».proof.Proof.Gen.Kernel.Launch
import proofs.«128609_j49039936585979_1_alg».proof.Proof.Gen.Kernel.Points
import proofs.«128609_j49039936585979_1_alg».proof.Proof.Gen.Kernel.Frame
import proofs.«128609_j49039936585979_1_alg».proof.Proof.Gen.KernelIdeal
import proofs.«128609_j49039936585979_1_alg».proof.Proof.Gen.KernelIdeal.Skeleton
import proofs.«128609_j49039936585979_1_alg».proof.Proof.Gen.KernelIdeal.Launch
import proofs.«128609_j49039936585979_1_alg».proof.Proof.Gen.KernelIdeal.Points
import proofs.«128609_j49039936585979_1_alg».proof.Proof.Gen.KernelIdeal.Frame
import proofs.«128609_j49039936585979_1_alg».proof.Proof.Gen.ReferenceIdeal
import proofs.«128609_j49039936585979_1_alg».proof.Proof.RefRun
import proofs.«128609_j49039936585979_1_alg».proof.Proof.Gen.Pre_finite_inputs
import proofs.«128609_j49039936585979_1_alg».proof.Proof.KernelRun
import proofs.«128609_j49039936585979_1_alg».proof.Proof.KernelVal0
import proofs.«128609_j49039936585979_1_alg».proof.Proof.KernelVal1
import proofs.«128609_j49039936585979_1_alg».proof.Proof.KernelVal2
import proofs.«128609_j49039936585979_1_alg».proof.Proof.RefValue
import Idealize.ShloMosaic.Adequacy
import Idealize.ShloMosaic.Init

noncomputable section

namespace Cert.Proof

open Idealize.ShloMosaic Idealize.SL.Sem

/-- Both idealized programs end with the three results at the node-by-node output rows of the three node vectors. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => Cert.Agg.outArr 8192 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg7)),
    fun c => Cert.Agg.outArr 8192 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg8)),
    fun c => Cert.Agg.outArr 10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg6))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Named.run_named (F := Ideal) m ρ)
    obtain ⟨h0, h1, h2, hargs⟩ := h c
    exact ⟨h0.trans (Cert.KernelIdeal.Val0.out m ρ c), h1.trans (Cert.KernelIdeal.Val1.out m ρ c), h2.trans (Cert.KernelIdeal.Val2.out m ρ c), hargs⟩
  · refine (θ_run Cert.ReferenceIdeal.defs _ _).mono (fun r h c => ?_) (Cert.ReferenceIdeal.PValue.run (F := Ideal) m' ρ')
    obtain ⟨h0, h1, h2, hargs⟩ := h c
    obtain ⟨e0, e1, e2, e3, e4, e5, e6, e7, e8, e9⟩ := hagree c
    refine ⟨h0.trans ?_, h1.trans ?_, h2.trans ?_, hargs⟩
    · show Cert.ReferenceIdeal.PValue.res_out0 (F := Ideal) m' c = _
      rw [Cert.ReferenceIdeal.RefValue.out0_eq, e0, e1, e2, e3, e4, e5, e6, e7]
    · show Cert.ReferenceIdeal.PValue.res_out1 (F := Ideal) m' c = _
      rw [Cert.ReferenceIdeal.RefValue.out1_eq, e0, e1, e2, e3, e4, e5, e6, e8]
    · show Cert.ReferenceIdeal.PValue.res_out2 (F := Ideal) m' c = _
      rw [Cert.ReferenceIdeal.RefValue.out2_eq, e0, e1, e2, e3, e4, e5, e6, e9]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2) (Cert.ReferenceIdeal.PValue.run (F := Ideal) m ρ),
  trivial,
  algebraic⟩

end Cert.Proof

end
